-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x42 : Shape := ⟨3, ![16, 900, 42]⟩
abbrev S16x900x4 : Shape := ⟨3, ![16, 900, 4]⟩
abbrev S3200x4 : Shape := ⟨2, ![3200, 4]⟩
abbrev S3200 : Shape := ⟨1, ![3200]⟩
abbrev S_ : Shape := ⟨0, ![]⟩

class Facts : Prop where
  bcast_S_S16x900x42 : S_.BroadcastsInDim S16x900x42 (![] : Fin 0 → Fin S16x900x42.rank)
  reducesTo_S16x900x42_S_d0_1_2 : S16x900x42.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S3200x4 : S_.BroadcastsInDim S3200x4 (![] : Fin 0 → Fin S3200x4.rank)
  reducesTo_S3200x4_S_d0_1 : S3200x4.ReducesTo [0, 1] S_
  bcast_S_S3200 : S_.BroadcastsInDim S3200 (![] : Fin 0 → Fin S3200.rank)
  reducesTo_S3200_S_d0 : S3200.ReducesTo [0] S_

variable [Facts]

def fn_part1 {F : FTy → Type} [FloatOps F] (main_arg3 : IVec S3200 32) (main_v13 : IVec S_ 1) (main_v15 : IVec S3200 1) (main_c_5 : IVec S_ 1) : IVec S_ 1 :=
  let main_v16 : IVec S_ 1 := (fun x v => Host.reduce IntOp.andi x v reducesTo_S3200_S_d0 h_S_) main_v15 main_c_5
  let main_v17 : IVec S_ 1 := andi main_v13 main_v16
  let main_c_6 : IVec S_ 32 := constantI S_ 32 42#32
  let main_v18 : IVec S3200 32 := broadcastInDim S3200 ![] bcast_S_S3200 main_c_6
  let main_v19 : IVec S3200 1 := cmpi .slt main_arg3 main_v18
  let main_c_7 : IVec S_ 1 := constantI S_ 1 1#1
  let main_v20 : IVec S_ 1 := (fun x v => Host.reduce IntOp.andi x v reducesTo_S3200_S_d0 h_S_) main_v19 main_c_7
  let main_v21 : IVec S_ 1 := andi main_v17 main_v20
  main_v21

def fn {F : FTy → Type} [FloatOps F] (main_arg0 : FVec F S16x900x42 .f32) (main_arg1 : FVec F S16x900x4 .f32) (main_arg2 : FVec F S3200x4 .f32) (main_arg3 : IVec S3200 32) : IVec S_ 1 :=
  let main_v0 : FVec F S16x900x42 .f32 := Host.absf main_arg0
  let main_cst : FVec F S_ .f32 := constant S_ .f32 0x7F800000#32
  let main_v1 : FVec F S16x900x42 .f32 := broadcastInDim S16x900x42 ![] bcast_S_S16x900x42 main_cst
  let main_v2 : IVec S16x900x42 1 := cmpf .olt main_v0 main_v1
  let main_c : IVec S_ 1 := constantI S_ 1 1#1
  let main_v3 : IVec S_ 1 := (fun x v => Host.reduce IntOp.andi x v reducesTo_S16x900x42_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S3200x4 .f32 := Host.absf main_arg2
  let main_cst_2 : FVec F S_ .f32 := constant S_ .f32 0x7F800000#32
  let main_v10 : FVec F S3200x4 .f32 := broadcastInDim S3200x4 ![] bcast_S_S3200x4 main_cst_2
  let main_v11 : IVec S3200x4 1 := cmpf .olt main_v9 main_v10
  let main_c_3 : IVec S_ 1 := constantI S_ 1 1#1
  let main_v12 : IVec S_ 1 := (fun x v => Host.reduce IntOp.andi x v reducesTo_S3200x4_S_d0_1 h_S_) main_v11 main_c_3
  let main_v13 : IVec S_ 1 := andi main_v8 main_v12
  let main_c_4 : IVec S_ 32 := constantI S_ 32 0#32
  let main_v14 : IVec S3200 32 := broadcastInDim S3200 ![] bcast_S_S3200 main_c_4
  let main_v15 : IVec S3200 1 := cmpi .sge main_arg3 main_v14
  let main_c_5 : IVec S_ 1 := constantI S_ 1 1#1
  fn_part1 (F := F) main_arg3 main_v13 main_v15 main_c_5
-- ==== Kernel.lean ====
abbrev S16x900x42 : Shape := ⟨3, ![16, 900, 42]⟩
abbrev S16x900x4 : Shape := ⟨3, ![16, 900, 4]⟩
abbrev S3200x4 : Shape := ⟨2, ![3200, 4]⟩
abbrev S3200 : Shape := ⟨1, ![3200]⟩
abbrev S14400x42 : Shape := ⟨2, ![14400, 42]⟩
abbrev S14400x4 : Shape := ⟨2, ![14400, 4]⟩
abbrev S4x3200 : Shape := ⟨2, ![4, 3200]⟩
abbrev S3200x1 : Shape := ⟨2, ![3200, 1]⟩
abbrev S1x42 : Shape := ⟨2, ![1, 42]⟩
abbrev S3200x42 : Shape := ⟨2, ![3200, 42]⟩
abbrev S42x3200 : Shape := ⟨2, ![42, 3200]⟩
abbrev S_ : Shape := ⟨0, ![]⟩
abbrev S14400x3200 : Shape := ⟨2, ![14400, 3200]⟩
abbrev S480x4 : Shape := ⟨2, ![480, 4]⟩
abbrev S480x42 : Shape := ⟨2, ![480, 42]⟩
abbrev S480x3200 : Shape := ⟨2, ![480, 3200]⟩
abbrev S480x1 : Shape := ⟨2, ![480, 1]⟩
abbrev S480x640 : Shape := ⟨2, ![480, 640]⟩
abbrev S4x640 : Shape := ⟨2, ![4, 640]⟩
abbrev S42x640 : Shape := ⟨2, ![42, 640]⟩
abbrev S1x640 : Shape := ⟨2, ![1, 640]⟩
abbrev S16x900x3200 : Shape := ⟨3, ![16, 900, 3200]⟩

abbrev nBuf : Space → Nat
  | .hbm => 19
  | .vmem => 8
  | .smem => 0
  | _ => 0

abbrev bufTy : (tb : Table) → Fin (tcTables nBuf tb) → BufTy
  | .hbm, ⟨0, _⟩ => ⟨S16x900x42, .f32⟩
  | .hbm, ⟨1, _⟩ => ⟨S16x900x4, .f32⟩
  | .hbm, ⟨2, _⟩ => ⟨S3200x4, .f32⟩
  | .hbm, ⟨3, _⟩ => ⟨S3200, .i32⟩
  | .hbm, ⟨4, _⟩ => ⟨S14400x42, .f32⟩
  | .hbm, ⟨5, _⟩ => ⟨S14400x4, .f32⟩
  | .hbm, ⟨6, _⟩ => ⟨S4x3200, .f32⟩
  | .hbm, ⟨7, _⟩ => ⟨S3200x1, .i32⟩
  | .hbm, ⟨8, _⟩ => ⟨S1x42, .i32⟩
  | .hbm, ⟨9, _⟩ => ⟨S3200x42, .i32⟩
  | .hbm, ⟨10, _⟩ => ⟨S3200x42, .i32⟩
  | .hbm, ⟨11, _⟩ => ⟨S3200x42, .i1⟩
  | .hbm, ⟨12, _⟩ => ⟨S3200x42, .f32⟩
  | .hbm, ⟨13, _⟩ => ⟨S42x3200, .f32⟩
  | .hbm, ⟨14, _⟩ => ⟨S_, .f32⟩
  | .hbm, ⟨15, _⟩ => ⟨S42x3200, .f32⟩
  | .hbm, ⟨16, _⟩ => ⟨S42x3200, .f32⟩
  | .hbm, ⟨17, _⟩ => ⟨S14400x3200, .f32⟩
  | .hbm, ⟨18, _⟩ => ⟨S16x900x3200, .f32⟩
  | .local _ .vmem, ⟨0, _⟩ => ⟨S480x4, .f32⟩
  | .local _ .vmem, ⟨1, _⟩ => ⟨S480x4, .f32⟩
  | .local _ .vmem, ⟨2, _⟩ => ⟨S480x42, .f32⟩
  | .local _ .vmem, ⟨3, _⟩ => ⟨S480x42, .f32⟩
  | .local _ .vmem, ⟨4, _⟩ => ⟨S4x3200, .f32⟩
  | .local _ .vmem, ⟨5, _⟩ => ⟨S42x3200, .f32⟩
  | .local _ .vmem, ⟨6, _⟩ => ⟨S480x3200, .f32⟩
  | .local _ .vmem, ⟨7, _⟩ => ⟨S480x3200, .f32⟩
  | _, _ => ⟨S16x900x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x42 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S42x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x42_S14400x42 : S16x900x42.ShapeCasts S14400x42
  shapeCasts_S16x900x4_S14400x4 : S16x900x4.ShapeCasts S14400x4
  transposes_S3200x4_S4x3200_1_0 : S3200x4.Transposes [1, 0] S4x3200
  bcast_S3200_S3200x1_0 : S3200.BroadcastsInDim S3200x1 (![0] : Fin 1 → Fin S3200x1.rank)
  bcast_S3200x1_S3200x42_0_1 : S3200x1.BroadcastsInDim S3200x42 (![0, 1] : Fin 2 → Fin S3200x42.rank)
  bcast_S1x42_S3200x42_0_1 : S1x42.BroadcastsInDim S3200x42 (![0, 1] : Fin 2 → Fin S3200x42.rank)
  transposes_S3200x42_S42x3200_1_0 : S3200x42.Transposes [1, 0] S42x3200
  bcast_S_S42x3200 : S_.BroadcastsInDim S42x3200 (![] : Fin 0 → Fin S42x3200.rank)
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S480x42_S480x42_0_0 : ∀ a, (![0, 0] : Fin 2 → Nat) a + S480x42.size a ≤ S480x42.size a
  h_S480x42 : 0 < S480x42.numel
  shapeCasts_S480x42_S480x42 : S480x42.ShapeCasts S480x42
  shapeCasts_S480x1_S480x1 : S480x1.ShapeCasts S480x1
  broadcasts_S480x1_S480x640 : S480x1.Broadcasts S480x640
  inb_S4x3200_S4x640_0_0 : ∀ a, (![0, 0] : Fin 2 → Nat) a + S4x640.size a ≤ S4x3200.size a
  h_S4x640 : 0 < S4x640.numel
  shapeCasts_S4x640_S4x640 : S4x640.ShapeCasts S4x640
  inb_S42x3200_S42x640_0_0 : ∀ a, (![0, 0] : Fin 2 → Nat) a + S42x640.size a ≤ S42x3200.size a
  h_S42x640 : 0 < S42x640.numel
  shapeCasts_S42x640_S42x640 : S42x640.ShapeCasts S42x640
  slices_S4x640_o0_0_S1x640 : S4x640.Slices ![0, 0] S1x640
  slices_S4x640_o1_0_S1x640 : S4x640.Slices ![1, 0] S1x640
  slices_S4x640_o2_0_S1x640 : S4x640.Slices ![2, 0] S1x640
  slices_S4x640_o3_0_S1x640 : S4x640.Slices ![3, 0] S1x640
  broadcasts_S1x640_S480x640 : S1x640.Broadcasts S480x640
  inb_S480x3200_S480x640_0_0 : ∀ a, (![0, 0] : Fin 2 → Nat) a + S480x640.size a ≤ S480x3200.size a
  h_S480x640 : 0 < S480x640.numel
  inb_S4x3200_S4x640_0_640 : ∀ a, (![0, 640] : Fin 2 → Nat) a + S4x640.size a ≤ S4x3200.size a
  inb_S42x3200_S42x640_0_640 : ∀ a, (![0, 640] : Fin 2 → Nat) a + S42x640.size a ≤ S42x3200.size a
  inb_S480x3200_S480x640_0_640 : ∀ a, (![0, 640] : Fin 2 → Nat) a + S480x640.size a ≤ S480x3200.size a
  inb_S4x3200_S4x640_0_1280 : ∀ a, (![0, 1280] : Fin 2 → Nat) a + S4x640.size a ≤ S4x3200.size a
  inb_S42x3200_S42x640_0_1280 : ∀ a, (![0, 1280] : Fin 2 → Nat) a + S42x640.size a ≤ S42x3200.size a
  inb_S480x3200_S480x640_0_1280 : ∀ a, (![0, 1280] : Fin 2 → Nat) a + S480x640.size a ≤ S480x3200.size a
  inb_S4x3200_S4x640_0_1920 : ∀ a, (![0, 1920] : Fin 2 → Nat) a + S4x640.size a ≤ S4x3200.size a
  inb_S42x3200_S42x640_0_1920 : ∀ a, (![0, 1920] : Fin 2 → Nat) a + S42x640.size a ≤ S42x3200.size a
  inb_S480x3200_S480x640_0_1920 : ∀ a, (![0, 1920] : Fin 2 → Nat) a + S480x640.size a ≤ S480x3200.size a
  inb_S4x3200_S4x640_0_2560 : ∀ a, (![0, 2560] : Fin 2 → Nat) a + S4x640.size a ≤ S4x3200.size a
  inb_S42x3200_S42x640_0_2560 : ∀ a, (![0, 2560] : Fin 2 → Nat) a + S42x640.size a ≤ S42x3200.size a
  inb_S480x3200_S480x640_0_2560 : ∀ a, (![0, 2560] : Fin 2 → Nat) a + S480x640.size a ≤ S480x3200.size a
  shapeCasts_S14400x3200_S16x900x3200 : S14400x3200.ShapeCasts S16x900x3200
  dot_S480x4_S4x640_S480x640_1_0_0_1_n_n_wf : DotDims.WF S480x4 S4x640 S480x640 [1] [0] [0] [1] [] []
  dot_S480x42_S42x640_S480x640_1_0_0_1_n_n_wf : DotDims.WF S480x42 S42x640 S480x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x4.size a ≤ S14400x4.size a
  hwx0_0 : ∀ i : grid0.Coords, EltTy.bits .f32 = 32 ∨ (Rect.block (s := S14400x4) S480x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x42.size a ≤ S14400x42.size a
  hwx0_1 : ∀ i : grid0.Coords, EltTy.bits .f32 = 32 ∨ (Rect.block (s := S14400x42) S480x42.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x3200.size a ≤ S4x3200.size a
  hwx0_2 : ∀ i : grid0.Coords, EltTy.bits .f32 = 32 ∨ (Rect.block (s := S4x3200) S4x3200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S42x3200.size a ≤ S42x3200.size a
  hwx0_3 : ∀ i : grid0.Coords, EltTy.bits .f32 = 32 ∨ (Rect.block (s := S42x3200) S42x3200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x3200.size a ≤ S14400x3200.size a
  hwx0_4 : ∀ i : grid0.Coords, EltTy.bits .f32 = 32 ∨ (Rect.block (s := S14400x3200) S480x3200.size (cc0_transform_4 i) (hinb0_4 i)).WholeWords (EltTy.packing .f32)

variable [Facts₀]

def dot_S480x4_S4x640_S480x640_1_0_0_1_n_n : DotDims S480x4 S4x640 S480x640 where
  lhsContracting := [1]
  rhsContracting := [0]
  lhsNonContracting := [0]
  rhsNonContracting := [1]
  lhsBatch := []
  rhsBatch := []
  wf := dot_S480x4_S4x640_S480x640_1_0_0_1_n_n_wf
def dot_S480x42_S42x640_S480x640_1_0_0_1_n_n : DotDims S480x42 S42x640 S480x640 where
  lhsContracting := [1]
  rhsContracting := [0]
  lhsNonContracting := [0]
  rhsNonContracting := [1]
  lhsBatch := []
  rhsBatch := []
  wf := dot_S480x42_S42x640_S480x640_1_0_0_1_n_n_wf

abbrev win0_0 : Pipeline.Window sig grid0 :=
  Pipeline.Window.ofSpec (Memref.whole main_v1) S480x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S480x42.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x3200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S42x3200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S480x3200.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x42 : Shape := ⟨3, ![16, 900, 42]⟩
abbrev S16x900x4 : Shape := ⟨3, ![16, 900, 4]⟩
abbrev S3200x4 : Shape := ⟨2, ![3200, 4]⟩
abbrev S3200 : Shape := ⟨1, ![3200]⟩
abbrev S14400x42 : Shape := ⟨2, ![14400, 42]⟩
abbrev S_ : Shape := ⟨0, ![]⟩
abbrev S14400x4 : Shape := ⟨2, ![14400, 4]⟩
abbrev S14400 : Shape := ⟨1, ![14400]⟩
abbrev S14400x1 : Shape := ⟨2, ![14400, 1]⟩
abbrev S1x3200 : Shape := ⟨2, ![1, 3200]⟩
abbrev S14400x3200 : Shape := ⟨2, ![14400, 3200]⟩
abbrev S4x3200 : Shape := ⟨2, ![4, 3200]⟩
abbrev S3200x1 : Shape := ⟨2, ![3200, 1]⟩
abbrev S14400x2 : Shape := ⟨2, ![14400, 2]⟩
abbrev S14400x1x2 : Shape := ⟨3, ![14400, 1, 2]⟩
abbrev S3200x2 : Shape := ⟨2, ![3200, 2]⟩
abbrev S1x3200x2 : Shape := ⟨3, ![1, 3200, 2]⟩
abbrev S14400x3200x2 : Shape := ⟨3, ![14400, 3200, 2]⟩
abbrev S14400x3200x1 : Shape := ⟨3, ![14400, 3200, 1]⟩
abbrev S16x900x3200 : Shape := ⟨3, ![16, 900, 3200]⟩

abbrev nBuf : Space → Nat
  | .hbm => 236
  | .vmem => 0
  | .smem => 0
  | _ => 0

abbrev hbmTy0_0 (i : Nat) : BufTy := match i % 128 with
  | 0 => ⟨S16x900x42, .f32⟩
  | 1 => ⟨S16x900x4, .f32⟩
  | 2 => ⟨S3200x4, .f32⟩
  | 3 => ⟨S3200, .i32⟩
  | 4 => ⟨S14400x42, .f32⟩
  | 5 => ⟨S14400x42, .f32⟩
  | 6 => ⟨S14400x42, .f32⟩
  | 7 => ⟨S_, .f32⟩
  | 8 => ⟨S14400x42, .f32⟩
  | 9 => ⟨S14400x42, .f32⟩
  | 10 => ⟨S_, .f32⟩
  | 11 => ⟨S14400x42, .f32⟩
  | 12 => ⟨S14400x42, .f32⟩
  | 13 => ⟨S14400x4, .f32⟩
  | 14 => ⟨S14400x4, .f32⟩
  | 15 => ⟨S_, .f32⟩
  | 16 => ⟨S14400, .f32⟩
  | 17 => ⟨S14400x1, .f32⟩
  | 18 => ⟨S3200x4, .f32⟩
  | 19 => ⟨S_, .f32⟩
  | 20 => ⟨S3200, .f32⟩
  | 21 => ⟨S1x3200, .f32⟩
  | 22 => ⟨S14400x3200, .f32⟩
  | 23 => ⟨S14400x3200, .f32⟩
  | 24 => ⟨S14400x3200, .f32⟩
  | 25 => ⟨S_, .f32⟩
  | 26 => ⟨S14400x4, .f32⟩
  | 27 => ⟨S14400x4, .f32⟩
  | 28 => ⟨S4x3200, .f32⟩
  | 29 => ⟨S14400x3200, .f32⟩
  | 30 => ⟨S14400x3200, .f32⟩
  | 31 => ⟨S_, .f32⟩
  | 32 => ⟨S_, .f32⟩
  | 33 => ⟨S14400x3200, .f32⟩
  | 34 => ⟨S14400x3200, .f32⟩
  | 35 => ⟨S14400x3200, .f32⟩
  | 36 => ⟨S14400x1, .f32⟩
  | 37 => ⟨S14400, .f32⟩
  | 38 => ⟨S14400x1, .f32⟩
  | 39 => ⟨S14400, .f32⟩
  | 40 => ⟨S14400x1, .f32⟩
  | 41 => ⟨S14400, .f32⟩
  | 42 => ⟨S14400x1, .f32⟩
  | 43 => ⟨S14400, .f32⟩
  | 44 => ⟨S_, .f32⟩
  | 45 => ⟨S14400, .f32⟩
  | 46 => ⟨S14400, .f32⟩
  | 47 => ⟨S14400, .f32⟩
  | 48 => ⟨S_, .f32⟩
  | 49 => ⟨S14400, .f32⟩
  | 50 => ⟨S14400, .f32⟩
  | 51 => ⟨S14400, .f32⟩
  | 52 => ⟨S_, .f32⟩
  | 53 => ⟨S14400, .f32⟩
  | 54 => ⟨S14400, .f32⟩
  | 55 => ⟨S14400, .f32⟩
  | 56 => ⟨S_, .f32⟩
  | 57 => ⟨S14400, .f32⟩
  | 58 => ⟨S14400, .f32⟩
  | 59 => ⟨S14400, .f32⟩
  | 60 => ⟨S14400x1, .f32⟩
  | 61 => ⟨S14400x1, .f32⟩
  | 62 => ⟨S14400x1, .f32⟩
  | 63 => ⟨S14400x1, .f32⟩
  | 64 => ⟨S14400x4, .f32⟩
  | 65 => ⟨S3200x1, .f32⟩
  | 66 => ⟨S3200, .f32⟩
  | 67 => ⟨S3200x1, .f32⟩
  | 68 => ⟨S3200, .f32⟩
  | 69 => ⟨S3200x1, .f32⟩
  | 70 => ⟨S3200, .f32⟩
  | 71 => ⟨S3200x1, .f32⟩
  | 72 => ⟨S3200, .f32⟩
  | 73 => ⟨S_, .f32⟩
  | 74 => ⟨S3200, .f32⟩
  | 75 => ⟨S3200, .f32⟩
  | 76 => ⟨S3200, .f32⟩
  | 77 => ⟨S_, .f32⟩
  | 78 => ⟨S3200, .f32⟩
  | 79 => ⟨S3200, .f32⟩
  | 80 => ⟨S3200, .f32⟩
  | 81 => ⟨S_, .f32⟩
  | 82 => ⟨S3200, .f32⟩
  | 83 => ⟨S3200, .f32⟩
  | 84 => ⟨S3200, .f32⟩
  | 85 => ⟨S_, .f32⟩
  | 86 => ⟨S3200, .f32⟩
  | 87 => ⟨S3200, .f32⟩
  | 88 => ⟨S3200, .f32⟩
  | 89 => ⟨S3200x1, .f32⟩
  | 90 => ⟨S3200x1, .f32⟩
  | 91 => ⟨S3200x1, .f32⟩
  | 92 => ⟨S3200x1, .f32⟩
  | 93 => ⟨S3200x4, .f32⟩
  | 94 => ⟨S14400x1, .f32⟩
  | 95 => ⟨S14400, .f32⟩
  | 96 => ⟨S14400x1, .f32⟩
  | 97 => ⟨S14400, .f32⟩
  | 98 => ⟨S14400, .f32⟩
  | 99 => ⟨S14400x1, .f32⟩
  | 100 => ⟨S14400, .f32⟩
  | 101 => ⟨S14400x1, .f32⟩
  | 102 => ⟨S14400, .f32⟩
  | 103 => ⟨S14400, .f32⟩
  | 104 => ⟨S14400, .f32⟩
  | 105 => ⟨S3200x1, .f32⟩
  | 106 => ⟨S3200, .f32⟩
  | 107 => ⟨S3200x1, .f32⟩
  | 108 => ⟨S3200, .f32⟩
  | 109 => ⟨S3200, .f32⟩
  | 110 => ⟨S3200x1, .f32⟩
  | 111 => ⟨S3200, .f32⟩
  | 112 => ⟨S3200x1, .f32⟩
  | 113 => ⟨S3200, .f32⟩
  | 114 => ⟨S3200, .f32⟩
  | 115 => ⟨S3200, .f32⟩
  | 116 => ⟨S14400x2, .f32⟩
  | 117 => ⟨S14400x1x2, .f32⟩
  | 118 => ⟨S3200x2, .f32⟩
  | 119 => ⟨S1x3200x2, .f32⟩
  | 120 => ⟨S14400x3200x2, .f32⟩
  | 121 => ⟨S14400x3200x2, .f32⟩
  | 122 => ⟨S14400x3200x2, .f32⟩
  | 123 => ⟨S14400x2, .f32⟩
  | 124 => ⟨S14400x1x2, .f32⟩
  | 125 => ⟨S3200x2, .f32⟩
  | 126 => ⟨S1x3200x2, .f32⟩
  | 127 => ⟨S14400x3200x2, .f32⟩
  | _ => ⟨S16x900x42, .f32⟩

abbrev hbmTy0_1 (i : Nat) : BufTy := match i % 128 with
  | 0 => ⟨S14400x3200x2, .f32⟩
  | 1 => ⟨S14400x3200x2, .f32⟩
  | 2 => ⟨S14400x3200x2, .f32⟩
  | 3 => ⟨S_, .f32⟩
  | 4 => ⟨S_, .f32⟩
  | 5 => ⟨S14400x3200x2, .f32⟩
  | 6 => ⟨S14400x3200x2, .f32⟩
  | 7 => ⟨S14400x3200x1, .f32⟩
  | 8 => ⟨S14400x3200, .f32⟩
  | 9 => ⟨S14400x3200x1, .f32⟩
  | 10 => ⟨S14400x3200, .f32⟩
  | 11 => ⟨S14400x3200, .f32⟩
  | 12 => ⟨S14400x1, .f32⟩
  | 13 => ⟨S1x3200, .f32⟩
  | 14 => ⟨S14400x3200, .f32⟩
  | 15 => ⟨S14400x3200, .f32⟩
  | 16 => ⟨S14400x3200, .f32⟩
  | 17 => ⟨S14400x3200, .f32⟩
  | 18 => ⟨S14400x3200, .f32⟩
  | 19 => ⟨S14400x2, .f32⟩
  | 20 => ⟨S14400x1x2, .f32⟩
  | 21 => ⟨S3200x2, .f32⟩
  | 22 => ⟨S1x3200x2, .f32⟩
  | 23 => ⟨S14400x3200x2, .f32⟩
  | 24 => ⟨S14400x3200x2, .f32⟩
  | 25 => ⟨S14400x3200x2, .f32⟩
  | 26 => ⟨S14400x2, .f32⟩
  | 27 => ⟨S14400x1x2, .f32⟩
  | 28 => ⟨S3200x2, .f32⟩
  | 29 => ⟨S1x3200x2, .f32⟩
  | 30 => ⟨S14400x3200x2, .f32⟩
  | 31 => ⟨S14400x3200x2, .f32⟩
  | 32 => ⟨S14400x3200x2, .f32⟩
  | 33 => ⟨S14400x3200x2, .f32⟩
  | 34 => ⟨S_, .f32⟩
  | 35 => ⟨S_, .f32⟩
  | 36 => ⟨S14400x3200x2, .f32⟩
  | 37 => ⟨S14400x3200x2, .f32⟩
  | 38 => ⟨S14400x3200x1, .f32⟩
  | 39 => ⟨S14400x3200, .f32⟩
  | 40 => ⟨S14400x3200x1, .f32⟩
  | 41 => ⟨S14400x3200, .f32⟩
  | 42 => ⟨S14400x3200, .f32⟩
  | 43 => ⟨S14400x3200, .f32⟩
  | 44 => ⟨S14400x3200, .f32⟩
  | 45 => ⟨S14400x3200, .f32⟩
  | 46 => ⟨S14400x3200, .f32⟩
  | 47 => ⟨S_, .f32⟩
  | 48 => ⟨S14400x42, .f32⟩
  | 49 => ⟨S14400x42, .f32⟩
  | 50 => ⟨S_, .f32⟩
  | 51 => ⟨S14400x42, .f32⟩
  | 52 => ⟨S14400x42, .f32⟩
  | 53 => ⟨S_, .f32⟩
  | 54 => ⟨S14400x42, .f32⟩
  | 55 => ⟨S14400x42, .f32⟩
  | 56 => ⟨S_, .f32⟩
  | 57 => ⟨S14400x42, .f32⟩
  | 58 => ⟨S14400x42, .f32⟩
  | 59 => ⟨S14400x42, .f32⟩
  | 60 => ⟨S14400x42, .f32⟩
  | 61 => ⟨S14400x42, .f32⟩
  | 62 => ⟨S_, .f32⟩
  | 63 => ⟨S14400x42, .f32⟩
  | 64 => ⟨S14400x42, .f32⟩
  | 65 => ⟨S_, .f32⟩
  | 66 => ⟨S14400x42, .f32⟩
  | 67 => ⟨S14400x42, .f32⟩
  | 68 => ⟨S_, .f32⟩
  | 69 => ⟨S14400x42, .f32⟩
  | 70 => ⟨S14400x42, .f32⟩
  | 71 => ⟨S_, .f32⟩
  | 72 => ⟨S14400x42, .f32⟩
  | 73 => ⟨S14400x42, .f32⟩
  | 74 => ⟨S14400x42, .f32⟩
  | 75 => ⟨S14400x42, .f32⟩
  | 76 => ⟨S14400x42, .f32⟩
  | 77 => ⟨S_, .i32⟩
  | 78 => ⟨S3200, .i32⟩
  | 79 => ⟨S3200, .i1⟩
  | 80 => ⟨S_, .i32⟩
  | 81 => ⟨S3200, .i32⟩
  | 82 => ⟨S3200, .i32⟩
  | 83 => ⟨S3200, .i32⟩
  | 84 => ⟨S3200x1, .i32⟩
  | 85 => ⟨S14400x3200, .f32⟩
  | 86 => ⟨S_, .i32⟩
  | 87 => ⟨S3200, .i32⟩
  | 88 => ⟨S3200, .i1⟩
  | 89 => ⟨S_, .i32⟩
  | 90 => ⟨S3200, .i32⟩
  | 91 => ⟨S3200, .i32⟩
  | 92 => ⟨S3200, .i32⟩
  | 93 => ⟨S3200x1, .i32⟩
  | 94 => ⟨S14400x3200, .f32⟩
  | 95 => ⟨S14400x3200, .f32⟩
  | 96 => ⟨S_, .f32⟩
  | 97 => ⟨S14400x3200, .f32⟩
  | 98 => ⟨S14400x3200, .f32⟩
  | 99 => ⟨S_, .f32⟩
  | 100 => ⟨S14400x3200, .f32⟩
  | 101 => ⟨S14400x3200, .f32⟩
  | 102 => ⟨S14400x3200, .f32⟩
  | 103 => ⟨S_, .f32⟩
  | 104 => ⟨S14400x3200, .f32⟩
  | 105 => ⟨S14400x3200, .f32⟩
  | 106 => ⟨S14400x3200, .f32⟩
  | 107 => ⟨S16x900x3200, .f32⟩
  | _ => ⟨S16x900x42, .f32⟩

abbrev hbmTy (i : Nat) : BufTy := match i / 128 with
  | 0 => hbmTy0_0 i
  | 1 => hbmTy0_1 i
  | _ => ⟨S16x900x42, .f32⟩

abbrev bufTy : (tb : Table) → Fin (tcTables nBuf tb) → BufTy
  | .hbm, ⟨i, _⟩ => hbmTy i
  | _, _ => ⟨S16x900x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_13 : Ref sig .tc := ⟨.hbm, 131, rfl⟩
abbrev main_call1_v0 : Ref sig .tc := ⟨.hbm, 132, rfl⟩
abbrev main_call1_v1 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_cst_14 : Ref sig .tc := ⟨.hbm, 162, rfl⟩
abbrev main_call2_v0 : Ref sig .tc := ⟨.hbm, 163, rfl⟩
abbrev main_call2_v1 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_cst_15 : Ref sig .tc := ⟨.hbm, 175, rfl⟩
abbrev main_v149 : Ref sig .tc := ⟨.hbm, 176, rfl⟩
abbrev main_v150 : Ref sig .tc := ⟨.hbm, 177, rfl⟩
abbrev main_cst_16 : Ref sig .tc := ⟨.hbm, 178, rfl⟩
abbrev main_v151 : Ref sig .tc := ⟨.hbm, 179, rfl⟩
abbrev main_v152 : Ref sig .tc := ⟨.hbm, 180, rfl⟩
abbrev main_cst_17 : Ref sig .tc := ⟨.hbm, 181, rfl⟩
abbrev main_v153 : Ref sig .tc := ⟨.hbm, 182, rfl⟩
abbrev main_v154 : Ref sig .tc := ⟨.hbm, 183, rfl⟩
abbrev main_cst_18 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_19 : Ref sig .tc := ⟨.hbm, 190, rfl⟩
abbrev main_v160 : Ref sig .tc := ⟨.hbm, 191, rfl⟩
abbrev main_v161 : Ref sig .tc := ⟨.hbm, 192, rfl⟩
abbrev main_cst_20 : Ref sig .tc := ⟨.hbm, 193, rfl⟩
abbrev main_v162 : Ref sig .tc := ⟨.hbm, 194, rfl⟩
abbrev main_v163 : Ref sig .tc := ⟨.hbm, 195, rfl⟩
abbrev main_cst_21 : Ref sig .tc := ⟨.hbm, 196, rfl⟩
abbrev main_v164 : Ref sig .tc := ⟨.hbm, 197, rfl⟩
abbrev main_v165 : Ref sig .tc := ⟨.hbm, 198, rfl⟩
abbrev main_cst_22 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_c : Ref sig .tc := ⟨.hbm, 205, rfl⟩
abbrev main_v171 : Ref sig .tc := ⟨.hbm, 206, rfl⟩
abbrev main_v172 : Ref sig .tc := ⟨.hbm, 207, rfl⟩
abbrev main_c_23 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_c_24 : Ref sig .tc := ⟨.hbm, 214, rfl⟩
abbrev main_v178 : Ref sig .tc := ⟨.hbm, 215, rfl⟩
abbrev main_v179 : Ref sig .tc := ⟨.hbm, 216, rfl⟩
abbrev main_c_25 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_cst_26 : Ref sig .tc := ⟨.hbm, 224, rfl⟩
abbrev main_v186 : Ref sig .tc := ⟨.hbm, 225, rfl⟩
abbrev main_v187 : Ref sig .tc := ⟨.hbm, 226, rfl⟩
abbrev main_cst_27 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_cst_28 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩

abbrev nD : Nat := 1
abbrev τ : Topo := Topo.v7x

variable {F : FTy → Type} [FloatOps F]

class Facts₀ : Prop where
  shapeCasts_S16x900x42_S14400x42 : S16x900x42.ShapeCasts S14400x42
  bcast_S_S14400x42 : S_.BroadcastsInDim S14400x42 (![] : Fin 0 → Fin S14400x42.rank)
  shapeCasts_S16x900x4_S14400x4 : S16x900x4.ShapeCasts S14400x4
  reducesTo_S14400x4_S14400_d1 : S14400x4.ReducesTo [1] S14400
  h_S_ : 0 < S_.numel
  bcast_S14400_S14400x1_0 : S14400.BroadcastsInDim S14400x1 (![0] : Fin 1 → Fin S14400x1.rank)
  reducesTo_S3200x4_S3200_d1 : S3200x4.ReducesTo [1] S3200
  bcast_S3200_S1x3200_1 : S3200.BroadcastsInDim S1x3200 (![1] : Fin 1 → Fin S1x3200.rank)
  bcast_S14400x1_S14400x3200_0_1 : S14400x1.BroadcastsInDim S14400x3200 (![0, 1] : Fin 2 → Fin S14400x3200.rank)
  bcast_S1x3200_S14400x3200_0_1 : S1x3200.BroadcastsInDim S14400x3200 (![0, 1] : Fin 2 → Fin S14400x3200.rank)
  bcast_S_S14400x4 : S_.BroadcastsInDim S14400x4 (![] : Fin 0 → Fin S14400x4.rank)
  transposes_S3200x4_S4x3200_1_0 : S3200x4.Transposes [1, 0] S4x3200
  bcast_S_S14400x3200 : S_.BroadcastsInDim S14400x3200 (![] : Fin 0 → Fin S14400x3200.rank)
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  concatenates_S14400x1_S14400x1_S14400x1_S14400x1_S14400x4_d1 : Shape.Concatenates [S14400x1, S14400x1, S14400x1, S14400x1] S14400x4 1
  slices_S3200x4_S3200x1_0_0 : S3200x4.Slices ![0, 0] S3200x1
  shapeCasts_S3200x1_S3200 : S3200x1.ShapeCasts S3200
  slices_S3200x4_S3200x1_0_1 : S3200x4.Slices ![0, 1] S3200x1
  slices_S3200x4_S3200x1_0_2 : S3200x4.Slices ![0, 2] S3200x1
  slices_S3200x4_S3200x1_0_3 : S3200x4.Slices ![0, 3] S3200x1
  bcast_S_S3200 : S_.BroadcastsInDim S3200 (![] : Fin 0 → Fin S3200.rank)
  bcast_S3200_S3200x1_0 : S3200.BroadcastsInDim S3200x1 (![0] : Fin 1 → Fin S3200x1.rank)
  concatenates_S3200x1_S3200x1_S3200x1_S3200x1_S3200x4_d1 : Shape.Concatenates [S3200x1, S3200x1, S3200x1, S3200x1] S3200x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S3200x4_S3200x2_0_0 : S3200x4.Slices ![0, 0] S3200x2
  bcast_S3200x2_S1x3200x2_1_2 : S3200x2.BroadcastsInDim S1x3200x2 (![1, 2] : Fin 2 → Fin S1x3200x2.rank)
  bcast_S14400x1x2_S14400x3200x2_0_1_2 : S14400x1x2.BroadcastsInDim S14400x3200x2 (![0, 1, 2] : Fin 3 → Fin S14400x3200x2.rank)
  bcast_S1x3200x2_S14400x3200x2_0_1_2 : S1x3200x2.BroadcastsInDim S14400x3200x2 (![0, 1, 2] : Fin 3 → Fin S14400x3200x2.rank)
  slices_S14400x4_S14400x2_0_2 : S14400x4.Slices ![0, 2] S14400x2
  slices_S3200x4_S3200x2_0_2 : S3200x4.Slices ![0, 2] S3200x2
  bcast_S_S14400x3200x2 : S_.BroadcastsInDim S14400x3200x2 (![] : Fin 0 → Fin S14400x3200x2.rank)
  slices_S14400x3200x2_S14400x3200x1_0_0_0 : S14400x3200x2.Slices ![0, 0, 0] S14400x3200x1
  shapeCasts_S14400x3200x1_S14400x3200 : S14400x3200x1.ShapeCasts S14400x3200
  slices_S14400x3200x2_S14400x3200x1_0_0_1 : S14400x3200x2.Slices ![0, 0, 1] S14400x3200x1
  shapeCasts_S14400x3200_S16x900x3200 : S14400x3200.ShapeCasts S16x900x3200
  dot_S14400x4_S4x3200_S14400x3200_1_0_0_1_n_n_wf : DotDims.WF S14400x4 S4x3200 S14400x3200 [1] [0] [0] [1] [] []
  gather_S14400x42_S3200x1_S14400x3200_0_1_n_n_1_1_144001_wf : GatherDims.WF S14400x42 S3200x1 S14400x3200 [0] [1] [] [1] [] 1 ![14400, 1]

variable [Facts₀]

def dot_S14400x4_S4x3200_S14400x3200_1_0_0_1_n_n : DotDims S14400x4 S4x3200 S14400x3200 where
  lhsContracting := [1]
  rhsContracting := [0]
  lhsNonContracting := [0]
  rhsNonContracting := [1]
  lhsBatch := []
  rhsBatch := []
  wf := dot_S14400x4_S4x3200_S14400x3200_1_0_0_1_n_n_wf
def gather_S14400x42_S3200x1_S14400x3200_0_1_n_n_1_1_144001 : GatherDims S14400x42 S3200x1 S14400x3200 where
  offsetDims := [0]
  collapsedSliceDims := [1]
  operandBatchingDims := []
  startIndicesBatchingDims := []
  startIndexMap := [1]
  indexVectorDim := 1
  sliceSizes := ![14400, 1]
  wf := gather_S14400x42_S3200x1_S14400x3200_0_1_n_n_1_1_144001_wf

class Facts : Prop extends Facts₀ where

variable [Facts]
-- ==== Proof.Cost.lean ====
/-
  The matching cost of one (prediction, target) pair, as a function of that pair's data alone.

  A prediction is a box `a = (cx, cy, w, h)` and a row `ℓ` of 42 class logits; a target is a box `b` and a label `id < 42`.
  The cost is  5 · ‖a − b‖₂  +  2 · (−GIoU(a, b))  +  2 · (pos(ℓ id) − neg(ℓ id)),  where
    ‖a − b‖₂ = sqrt (max (|a|² + |b|² − 2 a·b) 0),
    GIoU is the generalized intersection over union of the two boxes read as corner boxes
      (x0, y0, x1, y1) = (cx − w/2, cy − h/2, cx + w/2, cy + h/2),
    pos(x) = ¼ (1 − σ x)² (−log (σ x + ε)),  neg(x) = ¾ (σ x)² (−log (1 − σ x + ε)),  σ the logistic function.

  Two spellings of this one number are defined here, each following one program's order of operations (that they agree on
  finite data is proved in the module that imports this one):
    `costK` takes the label as a column `oh` of 42 weights and sums `(pos − neg)(ℓ k) · oh k` over all classes; it writes
      `|a|²` as a plain four-term sum, doubles the finished inner product, clips by `max · 0`, negates by `0 − ·`, squares by `x · x`;
    `costR` reads class `id` directly; it writes `|a|²` as `0 + Σ`, doubles `a` inside the inner product, clips by `max 0 ·`,
      negates by `− ·`, squares by the real power with exponent 2, and spells σ x as `1 / (1 + e^(−x))`.
  The float literals stay bit patterns.
-/
import Idealize.ShloMosaic.PureOps.Ideal
import Idealize.ShloMosaic.PureOps.Ideal.Laws

noncomputable section

namespace MatchCost

open Idealize.ShloMosaic

abbrev half : EReal := Ideal.ofBits .f32 0x3F000000#32
abbrev one : EReal := Ideal.ofBits .f32 0x3F800000#32
abbrev quarter : EReal := Ideal.ofBits .f32 0x3E800000#32
abbrev threeq : EReal := Ideal.ofBits .f32 0x3F400000#32
abbrev eps : EReal := Ideal.ofBits .f32 0x322BCC77#32
abbrev zero : EReal := Ideal.ofBits .f32 0x00000000#32
abbrev two : EReal := Ideal.ofBits .f32 0x40000000#32
abbrev five : EReal := Ideal.ofBits .f32 0x40A00000#32

/-! ## The corner box of a centre box (both programs spell it the same way) -/

def x0 (a : Fin 4 → EReal) : EReal := a 0 - half * a 2
def y0 (a : Fin 4 → EReal) : EReal := a 1 - half * a 3
def x1 (a : Fin 4 → EReal) : EReal := a 0 + half * a 2
def y1 (a : Fin 4 → EReal) : EReal := a 1 + half * a 3
def area (a : Fin 4 → EReal) : EReal := (x1 a - x0 a) * (y1 a - y0 a)

/-! ## The first spelling -/

def sqK (a : Fin 4 → EReal) : EReal := a 0 * a 0 + a 1 * a 1 + a 2 * a 2 + a 3 * a 3
def distK (a b : Fin 4 → EReal) : EReal :=
  Ideal.sqrt (max ((sqK a + sqK b) - two * (∑ k : Fin 4, a k * b k)) zero)
def interK (a b : Fin 4 → EReal) : EReal :=
  max (min (x1 a) (x1 b) - max (x0 a) (x0 b)) zero * max (min (y1 a) (y1 b) - max (y0 a) (y0 b)) zero
def unionK (a b : Fin 4 → EReal) : EReal := (area a + area b) - interK a b
def hullK (a b : Fin 4 → EReal) : EReal :=
  max (max (x1 a) (x1 b) - min (x0 a) (x0 b)) zero * max (max (y1 a) (y1 b) - min (y0 a) (y0 b)) zero
def giouK (a b : Fin 4 → EReal) : EReal :=
  Ideal.div (interK a b) (unionK a b) - Ideal.div (hullK a b - unionK a b) (hullK a b)
def posK (x : EReal) : EReal :=
  quarter * ((one - Ideal.logistic x) * (one - Ideal.logistic x)) * (zero - Ideal.log (Ideal.logistic x + eps))
def negK (x : EReal) : EReal :=
  threeq * (Ideal.logistic x * Ideal.logistic x) * (zero - Ideal.log ((one - Ideal.logistic x) + eps))
def costK (ℓ : Fin 42 → EReal) (a b : Fin 4 → EReal) (oh : Fin 42 → EReal) : EReal :=
  five * distK a b + two * (zero - giouK a b) + ∑ k : Fin 42, (posK (ℓ k) - negK (ℓ k)) * oh k

/-- The label as a column of weights: 2 at the label's class, 0 elsewhere (a 0/1 indicator times the literal 2). -/
def ohcol (id k : Fin 42) : EReal := (((if k = id then 1 else 0 : ℝ)) : EReal) * two

/-! ## The second spelling -/

def sqR (a : Fin 4 → EReal) : EReal := zero + ∑ k : Fin 4, a k * a k
def distR (a b : Fin 4 → EReal) : EReal :=
  Ideal.sqrt (max zero ((sqR a + sqR b) - ∑ k : Fin 4, (two * a k) * b k))
def interR (a b : Fin 4 → EReal) : EReal :=
  max zero (min (x1 a) (x1 b) - max (x0 a) (x0 b)) * max zero (min (y1 a) (y1 b) - max (y0 a) (y0 b))
def unionR (a b : Fin 4 → EReal) : EReal := (area a + area b) - interR a b
def hullR (a b : Fin 4 → EReal) : EReal :=
  max zero (max (x1 a) (x1 b) - min (x0 a) (x0 b)) * max zero (max (y1 a) (y1 b) - min (y0 a) (y0 b))
def giouR (a b : Fin 4 → EReal) : EReal :=
  Ideal.div (interR a b) (unionR a b) - Ideal.div (hullR a b - unionR a b) (hullR a b)
def sigR (x : EReal) : EReal := Ideal.div one (one + Ideal.exp (-x))
def posR (x : EReal) : EReal := quarter * Ideal.pow (one - sigR x) two * (-(Ideal.log (sigR x + eps)))
def negR (x : EReal) : EReal := threeq * Ideal.pow (sigR x) two * (-(Ideal.log ((one - sigR x) + eps)))
def costR (ℓ : Fin 42 → EReal) (a b : Fin 4 → EReal) (id : Fin 42) : EReal :=
  five * distR a b + two * (posR (ℓ id) - negR (ℓ id)) + two * (-(giouR a b))

end MatchCost

end
-- ==== Proof.Pieces.lean ====
/-
  The output block of one grid step is written in five column chunks of 640. Each chunk's stored value, as the body's
  arithmetic applied to what the step loaded, gets a name here (`piece0` … `piece4`, chunk c covering columns 640c … 640c + 639),
  and the block is restated as those five pieces laid side by side.
-/
import proofs.«407717_j61641370632782_3_alg».proof.Proof.Gen.KernelIdeal.Frame
import proofs.«407717_j61641370632782_3_alg».proof.Proof.Cost
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen

variable {F : FTy → Type} [FloatOps F]

/-- What the step stores into columns 0 … 639 of its output block. -/
def piece0 (x0 : Vec F S480x4 .f32) (x1 : Vec F S480x42 .f32) (x2 : Vec F S4x3200 .f32) (x3 : Vec F S42x3200 .f32) : FVec F S480x640 .f32 :=
  k0_pay40 (k0_pay37 (k0_pay17 (k0_pay14 (View.ld x1 r0_1)) (k0_pay15 (View.ld x1 r0_1)) (k0_pay16 (View.ld x1 r0_1)) (Scalar.ofBits .f32 0x322BCC77#32)) (k0_pay25 (View.ld x3 r0_3))) (k0_pay38 (k0_pay23 (k0_pay11 (View.ld x0 r0_0))) (k0_pay34 (View.ld x2 r0_2)) (k0_pay36 (k0_pay2 (View.ld x0 r0_0)) (View.ld x2 r0_2))) (k0_pay39 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay30 (View.ld x2 r0_2)) (k0_pay31 (View.ld x2 r0_2)) (k0_pay32 (View.ld x2 r0_2)) (k0_pay33 (View.ld x2 r0_2)) (k0_pay35 (View.ld x2 r0_2))) (Scalar.ofBits .f32 0x40000000#32)

/-- What the step stores into columns 640 … 1279 of its output block. -/
def piece1 (x0 : Vec F S480x4 .f32) (x1 : Vec F S480x42 .f32) (x2 : Vec F S4x3200 .f32) (x3 : Vec F S42x3200 .f32) : FVec F S480x640 .f32 :=
  k0_pay54 (k0_pay17 (k0_pay14 (View.ld x1 r0_1)) (k0_pay15 (View.ld x1 r0_1)) (k0_pay16 (View.ld x1 r0_1)) (Scalar.ofBits .f32 0x322BCC77#32)) (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay42 (View.ld x3 r0_6)) (k0_pay47 (View.ld x2 r0_5)) (k0_pay48 (View.ld x2 r0_5)) (k0_pay49 (View.ld x2 r0_5)) (k0_pay50 (View.ld x2 r0_5)) (k0_pay51 (View.ld x2 r0_5)) (k0_pay52 (k0_pay2 (View.ld x0 r0_0)) (k0_pay23 (k0_pay11 (View.ld x0 r0_0))) (View.ld x2 r0_5)) (k0_pay53 (k0_pay18 (k0_pay7 (View.ld x0 r0_0))) (View.ld x2 r0_5))

/-- What the step stores into columns 1280 … 1919 of its output block. -/
def piece2 (x0 : Vec F S480x4 .f32) (x1 : Vec F S480x42 .f32) (x2 : Vec F S4x3200 .f32) (x3 : Vec F S42x3200 .f32) : FVec F S480x640 .f32 :=
  k0_pay69 (k0_pay17 (k0_pay14 (View.ld x1 r0_1)) (k0_pay15 (View.ld x1 r0_1)) (k0_pay16 (View.ld x1 r0_1)) (Scalar.ofBits .f32 0x322BCC77#32)) (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay56 (View.ld x3 r0_9)) (k0_pay61 (k0_pay55 (View.ld x2 r0_8))) (k0_pay62 (k0_pay55 (View.ld x2 r0_8))) (k0_pay63 (k0_pay55 (View.ld x2 r0_8))) (k0_pay64 (k0_pay55 (View.ld x2 r0_8))) (k0_pay65 (k0_pay55 (View.ld x2 r0_8))) (k0_pay66 (k0_pay2 (View.ld x0 r0_0)) (k0_pay23 (k0_pay11 (View.ld x0 r0_0))) (k0_pay55 (View.ld x2 r0_8))) (k0_pay67 (k0_pay18 (k0_pay7 (View.ld x0 r0_0))) (k0_pay20 (k0_pay9 (View.ld x0 r0_0))) (k0_pay55 (View.ld x2 r0_8))) (k0_pay68 (k0_pay19 (k0_pay8 (View.ld x0 r0_0))) (k0_pay21 (k0_pay10 (View.ld x0 r0_0))) (k0_pay55 (View.ld x2 r0_8))) (Scalar.ofBits .f32 0x00000000#32)

/-- What the step stores into columns 1920 … 2559 of its output block. -/
def piece3 (x0 : Vec F S480x4 .f32) (x1 : Vec F S480x42 .f32) (x2 : Vec F S4x3200 .f32) (x3 : Vec F S42x3200 .f32) : FVec F S480x640 .f32 :=
  k0_pay87 (k0_pay17 (k0_pay14 (View.ld x1 r0_1)) (k0_pay15 (View.ld x1 r0_1)) (k0_pay16 (View.ld x1 r0_1)) (Scalar.ofBits .f32 0x322BCC77#32)) (k0_pay20 (k0_pay9 (View.ld x0 r0_0))) (k0_pay21 (k0_pay10 (View.ld x0 r0_0))) (k0_pay71 (View.ld x3 r0_12)) (k0_pay79 (k0_pay73 (View.ld x2 r0_11)) (k0_pay75 (View.ld x2 r0_11))) (k0_pay80 (k0_pay2 (View.ld x0 r0_0)) (k0_pay23 (k0_pay11 (View.ld x0 r0_0))) (k0_pay70 (View.ld x2 r0_11)) (k0_pay72 (View.ld x2 r0_11)) (k0_pay73 (View.ld x2 r0_11)) (k0_pay74 (View.ld x2 r0_11)) (k0_pay75 (View.ld x2 r0_11))) (k0_pay82 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay72 (View.ld x2 r0_11)) (k0_pay73 (View.ld x2 r0_11)) (k0_pay74 (View.ld x2 r0_11)) (k0_pay75 (View.ld x2 r0_11)) (k0_pay76 (View.ld x2 r0_11))) (k0_pay83 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay72 (View.ld x2 r0_11)) (k0_pay73 (View.ld x2 r0_11)) (k0_pay74 (View.ld x2 r0_11)) (k0_pay75 (View.ld x2 r0_11)) (k0_pay76 (View.ld x2 r0_11))) (k0_pay84 (k0_pay18 (k0_pay7 (View.ld x0 r0_0))) (k0_pay76 (View.ld x2 r0_11))) (k0_pay85 (k0_pay19 (k0_pay8 (View.ld x0 r0_0))) (k0_pay73 (View.ld x2 r0_11)) (k0_pay75 (View.ld x2 r0_11))) (k0_pay86 (k0_pay72 (View.ld x2 r0_11)) (k0_pay74 (View.ld x2 r0_11)))

/-- What the step stores into columns 2560 … 3199 of its output block. -/
def piece4 (x0 : Vec F S480x4 .f32) (x1 : Vec F S480x42 .f32) (x2 : Vec F S4x3200 .f32) (x3 : Vec F S42x3200 .f32) : FVec F S480x640 .f32 :=
  k0_pay1 (k0_pay17 (k0_pay14 (View.ld x1 r0_1)) (k0_pay15 (View.ld x1 r0_1)) (k0_pay16 (View.ld x1 r0_1)) (Scalar.ofBits .f32 0x322BCC77#32)) (k0_pay89 (View.ld x3 r0_15)) (k0_pay98 (k0_pay2 (View.ld x0 r0_0)) (k0_pay23 (k0_pay11 (View.ld x0 r0_0))) (k0_pay88 (View.ld x2 r0_14)) (k0_pay90 (View.ld x2 r0_14)) (k0_pay91 (View.ld x2 r0_14)) (k0_pay92 (View.ld x2 r0_14)) (k0_pay93 (View.ld x2 r0_14))) (k0_pay100 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay94 (View.ld x2 r0_14)) (k0_pay95 (View.ld x2 r0_14)) (k0_pay96 (View.ld x2 r0_14)) (k0_pay97 (View.ld x2 r0_14))) (k0_pay101 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay22 (k0_pay12 (View.ld x0 r0_0))) (k0_pay94 (View.ld x2 r0_14)) (k0_pay95 (View.ld x2 r0_14)) (k0_pay96 (View.ld x2 r0_14)) (k0_pay97 (View.ld x2 r0_14))) (k0_pay102 (k0_pay18 (k0_pay7 (View.ld x0 r0_0))) (k0_pay19 (k0_pay8 (View.ld x0 r0_0))) (k0_pay20 (k0_pay9 (View.ld x0 r0_0))) (k0_pay21 (k0_pay10 (View.ld x0 r0_0))) (k0_pay94 (View.ld x2 r0_14)) (k0_pay95 (View.ld x2 r0_14)) (k0_pay96 (View.ld x2 r0_14)) (k0_pay97 (View.ld x2 r0_14)))

/-- The output block is its five chunks, the last-stored first. -/
theorem out0_4_pieces (x0 : Vec F S480x4 .f32) (x1 : Vec F S480x42 .f32) (x2 : Vec F S4x3200 .f32) (x3 : Vec F S42x3200 .f32) :
    out0_4 x0 x1 x2 x3 = View.canon [⟨r0_16, piece4 x0 x1 x2 x3⟩, ⟨r0_13, piece3 x0 x1 x2 x3⟩, ⟨r0_10, piece2 x0 x1 x2 x3⟩, ⟨r0_7, piece1 x0 x1 x2 x3⟩, ⟨r0_4, piece0 x0 x1 x2 x3⟩] := rfl

end Cert.KernelIdeal.Hand

end
-- ==== Proof.ChunkOps.lean ====
/-
  What the operations of the kernel body read at one entry of a 480 x 640 chunk, beyond the entrywise arithmetic: a column of the
  480 x 4 block of predicted boxes or a row of a 4 x 640 chunk of target boxes cut out and spread over the chunk (entry (p, q) of the
  spread column is the block at (p, k), of the spread row the chunk at (k, q)); a load of 640 columns of an array from column o on
  (entry (k, q) is the array at (k, o + q)); and the two matrix products into a zero accumulator (entry (p, q) is the inner product of
  row p of the left factor and column q of the right one, over 4 box coordinates or over 42 classes).
-/
import proofs.«407717_j61641370632782_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand.ChunkOps

open Cert.KernelIdeal Cert.KernelIdeal.Gen

/-! ## Layout operations of the body read at an entry -/

/-- One column broadcast over many: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of the block of predicted boxes, cut out as a `[480, 1]` array, reads the block at `(p, k)`. -/
theorem col_apply {α : Type} (X : S480x4.Idx → α) (o : ℕ) (h : S480x4.Slices ![0, o] S480x1) (p : Fin 480) (u : Fin 1)
    (k : Fin 4) (hk : k.val = o) : extractStridedSlice S480x1 ![0, o] X h (ix2 p u) = X (ix2 p k) :=
  slice2_axis1_apply o X h p u k (by have := u.isLt; omega)

/-- Row `k` of a chunk of the transposed target boxes, cut out as a `[1, 640]` array, reads the chunk at `(k, q)`. -/
theorem row_apply {α : Type} (X : S4x640.Idx → α) (o : ℕ) (h : S4x640.Slices ![o, 0] S1x640) (u : Fin 1) (q : Fin 640)
    (k : Fin 4) (hk : k.val = o) : extractStridedSlice S1x640 ![o, 0] X h (ix2 u q) = X (ix2 k q) :=
  slice2_axis0_apply o X h u q k (by have := u.isLt; omega)

/-- The four columns and the four rows, each at its literal offset. -/
theorem col0 {α : Type} (X : S480x4.Idx → α) (h : S480x4.Slices ![0, 0] S480x1) (p : Fin 480) (u : Fin 1) :
    extractStridedSlice S480x1 ![0, 0] X h (ix2 p u) = X (ix2 p (0 : Fin 4)) := col_apply X 0 h p u 0 rfl
theorem col1 {α : Type} (X : S480x4.Idx → α) (h : S480x4.Slices ![0, 1] S480x1) (p : Fin 480) (u : Fin 1) :
    extractStridedSlice S480x1 ![0, 1] X h (ix2 p u) = X (ix2 p (1 : Fin 4)) := col_apply X 1 h p u 1 rfl
theorem col2 {α : Type} (X : S480x4.Idx → α) (h : S480x4.Slices ![0, 2] S480x1) (p : Fin 480) (u : Fin 1) :
    extractStridedSlice S480x1 ![0, 2] X h (ix2 p u) = X (ix2 p (2 : Fin 4)) := col_apply X 2 h p u 2 rfl
theorem col3 {α : Type} (X : S480x4.Idx → α) (h : S480x4.Slices ![0, 3] S480x1) (p : Fin 480) (u : Fin 1) :
    extractStridedSlice S480x1 ![0, 3] X h (ix2 p u) = X (ix2 p (3 : Fin 4)) := col_apply X 3 h p u 3 rfl
theorem row0 {α : Type} (X : S4x640.Idx → α) (h : S4x640.Slices ![0, 0] S1x640) (u : Fin 1) (q : Fin 640) :
    extractStridedSlice S1x640 ![0, 0] X h (ix2 u q) = X (ix2 (0 : Fin 4) q) := row_apply X 0 h u q 0 rfl
theorem row1 {α : Type} (X : S4x640.Idx → α) (h : S4x640.Slices ![1, 0] S1x640) (u : Fin 1) (q : Fin 640) :
    extractStridedSlice S1x640 ![1, 0] X h (ix2 u q) = X (ix2 (1 : Fin 4) q) := row_apply X 1 h u q 1 rfl
theorem row2 {α : Type} (X : S4x640.Idx → α) (h : S4x640.Slices ![2, 0] S1x640) (u : Fin 1) (q : Fin 640) :
    extractStridedSlice S1x640 ![2, 0] X h (ix2 u q) = X (ix2 (2 : Fin 4) q) := row_apply X 2 h u q 2 rfl
theorem row3 {α : Type} (X : S4x640.Idx → α) (h : S4x640.Slices ![3, 0] S1x640) (u : Fin 1) (q : Fin 640) :
    extractStridedSlice S1x640 ![3, 0] X h (ix2 u q) = X (ix2 (3 : Fin 4) q) := row_apply X 3 h u q 3 rfl

/-! ## The loads -/

/-- The zero offsets of a whole-block load, as the constant function. -/
theorem off00 : (![0, 0] : Fin 2 → ℕ) = fun _ => 0 := by
  funext a; match a with | ⟨0, _⟩ => rfl | ⟨1, _⟩ => rfl

/-- A load of `w` columns from column `o` on reads, at `(k, q)`, the array at `(k, o + q)`. -/
theorem ld_cols_apply {α : EltTy → Type} {e : EltTy} {n m w : ℕ} (X : (⟨2, ![n, m]⟩ : Shape).Idx → α e) (o : ℕ)
    (inb : ∀ a, (![0, o] : Fin 2 → ℕ) a + (![n, w] : Fin 2 → ℕ) a ≤ (⟨2, ![n, m]⟩ : Shape).size a)
    (k : Fin n) (q : Fin w) (j : Fin m) (hj : j.val = o + q.val) :
    View.ld X (Rect.unit (s := ⟨2, ![n, m]⟩) ![0, o] ![n, w] inb) (ix2 k q) = X (ix2 k j) := by
  show X _ = X _
  refine congrArg X (funext fun a => Fin.ext ?_)
  match a with
  | ⟨0, _⟩ => show 0 + 1 * k.val = k.val; omega
  | ⟨1, _⟩ => show o + 1 * q.val = j.val; omega

/-! ## The two matrix products into a zero accumulator, read at an entry -/

/-- In the product over the 4 box coordinates the left factor is read at the output entry's row … -/
theorem lhs4_0 (i : S480x640.Idx) (q : dot_S480x4_S4x640_S480x640_1_0_0_1_n_n.contr.Idx) :
    (dot_S480x4_S4x640_S480x640_1_0_0_1_n_n.lhsIdx i q 0).val = (i 0).val := by
  unfold DotDims.lhsIdx
  rw [dif_neg (show ¬(0 : Fin S480x4.rank) ∈ dot_S480x4_S4x640_S480x640_1_0_0_1_n_n.lhsBatch by decide), dif_pos (show (0 : Fin S480x4.rank) ∈ dot_S480x4_S4x640_S480x640_1_0_0_1_n_n.lhsNonContracting by decide)]
  rfl
/-- … and, as its column, at the contraction index's one coordinate; -/
theorem lhs4_1 (i : S480x640.Idx) (q : dot_S480x4_S4x640_S480x640_1_0_0_1_n_n.contr.Idx) :
    (dot_S480x4_S4x640_S480x640_1_0_0_1_n_n.lhsIdx i q 1).val = (q ⟨0, by decide⟩).val :=
  dot_S480x4_S4x640_S480x640_1_0_0_1_n_n.lhsIdx_val_of_single rfl i q
/-- the right factor is read at that coordinate as its row … -/
theorem rhs4_0 (i : S480x640.Idx) (q : dot_S480x4_S4x640_S480x640_1_0_0_1_n_n.contr.Idx) :
    (dot_S480x4_S4x640_S480x640_1_0_0_1_n_n.rhsIdx i q 0).val = (q ⟨0, by decide⟩).val :=
  dot_S480x4_S4x640_S480x640_1_0_0_1_n_n.rhsIdx_val_of_single rfl i q
/-- … and at the output entry's column. -/
theorem rhs4_1 (i : S480x640.Idx) (q : dot_S480x4_S4x640_S480x640_1_0_0_1_n_n.contr.Idx) :
    (dot_S480x4_S4x640_S480x640_1_0_0_1_n_n.rhsIdx i q 1).val = (i 1).val := by
  unfold DotDims.rhsIdx
  rw [dif_neg (show ¬(1 : Fin S4x640.rank) ∈ dot_S480x4_S4x640_S480x640_1_0_0_1_n_n.rhsBatch by decide), dif_pos (show (1 : Fin S4x640.rank) ∈ dot_S480x4_S4x640_S480x640_1_0_0_1_n_n.rhsNonContracting by decide)]
  rfl

/-- The product of the box block with a chunk of target boxes, at `(p, q)`: the inner product of row `p` and column `q`. -/
theorem matmul4_apply (A : FVec Ideal S480x4 .f32) (B : FVec Ideal S4x640 .f32) (p : Fin 480) (q : Fin 640) :
    matmul dot_S480x4_S4x640_S480x640_1_0_0_1_n_n (some .fp32) A B (constant (F := Ideal) S480x640 .f32 0x00000000#32) (ix2 p q)
      = ∑ k : Fin 4, A (ix2 p k) * B (ix2 k q) := by
  show FloatOps.matmul dot_S480x4_S4x640_S480x640_1_0_0_1_n_n (some .fp32) A B (constant (F := Ideal) S480x640 .f32 0x00000000#32) (ix2 p q) = _
  rw [Ideal.matmul_constant_zero_apply, ← Equiv.sum_comp (contrEquiv1 dot_S480x4_S4x640_S480x640_1_0_0_1_n_n 4 rfl rfl).symm]
  refine Finset.sum_congr rfl fun k _ => ?_
  have hk := contrEquiv1_symm_val dot_S480x4_S4x640_S480x640_1_0_0_1_n_n 4 rfl rfl k
  have el : dot_S480x4_S4x640_S480x640_1_0_0_1_n_n.lhsIdx (ix2 p q) ((contrEquiv1 dot_S480x4_S4x640_S480x640_1_0_0_1_n_n 4 rfl rfl).symm k) = ix2 p k := funext fun a => Fin.ext (by
    match a with
    | ⟨0, _⟩ => exact lhs4_0 _ _
    | ⟨1, _⟩ => exact (lhs4_1 _ _).trans hk)
  have er : dot_S480x4_S4x640_S480x640_1_0_0_1_n_n.rhsIdx (ix2 p q) ((contrEquiv1 dot_S480x4_S4x640_S480x640_1_0_0_1_n_n 4 rfl rfl).symm k) = ix2 k q := funext fun a => Fin.ext (by
    match a with
    | ⟨0, _⟩ => exact (rhs4_0 _ _).trans hk
    | ⟨1, _⟩ => exact rhs4_1 _ _)
  rw [el, er]

/-- In the product over the 42 classes the left factor is read at the output entry's row … -/
theorem lhs42_0 (i : S480x640.Idx) (q : dot_S480x42_S42x640_S480x640_1_0_0_1_n_n.contr.Idx) :
    (dot_S480x42_S42x640_S480x640_1_0_0_1_n_n.lhsIdx i q 0).val = (i 0).val := by
  unfold DotDims.lhsIdx
  rw [dif_neg (show ¬(0 : Fin S480x42.rank) ∈ dot_S480x42_S42x640_S480x640_1_0_0_1_n_n.lhsBatch by decide), dif_pos (show (0 : Fin S480x42.rank) ∈ dot_S480x42_S42x640_S480x640_1_0_0_1_n_n.lhsNonContracting by decide)]
  rfl
/-- … and, as its column, at the contraction index's one coordinate; -/
theorem lhs42_1 (i : S480x640.Idx) (q : dot_S480x42_S42x640_S480x640_1_0_0_1_n_n.contr.Idx) :
    (dot_S480x42_S42x640_S480x640_1_0_0_1_n_n.lhsIdx i q 1).val = (q ⟨0, by decide⟩).val :=
  dot_S480x42_S42x640_S480x640_1_0_0_1_n_n.lhsIdx_val_of_single rfl i q
/-- the right factor is read at that coordinate as its row … -/
theorem rhs42_0 (i : S480x640.Idx) (q : dot_S480x42_S42x640_S480x640_1_0_0_1_n_n.contr.Idx) :
    (dot_S480x42_S42x640_S480x640_1_0_0_1_n_n.rhsIdx i q 0).val = (q ⟨0, by decide⟩).val :=
  dot_S480x42_S42x640_S480x640_1_0_0_1_n_n.rhsIdx_val_of_single rfl i q
/-- … and at the output entry's column. -/
theorem rhs42_1 (i : S480x640.Idx) (q : dot_S480x42_S42x640_S480x640_1_0_0_1_n_n.contr.Idx) :
    (dot_S480x42_S42x640_S480x640_1_0_0_1_n_n.rhsIdx i q 1).val = (i 1).val := by
  unfold DotDims.rhsIdx
  rw [dif_neg (show ¬(1 : Fin S42x640.rank) ∈ dot_S480x42_S42x640_S480x640_1_0_0_1_n_n.rhsBatch by decide), dif_pos (show (1 : Fin S42x640.rank) ∈ dot_S480x42_S42x640_S480x640_1_0_0_1_n_n.rhsNonContracting by decide)]
  rfl

/-- The product of the class-term block with a chunk of label weights, at `(p, q)`: the inner product of row `p` and column `q`. -/
theorem matmul42_apply (A : FVec Ideal S480x42 .f32) (B : FVec Ideal S42x640 .f32) (p : Fin 480) (q : Fin 640) :
    matmul dot_S480x42_S42x640_S480x640_1_0_0_1_n_n (some .fp32) A B (constant (F := Ideal) S480x640 .f32 0x00000000#32) (ix2 p q)
      = ∑ k : Fin 42, A (ix2 p k) * B (ix2 k q) := by
  show FloatOps.matmul dot_S480x42_S42x640_S480x640_1_0_0_1_n_n (some .fp32) A B (constant (F := Ideal) S480x640 .f32 0x00000000#32) (ix2 p q) = _
  rw [Ideal.matmul_constant_zero_apply, ← Equiv.sum_comp (contrEquiv1 dot_S480x42_S42x640_S480x640_1_0_0_1_n_n 42 rfl rfl).symm]
  refine Finset.sum_congr rfl fun k _ => ?_
  have hk := contrEquiv1_symm_val dot_S480x42_S42x640_S480x640_1_0_0_1_n_n 42 rfl rfl k
  have el : dot_S480x42_S42x640_S480x640_1_0_0_1_n_n.lhsIdx (ix2 p q) ((contrEquiv1 dot_S480x42_S42x640_S480x640_1_0_0_1_n_n 42 rfl rfl).symm k) = ix2 p k := funext fun a => Fin.ext (by
    match a with
    | ⟨0, _⟩ => exact lhs42_0 _ _
    | ⟨1, _⟩ => exact (lhs42_1 _ _).trans hk)
  have er : dot_S480x42_S42x640_S480x640_1_0_0_1_n_n.rhsIdx (ix2 p q) ((contrEquiv1 dot_S480x42_S42x640_S480x640_1_0_0_1_n_n 42 rfl rfl).symm k) = ix2 k q := funext fun a => Fin.ext (by
    match a with
    | ⟨0, _⟩ => exact (rhs42_0 _ _).trans hk
    | ⟨1, _⟩ => exact rhs42_1 _ _)
  rw [el, er]

/-! ## The three entrywise functions the library's index lemmas do not list -/

/-- A square root at an index is the square root of the element … -/
theorem sqrt_apply {s : Shape} {φ : FTy} (a : FVec Ideal s φ) (i : s.Idx) : Idealize.ShloMosaic.sqrt a i = Ideal.sqrt (a i) := rfl
/-- … a logarithm the logarithm … -/
theorem log_apply {s : Shape} {φ : FTy} (a : FVec Ideal s φ) (i : s.Idx) : Idealize.ShloMosaic.log a i = Ideal.log (a i) := rfl
/-- … and a logistic function the logistic function of the element. -/
theorem logistic_apply {s : Shape} {φ : FTy} (a : FVec Ideal s φ) (i : s.Idx) : Idealize.ShloMosaic.logistic a i = Ideal.logistic (a i) := rfl

end Cert.KernelIdeal.Hand.ChunkOps

end
-- ==== Proof.Piece0.lean ====
/-
  Columns 0 … 639 of a grid step's output block, entry by entry: the entry in row p and column q of the chunk is the
  matching cost of the step's p-th prediction (its box row and its logit row) against target 0 + q (its column of the transposed
  target boxes and its column of label weights), in the first spelling (the order of operations of the kernel body).
-/
import proofs.«407717_j61641370632782_3_alg».proof.Proof.Gen.KernelIdeal.Frame
import proofs.«407717_j61641370632782_3_alg».proof.Proof.Cost
import proofs.«407717_j61641370632782_3_alg».proof.Proof.Pieces
import proofs.«407717_j61641370632782_3_alg».proof.Proof.ChunkOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen ChunkOps

set_option maxHeartbeats 1600000 in
/-- The chunk's arithmetic applied to ANY box block `a`, logit block `ℓ`, chunk `b` of target boxes and chunk `oh` of label
    weights, read at entry (p, q): every operation is entrywise except the cuts and spreads of columns and rows and the two
    matrix products, so the entry is a function of row p of `a` and `ℓ` and column q of `b` and `oh` alone, and that function
    is `costK`, operation for operation. -/
theorem chunk0_entry (a : Vec Ideal S480x4 .f32) (ℓ : Vec Ideal S480x42 .f32) (b : Vec Ideal S4x640 .f32) (oh : Vec Ideal S42x640 .f32)
    (p : Fin 480) (q : Fin 640) :
    k0_pay40 (F := Ideal) (k0_pay37 (k0_pay17 (k0_pay14 ℓ) (k0_pay15 ℓ) (k0_pay16 ℓ) (Scalar.ofBits .f32 0x322BCC77#32)) (k0_pay25 oh)) (k0_pay38 (k0_pay23 (k0_pay11 a)) (k0_pay34 b) (k0_pay36 (k0_pay2 a) b)) (k0_pay39 (k0_pay18 (k0_pay7 a)) (k0_pay19 (k0_pay8 a)) (k0_pay20 (k0_pay9 a)) (k0_pay21 (k0_pay10 a)) (k0_pay22 (k0_pay12 a)) (k0_pay30 b) (k0_pay31 b) (k0_pay32 b) (k0_pay33 b) (k0_pay35 b)) (Scalar.ofBits .f32 0x40000000#32) (ix2 p q)
      = MatchCost.costK (fun k => ℓ (ix2 p k)) (fun k => a (ix2 p k)) (fun k => b (ix2 k q)) (fun k => oh (ix2 k q)) := by
  -- the kernel's side: every payload opened, every operation pushed through the index
  simp only [
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40,
    mulf_apply, addf_apply, subf_apply, divf_apply, maximumf_apply, minimumf_apply, broadcast_apply, sqrt_apply, log_apply,
    logistic_apply, Ideal.ofBits_def, shapeCast_self, broadcastTo_a1_ab_apply, broadcastTo_1b_ab_apply,
    col0, col1, col2, col3, row0, row1, row2, row3, matmul4_apply, matmul42_apply]
  -- the specification's side: its named parts opened; the two sides are then the same expression
  simp only [MatchCost.costK, MatchCost.distK, MatchCost.sqK, MatchCost.giouK, MatchCost.interK, MatchCost.unionK,
    MatchCost.hullK, MatchCost.area, MatchCost.x0, MatchCost.y0, MatchCost.x1, MatchCost.y1, MatchCost.posK, MatchCost.negK]

/-- Entry (p, q) of chunk 0 is `costK` of prediction row p and target column j = 0 + q. -/
theorem piece0_apply (x0 : Vec Ideal S480x4 .f32) (x1 : Vec Ideal S480x42 .f32) (x2 : Vec Ideal S4x3200 .f32) (x3 : Vec Ideal S42x3200 .f32)
    (p : Fin 480) (q : Fin 640) (j : Fin 3200) (hj : j.val = 0 + q.val) :
    piece0 (F := Ideal) x0 x1 x2 x3 (ix2 p q)
      = MatchCost.costK (fun k => x1 (ix2 p k)) (fun k => x0 (ix2 p k)) (fun k => x2 (ix2 k j)) (fun k => x3 (ix2 k j)) := by
  unfold piece0
  refine (chunk0_entry (View.ld x0 r0_0) (View.ld x1 r0_1) (View.ld x2 r0_2) (View.ld x3 r0_3) p q).trans ?_
  -- the two whole-block loads read the blocks; the two chunk loads read columns 0 + q of the target arrays
  have e0 : (fun k : Fin 4 => View.ld x0 r0_0 (ix2 p k)) = fun k => x0 (ix2 p k) :=
    funext fun k => congrFun (View.ld_unit_zero (S := S480x4) off00 inb_S480x4_S480x4_0_0 x0) (ix2 p k)
  have e1 : (fun k : Fin 42 => View.ld x1 r0_1 (ix2 p k)) = fun k => x1 (ix2 p k) :=
    funext fun k => congrFun (View.ld_unit_zero (S := S480x42) off00 inb_S480x42_S480x42_0_0 x1) (ix2 p k)
  have e2 : (fun k : Fin 4 => View.ld x2 r0_2 (ix2 k q)) = fun k => x2 (ix2 k j) :=
    funext fun k => ld_cols_apply x2 0 inb_S4x3200_S4x640_0_0 k q j hj
  have e3 : (fun k : Fin 42 => View.ld x3 r0_3 (ix2 k q)) = fun k => x3 (ix2 k j) :=
    funext fun k => ld_cols_apply x3 0 inb_S42x3200_S42x640_0_0 k q j hj
  rw [e0, e1, e2, e3]

end Cert.KernelIdeal.Hand

end
-- ==== Proof.Piece1.lean ====
/-
  Columns 640 … 1279 of a grid step's output block, entry by entry: the entry in row p and column q of the chunk is the
  matching cost of the step's p-th prediction (its box row and its logit row) against target 640 + q (its column of the transposed
  target boxes and its column of label weights), in the first spelling (the order of operations of the kernel body).
-/
import proofs.«407717_j61641370632782_3_alg».proof.Proof.Gen.KernelIdeal.Frame
import proofs.«407717_j61641370632782_3_alg».proof.Proof.Cost
import proofs.«407717_j61641370632782_3_alg».proof.Proof.Pieces
import proofs.«407717_j61641370632782_3_alg».proof.Proof.ChunkOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen ChunkOps

set_option maxHeartbeats 1600000 in
/-- The chunk's arithmetic applied to ANY box block `a`, logit block `ℓ`, chunk `b` of target boxes and chunk `oh` of label
    weights, read at entry (p, q): every operation is entrywise except the cuts and spreads of columns and rows and the two
    matrix products, so the entry is a function of row p of `a` and `ℓ` and column q of `b` and `oh` alone, and that function
    is `costK`, operation for operation. -/
theorem chunk1_entry (a : Vec Ideal S480x4 .f32) (ℓ : Vec Ideal S480x42 .f32) (b : Vec Ideal S4x640 .f32) (oh : Vec Ideal S42x640 .f32)
    (p : Fin 480) (q : Fin 640) :
    k0_pay54 (F := Ideal) (k0_pay17 (k0_pay14 ℓ) (k0_pay15 ℓ) (k0_pay16 ℓ) (Scalar.ofBits .f32 0x322BCC77#32)) (k0_pay18 (k0_pay7 a)) (k0_pay19 (k0_pay8 a)) (k0_pay20 (k0_pay9 a)) (k0_pay21 (k0_pay10 a)) (k0_pay22 (k0_pay12 a)) (k0_pay42 oh) (k0_pay47 b) (k0_pay48 b) (k0_pay49 b) (k0_pay50 b) (k0_pay51 b) (k0_pay52 (k0_pay2 a) (k0_pay23 (k0_pay11 a)) b) (k0_pay53 (k0_pay18 (k0_pay7 a)) b) (ix2 p q)
      = MatchCost.costK (fun k => ℓ (ix2 p k)) (fun k => a (ix2 p k)) (fun k => b (ix2 k q)) (fun k => oh (ix2 k q)) := by
  -- the kernel's side: every payload opened, every operation pushed through the index
  simp only [
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay41, k0_pay42,
    k0_pay43, k0_pay44, k0_pay45, k0_pay46, k0_pay47, k0_pay48, k0_pay49, k0_pay50, k0_pay51, k0_pay52, k0_pay53, k0_pay54,
    mulf_apply, addf_apply, subf_apply, divf_apply, maximumf_apply, minimumf_apply, broadcast_apply, sqrt_apply, log_apply,
    logistic_apply, Ideal.ofBits_def, shapeCast_self, broadcastTo_a1_ab_apply, broadcastTo_1b_ab_apply,
    col0, col1, col2, col3, row0, row1, row2, row3, matmul4_apply, matmul42_apply]
  -- the specification's side: its named parts opened; the two sides are then the same expression
  simp only [MatchCost.costK, MatchCost.distK, MatchCost.sqK, MatchCost.giouK, MatchCost.interK, MatchCost.unionK,
    MatchCost.hullK, MatchCost.area, MatchCost.x0, MatchCost.y0, MatchCost.x1, MatchCost.y1, MatchCost.posK, MatchCost.negK]

/-- Entry (p, q) of chunk 1 is `costK` of prediction row p and target column j = 640 + q. -/
theorem piece1_apply (x0 : Vec Ideal S480x4 .f32) (x1 : Vec Ideal S480x42 .f32) (x2 : Vec Ideal S4x3200 .f32) (x3 : Vec Ideal S42x3200 .f32)
    (p : Fin 480) (q : Fin 640) (j : Fin 3200) (hj : j.val = 640 + q.val) :
    piece1 (F := Ideal) x0 x1 x2 x3 (ix2 p q)
      = MatchCost.costK (fun k => x1 (ix2 p k)) (fun k => x0 (ix2 p k)) (fun k => x2 (ix2 k j)) (fun k => x3 (ix2 k j)) := by
  unfold piece1
  refine (chunk1_entry (View.ld x0 r0_0) (View.ld x1 r0_1) (View.ld x2 r0_5) (View.ld x3 r0_6) p q).trans ?_
  -- the two whole-block loads read the blocks; the two chunk loads read columns 640 + q of the target arrays
  have e0 : (fun k : Fin 4 => View.ld x0 r0_0 (ix2 p k)) = fun k => x0 (ix2 p k) :=
    funext fun k => congrFun (View.ld_unit_zero (S := S480x4) off00 inb_S480x4_S480x4_0_0 x0) (ix2 p k)
  have e1 : (fun k : Fin 42 => View.ld x1 r0_1 (ix2 p k)) = fun k => x1 (ix2 p k) :=
    funext fun k => congrFun (View.ld_unit_zero (S := S480x42) off00 inb_S480x42_S480x42_0_0 x1) (ix2 p k)
  have e2 : (fun k : Fin 4 => View.ld x2 r0_5 (ix2 k q)) = fun k => x2 (ix2 k j) :=
    funext fun k => ld_cols_apply x2 640 inb_S4x3200_S4x640_0_640 k q j hj
  have e3 : (fun k : Fin 42 => View.ld x3 r0_6 (ix2 k q)) = fun k => x3 (ix2 k j) :=
    funext fun k => ld_cols_apply x3 640 inb_S42x3200_S42x640_0_640 k q j hj
  rw [e0, e1, e2, e3]

end Cert.KernelIdeal.Hand

end
-- ==== Proof.Piece2.lean ====
/-
  Columns 1280 … 1919 of a grid step's output block, entry by entry: the entry in row p and column q of the chunk is the
  matching cost of the step's p-th prediction (its box row and its logit row) against target 1280 + q (its column of the transposed
  target boxes and its column of label weights), in the first spelling (the order of operations of the kernel body).
-/
import proofs.«407717_j61641370632782_3_alg».proof.Proof.Gen.KernelIdeal.Frame
import proofs.«407717_j61641370632782_3_alg».proof.Proof.Cost
import proofs.«407717_j61641370632782_3_alg».proof.Proof.Pieces
import proofs.«407717_j61641370632782_3_alg».proof.Proof.ChunkOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen ChunkOps

set_option maxHeartbeats 1600000 in
/-- The chunk's arithmetic applied to ANY box block `a`, logit block `ℓ`, chunk `b` of target boxes and chunk `oh` of label
    weights, read at entry (p, q): every operation is entrywise except the cuts and spreads of columns and rows and the two
    matrix products, so the entry is a function of row p of `a` and `ℓ` and column q of `b` and `oh` alone, and that function
    is `costK`, operation for operation. -/
theorem chunk2_entry (a : Vec Ideal S480x4 .f32) (ℓ : Vec Ideal S480x42 .f32) (b : Vec Ideal S4x640 .f32) (oh : Vec Ideal S42x640 .f32)
    (p : Fin 480) (q : Fin 640) :
    k0_pay69 (F := Ideal) (k0_pay17 (k0_pay14 ℓ) (k0_pay15 ℓ) (k0_pay16 ℓ) (Scalar.ofBits .f32 0x322BCC77#32)) (k0_pay18 (k0_pay7 a)) (k0_pay19 (k0_pay8 a)) (k0_pay20 (k0_pay9 a)) (k0_pay21 (k0_pay10 a)) (k0_pay22 (k0_pay12 a)) (k0_pay56 oh) (k0_pay61 (k0_pay55 b)) (k0_pay62 (k0_pay55 b)) (k0_pay63 (k0_pay55 b)) (k0_pay64 (k0_pay55 b)) (k0_pay65 (k0_pay55 b)) (k0_pay66 (k0_pay2 a) (k0_pay23 (k0_pay11 a)) (k0_pay55 b)) (k0_pay67 (k0_pay18 (k0_pay7 a)) (k0_pay20 (k0_pay9 a)) (k0_pay55 b)) (k0_pay68 (k0_pay19 (k0_pay8 a)) (k0_pay21 (k0_pay10 a)) (k0_pay55 b)) (Scalar.ofBits .f32 0x00000000#32) (ix2 p q)
      = MatchCost.costK (fun k => ℓ (ix2 p k)) (fun k => a (ix2 p k)) (fun k => b (ix2 k q)) (fun k => oh (ix2 k q)) := by
  -- the kernel's side: every payload opened, every operation pushed through the index
  simp only [
    k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay55, k0_pay56,
    k0_pay57, k0_pay58, k0_pay59, k0_pay60, k0_pay61, k0_pay62, k0_pay63, k0_pay64, k0_pay65, k0_pay66, k0_pay67, k0_pay68,
    k0_pay69,
    mulf_apply, addf_apply, subf_apply, divf_apply, maximumf_apply, minimumf_apply, broadcast_apply, sqrt_apply, log_apply,
    logistic_apply, Ideal.ofBits_def, shapeCast_self, broadcastTo_a1_ab_apply, broadcastTo_1b_ab_apply,
    col0, col1, col2, col3, row0, row1, row2, row3, matmul4_apply, matmul42_apply]
  -- the specification's side: its named parts opened; the two sides are then the same expression
  simp only [MatchCost.costK, MatchCost.distK, MatchCost.sqK, MatchCost.giouK, MatchCost.interK, MatchCost.unionK,
    MatchCost.hullK, MatchCost.area, MatchCost.x0, MatchCost.y0, MatchCost.x1, MatchCost.y1, MatchCost.posK, MatchCost.negK]

/-- Entry (p, q) of chunk 2 is `costK` of prediction row p and target column j = 1280 + q. -/
theorem piece2_apply (x0 : Vec Ideal S480x4 .f32) (x1 : Vec Ideal S480x42 .f32) (x2 : Vec Ideal S4x3200 .f32) (x3 : Vec Ideal S42x3200 .f32)
    (p : Fin 480) (q : Fin 640) (j : Fin 3200) (hj : j.val = 1280 + q.val) :
    piece2 (F := Ideal) x0 x1 x2 x3 (ix2 p q)
      = MatchCost.costK (fun k => x1 (ix2 p k)) (fun k => x0 (ix2 p k)) (fun k => x2 (ix2 k j)) (fun k => x3 (ix2 k j)) := by
  unfold piece2
  refine (chunk2_entry (View.ld x0 r0_0) (View.ld x1 r0_1) (View.ld x2 r0_8) (View.ld x3 r0_9) p q).trans ?_
  -- the two whole-block loads read the blocks; the two chunk loads read columns 1280 + q of the target arrays
  have e0 : (fun k : Fin 4 => View.ld x0 r0_0 (ix2 p k)) = fun k => x0 (ix2 p k) :=
    funext fun k => congrFun (View.ld_unit_zero (S := S480x4) off00 inb_S480x4_S480x4_0_0 x0) (ix2 p k)
  have e1 : (fun k : Fin 42 => View.ld x1 r0_1 (ix2 p k)) = fun k => x1 (ix2 p k) :=
    funext fun k => congrFun (View.ld_unit_zero (S := S480x42) off00 inb_S480x42_S480x42_0_0 x1) (ix2 p k)
  have e2 : (fun k : Fin 4 => View.ld x2 r0_8 (ix2 k q)) = fun k => x2 (ix2 k j) :=
    funext fun k => ld_cols_apply x2 1280 inb_S4x3200_S4x640_0_1280 k q j hj
  have e3 : (fun k : Fin 42 => View.ld x3 r0_9 (ix2 k q)) = fun k => x3 (ix2 k j) :=
    funext fun k => ld_cols_apply x3 1280 inb_S42x3200_S42x640_0_1280 k q j hj
  rw [e0, e1, e2, e3]

end Cert.KernelIdeal.Hand

end
-- ==== Proof.Piece3.lean ====
/-
  Columns 1920 … 2559 of a grid step's output block, entry by entry: the entry in row p and column q of the chunk is the
  matching cost of the step's p-th prediction (its box row and its logit row) against target 1920 + q (its column of the transposed
  target boxes and its column of label weights), in the first spelling (the order of operations of the kernel body).
-/
import proofs.«407717_j61641370632782_3_alg».proof.Proof.Gen.KernelIdeal.Frame
import proofs.«407717_j61641370632782_3_alg».proof.Proof.Cost
import proofs.«407717_j61641370632782_3_alg».proof.Proof.Pieces
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand.Chunk3

open Cert.KernelIdeal Cert.KernelIdeal.Gen

variable {α : Type}

/-! ## Layout operations of the body, read at an entry -/

/-- A column spread over 640 columns reads, in row p, the column's entry of row p. -/
theorem bcast_col (v : S480x1.Idx → α) (h : S480x1.Broadcasts S480x640) (p : Fin 480) (q : Fin 640) :
    broadcastTo S480x640 v h (ix2 p q) = v (ix2 p (0 : Fin 1)) := by
  refine broadcastTo_apply v h (ix2 p q) (ix2 p (0 : Fin 1)) fun ax => ?_
  match ax with
  | ⟨0, _⟩ =>
    show p.val = if (480 : ℕ) = 1 then 0 else p.val
    rw [if_neg (by decide)]
  | ⟨1, _⟩ => rfl

/-- A row spread over 480 rows reads, in column q, the row's entry of column q. -/
theorem bcast_row (v : S1x640.Idx → α) (h : S1x640.Broadcasts S480x640) (p : Fin 480) (q : Fin 640) :
    broadcastTo S480x640 v h (ix2 p q) = v (ix2 (0 : Fin 1) q) :=
  broadcastTo_1b_ab_apply v h p q

/-- Column c of a 480 x 4 block, as a 480 x 1 column. -/
theorem slice_col (c : Nat) (X : S480x4.Idx → α) (h : S480x4.Slices ![0, c] S480x1) (p : Fin 480) (z : Fin 1) (k : Fin 4)
    (hk : k.val = c) : extractStridedSlice S480x1 ![0, c] X h (ix2 p z) = X (ix2 p k) :=
  slice2_axis1_apply c X h p z k (by have := z.isLt; omega)

theorem col0 (X : S480x4.Idx → α) (h : S480x4.Slices ![0, 0] S480x1) (p : Fin 480) (z : Fin 1) :
    extractStridedSlice S480x1 ![0, 0] X h (ix2 p z) = X (ix2 p (0 : Fin 4)) := slice_col 0 X h p z 0 rfl
theorem col1 (X : S480x4.Idx → α) (h : S480x4.Slices ![0, 1] S480x1) (p : Fin 480) (z : Fin 1) :
    extractStridedSlice S480x1 ![0, 1] X h (ix2 p z) = X (ix2 p (1 : Fin 4)) := slice_col 1 X h p z 1 rfl
theorem col2 (X : S480x4.Idx → α) (h : S480x4.Slices ![0, 2] S480x1) (p : Fin 480) (z : Fin 1) :
    extractStridedSlice S480x1 ![0, 2] X h (ix2 p z) = X (ix2 p (2 : Fin 4)) := slice_col 2 X h p z 2 rfl
theorem col3 (X : S480x4.Idx → α) (h : S480x4.Slices ![0, 3] S480x1) (p : Fin 480) (z : Fin 1) :
    extractStridedSlice S480x1 ![0, 3] X h (ix2 p z) = X (ix2 p (3 : Fin 4)) := slice_col 3 X h p z 3 rfl

/-- Row r of a 4 x 640 chunk, as a 1 x 640 row. -/
theorem slice_row (r : Nat) (X : S4x640.Idx → α) (h : S4x640.Slices ![r, 0] S1x640) (z : Fin 1) (q : Fin 640) (k : Fin 4)
    (hk : k.val = r) : extractStridedSlice S1x640 ![r, 0] X h (ix2 z q) = X (ix2 k q) :=
  slice2_axis0_apply r X h z q k (by have := z.isLt; omega)

theorem row0 (X : S4x640.Idx → α) (h : S4x640.Slices ![0, 0] S1x640) (z : Fin 1) (q : Fin 640) :
    extractStridedSlice S1x640 ![0, 0] X h (ix2 z q) = X (ix2 (0 : Fin 4) q) := slice_row 0 X h z q 0 rfl
theorem row1 (X : S4x640.Idx → α) (h : S4x640.Slices ![1, 0] S1x640) (z : Fin 1) (q : Fin 640) :
    extractStridedSlice S1x640 ![1, 0] X h (ix2 z q) = X (ix2 (1 : Fin 4) q) := slice_row 1 X h z q 1 rfl
theorem row2 (X : S4x640.Idx → α) (h : S4x640.Slices ![2, 0] S1x640) (z : Fin 1) (q : Fin 640) :
    extractStridedSlice S1x640 ![2, 0] X h (ix2 z q) = X (ix2 (2 : Fin 4) q) := slice_row 2 X h z q 2 rfl
theorem row3 (X : S4x640.Idx → α) (h : S4x640.Slices ![3, 0] S1x640) (z : Fin 1) (q : Fin 640) :
    extractStridedSlice S1x640 ![3, 0] X h (ix2 z q) = X (ix2 (3 : Fin 4) q) := slice_row 3 X h z q 3 rfl

/-! ## The step's loads -/

/-- The chunk of the transposed target boxes at column offset 1920, read at (k, q), is the table at (k, 1920 + q). -/
theorem ld_boxes (x2 : Vec Ideal S4x3200 .f32) (k : Fin 4) (q : Fin 640) (j : Fin 3200) (hj : j.val = 1920 + q.val) :
    View.ld x2 r0_11 (ix2 k q) = x2 (ix2 k j) := by
  show x2 (r0_11.idx (ix2 k q)) = x2 (ix2 k j)
  refine congrArg x2 (funext fun a => Fin.ext ?_)
  match a with
  | ⟨0, _⟩ => show 0 + 1 * k.val = k.val; omega
  | ⟨1, _⟩ => show 1920 + 1 * q.val = j.val; omega

/-- The chunk of the label-weight table at column offset 1920, read at (k, q), is the table at (k, 1920 + q). -/
theorem ld_labels (x3 : Vec Ideal S42x3200 .f32) (k : Fin 42) (q : Fin 640) (j : Fin 3200) (hj : j.val = 1920 + q.val) :
    View.ld x3 r0_12 (ix2 k q) = x3 (ix2 k j) := by
  show x3 (r0_12.idx (ix2 k q)) = x3 (ix2 k j)
  refine congrArg x3 (funext fun a => Fin.ext ?_)
  match a with
  | ⟨0, _⟩ => show 0 + 1 * k.val = k.val; omega
  | ⟨1, _⟩ => show 1920 + 1 * q.val = j.val; omega

/-- The whole block of predicted boxes is loaded as it is. -/
theorem ld_pred (x0 : Vec Ideal S480x4 .f32) : View.ld x0 r0_0 = x0 :=
  View.ld_unit_zero (S := S480x4) (funext fun a => by match a with | ⟨0, _⟩ => rfl | ⟨1, _⟩ => rfl) _ x0

/-- The whole block of logits is loaded as it is. -/
theorem ld_logits (x1 : Vec Ideal S480x42 .f32) : View.ld x1 r0_1 = x1 :=
  View.ld_unit_zero (S := S480x42) (funext fun a => by match a with | ⟨0, _⟩ => rfl | ⟨1, _⟩ => rfl) _ x1

/-! ## The pointwise operations the index lemmas of the library do not name -/

theorem sqrt_apply {s : Shape} {φ : FTy} (a : FVec Ideal s φ) (i : s.Idx) : sqrt a i = Ideal.sqrt (a i) := rfl
theorem log_apply {s : Shape} {φ : FTy} (a : FVec Ideal s φ) (i : s.Idx) : log a i = Ideal.log (a i) := rfl
theorem logistic_apply {s : Shape} {φ : FTy} (a : FVec Ideal s φ) (i : s.Idx) : logistic a i = Ideal.logistic (a i) := rfl

/-! ## The two products into a zero accumulator, read at an entry: plain sums over the contracted axis -/

theorem lhs_boxes_0 (i : S480x640.Idx) (q : dot_S480x4_S4x640_S480x640_1_0_0_1_n_n.contr.Idx) :
    (dot_S480x4_S4x640_S480x640_1_0_0_1_n_n.lhsIdx i q 0).val = (i 0).val := by
  unfold DotDims.lhsIdx
  rw [dif_neg (show ¬(0 : Fin S480x4.rank) ∈ dot_S480x4_S4x640_S480x640_1_0_0_1_n_n.lhsBatch by decide), dif_pos (show (0 : Fin S480x4.rank) ∈ dot_S480x4_S4x640_S480x640_1_0_0_1_n_n.lhsNonContracting by decide)]
  rfl
theorem lhs_boxes_1 (i : S480x640.Idx) (q : dot_S480x4_S4x640_S480x640_1_0_0_1_n_n.contr.Idx) :
    (dot_S480x4_S4x640_S480x640_1_0_0_1_n_n.lhsIdx i q 1).val = (q ⟨0, by decide⟩).val :=
  dot_S480x4_S4x640_S480x640_1_0_0_1_n_n.lhsIdx_val_of_single rfl i q
theorem rhs_boxes_0 (i : S480x640.Idx) (q : dot_S480x4_S4x640_S480x640_1_0_0_1_n_n.contr.Idx) :
    (dot_S480x4_S4x640_S480x640_1_0_0_1_n_n.rhsIdx i q 0).val = (q ⟨0, by decide⟩).val :=
  dot_S480x4_S4x640_S480x640_1_0_0_1_n_n.rhsIdx_val_of_single rfl i q
theorem rhs_boxes_1 (i : S480x640.Idx) (q : dot_S480x4_S4x640_S480x640_1_0_0_1_n_n.contr.Idx) :
    (dot_S480x4_S4x640_S480x640_1_0_0_1_n_n.rhsIdx i q 1).val = (i 1).val := by
  unfold DotDims.rhsIdx
  rw [dif_neg (show ¬(1 : Fin S4x640.rank) ∈ dot_S480x4_S4x640_S480x640_1_0_0_1_n_n.rhsBatch by decide), dif_pos (show (1 : Fin S4x640.rank) ∈ dot_S480x4_S4x640_S480x640_1_0_0_1_n_n.rhsNonContracting by decide)]
  rfl

/-- The product of the 480 x 4 box block with a 4 x 640 chunk, entry (p, q): the inner product of row p and column q. -/
theorem matmul_boxes (a : FVec Ideal S480x4 .f32) (b : FVec Ideal S4x640 .f32) (p : Fin 480) (q : Fin 640) :
    matmul dot_S480x4_S4x640_S480x640_1_0_0_1_n_n (some .fp32) a b (constant (F := Ideal) S480x640 .f32 0x00000000#32) (ix2 p q)
      = ∑ k : Fin 4, a (ix2 p k) * b (ix2 k q) := by
  show FloatOps.matmul dot_S480x4_S4x640_S480x640_1_0_0_1_n_n (some .fp32) a b (constant (F := Ideal) S480x640 .f32 0x00000000#32) (ix2 p q) = _
  rw [Ideal.matmul_constant_zero_apply, ← Equiv.sum_comp (contrEquiv1 dot_S480x4_S4x640_S480x640_1_0_0_1_n_n 4 rfl rfl).symm]
  refine Finset.sum_congr rfl fun k _ => ?_
  have hk := contrEquiv1_symm_val dot_S480x4_S4x640_S480x640_1_0_0_1_n_n 4 rfl rfl k
  have el : dot_S480x4_S4x640_S480x640_1_0_0_1_n_n.lhsIdx (ix2 p q) ((contrEquiv1 dot_S480x4_S4x640_S480x640_1_0_0_1_n_n 4 rfl rfl).symm k) = ix2 p k := funext fun a => Fin.ext (by
    match a with
    | ⟨0, _⟩ => exact lhs_boxes_0 _ _
    | ⟨1, _⟩ => exact (lhs_boxes_1 _ _).trans hk)
  have er : dot_S480x4_S4x640_S480x640_1_0_0_1_n_n.rhsIdx (ix2 p q) ((contrEquiv1 dot_S480x4_S4x640_S480x640_1_0_0_1_n_n 4 rfl rfl).symm k) = ix2 k q := funext fun a => Fin.ext (by
    match a with
    | ⟨0, _⟩ => exact (rhs_boxes_0 _ _).trans hk
    | ⟨1, _⟩ => exact rhs_boxes_1 _ _)
  rw [el, er]

theorem lhs_cls_0 (i : S480x640.Idx) (q : dot_S480x42_S42x640_S480x640_1_0_0_1_n_n.contr.Idx) :
    (dot_S480x42_S42x640_S480x640_1_0_0_1_n_n.lhsIdx i q 0).val = (i 0).val := by
  unfold DotDims.lhsIdx
  rw [dif_neg (show ¬(0 : Fin S480x42.rank) ∈ dot_S480x42_S42x640_S480x640_1_0_0_1_n_n.lhsBatch by decide), dif_pos (show (0 : Fin S480x42.rank) ∈ dot_S480x42_S42x640_S480x640_1_0_0_1_n_n.lhsNonContracting by decide)]
  rfl
theorem lhs_cls_1 (i : S480x640.Idx) (q : dot_S480x42_S42x640_S480x640_1_0_0_1_n_n.contr.Idx) :
    (dot_S480x42_S42x640_S480x640_1_0_0_1_n_n.lhsIdx i q 1).val = (q ⟨0, by decide⟩).val :=
  dot_S480x42_S42x640_S480x640_1_0_0_1_n_n.lhsIdx_val_of_single rfl i q
theorem rhs_cls_0 (i : S480x640.Idx) (q : dot_S480x42_S42x640_S480x640_1_0_0_1_n_n.contr.Idx) :
    (dot_S480x42_S42x640_S480x640_1_0_0_1_n_n.rhsIdx i q 0).val = (q ⟨0, by decide⟩).val :=
  dot_S480x42_S42x640_S480x640_1_0_0_1_n_n.rhsIdx_val_of_single rfl i q
theorem rhs_cls_1 (i : S480x640.Idx) (q : dot_S480x42_S42x640_S480x640_1_0_0_1_n_n.contr.Idx) :
    (dot_S480x42_S42x640_S480x640_1_0_0_1_n_n.rhsIdx i q 1).val = (i 1).val := by
  unfold DotDims.rhsIdx
  rw [dif_neg (show ¬(1 : Fin S42x640.rank) ∈ dot_S480x42_S42x640_S480x640_1_0_0_1_n_n.rhsBatch by decide), dif_pos (show (1 : Fin S42x640.rank) ∈ dot_S480x42_S42x640_S480x640_1_0_0_1_n_n.rhsNonContracting by decide)]
  rfl

/-- The product of the 480 x 42 class-cost block with a 42 x 640 chunk of label weights, entry (p, q). -/
theorem matmul_cls (a : FVec Ideal S480x42 .f32) (b : FVec Ideal S42x640 .f32) (p : Fin 480) (q : Fin 640) :
    matmul dot_S480x42_S42x640_S480x640_1_0_0_1_n_n (some .fp32) a b (constant (F := Ideal) S480x640 .f32 0x00000000#32) (ix2 p q)
      = ∑ k : Fin 42, a (ix2 p k) * b (ix2 k q) := by
  show FloatOps.matmul dot_S480x42_S42x640_S480x640_1_0_0_1_n_n (some .fp32) a b (constant (F := Ideal) S480x640 .f32 0x00000000#32) (ix2 p q) = _
  rw [Ideal.matmul_constant_zero_apply, ← Equiv.sum_comp (contrEquiv1 dot_S480x42_S42x640_S480x640_1_0_0_1_n_n 42 rfl rfl).symm]
  refine Finset.sum_congr rfl fun k _ => ?_
  have hk := contrEquiv1_symm_val dot_S480x42_S42x640_S480x640_1_0_0_1_n_n 42 rfl rfl k
  have el : dot_S480x42_S42x640_S480x640_1_0_0_1_n_n.lhsIdx (ix2 p q) ((contrEquiv1 dot_S480x42_S42x640_S480x640_1_0_0_1_n_n 42 rfl rfl).symm k) = ix2 p k := funext fun a => Fin.ext (by
    match a with
    | ⟨0, _⟩ => exact lhs_cls_0 _ _
    | ⟨1, _⟩ => exact (lhs_cls_1 _ _).trans hk)
  have er : dot_S480x42_S42x640_S480x640_1_0_0_1_n_n.rhsIdx (ix2 p q) ((contrEquiv1 dot_S480x42_S42x640_S480x640_1_0_0_1_n_n 42 rfl rfl).symm k) = ix2 k q := funext fun a => Fin.ext (by
    match a with
    | ⟨0, _⟩ => exact (rhs_cls_0 _ _).trans hk
    | ⟨1, _⟩ => exact rhs_cls_1 _ _)
  rw [el, er]

end Cert.KernelIdeal.Hand.Chunk3

namespace Cert.KernelIdeal.Hand

open Cert.KernelIdeal Cert.KernelIdeal.Gen Chunk3

/-- Entry (p, q) of chunk 3 is `costK` of prediction row p and target column j = 1920 + q. -/
theorem piece3_apply (x0 : Vec Ideal S480x4 .f32) (x1 : Vec Ideal S480x42 .f32) (x2 : Vec Ideal S4x3200 .f32) (x3 : Vec Ideal S42x3200 .f32)
    (p : Fin 480) (q : Fin 640) (j : Fin 3200) (hj : j.val = 1920 + q.val) :
    piece3 (F := Ideal) x0 x1 x2 x3 (ix2 p q)
      = MatchCost.costK (fun k => x1 (ix2 p k)) (fun k => x0 (ix2 p k)) (fun k => x2 (ix2 k j)) (fun k => x3 (ix2 k j)) := by
  unfold piece3
  -- every payload is opened, the entry's index is pushed through the pointwise operations, and each layout
  -- operation, load and product is read at the entry; both sides are then the same expression
  simp only [k0_pay87, k0_pay86, k0_pay85, k0_pay84, k0_pay83, k0_pay82, k0_pay81, k0_pay80, k0_pay79, k0_pay78, k0_pay77, k0_pay76,
    k0_pay75, k0_pay74, k0_pay73, k0_pay72, k0_pay71, k0_pay70,
    k0_pay23, k0_pay22, k0_pay21, k0_pay20, k0_pay19, k0_pay18, k0_pay17, k0_pay16, k0_pay15, k0_pay14, k0_pay13, k0_pay12, k0_pay11,
    k0_pay10, k0_pay9, k0_pay8, k0_pay7, k0_pay6, k0_pay5, k0_pay4, k0_pay3, k0_pay2,
    ld_pred, ld_logits, shapeCast_self,
    mulf_apply, addf_apply, subf_apply, divf_apply, maximumf_apply, minimumf_apply, sqrt_apply, log_apply, logistic_apply,
    broadcast_apply, Ideal.ofBits_def,
    bcast_col, bcast_row, col0, col1, col2, col3, row0, row1, row2, row3, matmul_boxes, matmul_cls,
    fun k => ld_boxes x2 k q j hj, fun k => ld_labels x3 k q j hj,
    MatchCost.costK, MatchCost.distK, MatchCost.sqK, MatchCost.giouK, MatchCost.interK, MatchCost.unionK, MatchCost.hullK,
    MatchCost.area, MatchCost.x0, MatchCost.y0, MatchCost.x1, MatchCost.y1, MatchCost.posK, MatchCost.negK]

end Cert.KernelIdeal.Hand

end
-- ==== Proof.Piece4.lean ====
/-
  Columns 2560 … 3199 of a grid step's output block, entry by entry: the entry in row p and column q of the chunk is the
  matching cost of the step's p-th prediction (its box row and its logit row) against target 2560 + q (its column of the transposed
  target boxes and its column of label weights), in the first spelling (the order of operations of the kernel body).
-/
import proofs.«407717_j61641370632782_3_alg».proof.Proof.Gen.KernelIdeal.Frame
import proofs.«407717_j61641370632782_3_alg».proof.Proof.Cost
import proofs.«407717_j61641370632782_3_alg».proof.Proof.Pieces
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand.Chunk4

open Cert.KernelIdeal Cert.KernelIdeal.Gen

variable {α : Type}

/-! ## Layout operations of the body, read at an entry -/

/-- A column spread over 640 columns reads, in row p, the column's entry of row p. -/
theorem bcast_col (v : S480x1.Idx → α) (h : S480x1.Broadcasts S480x640) (p : Fin 480) (q : Fin 640) :
    broadcastTo S480x640 v h (ix2 p q) = v (ix2 p (0 : Fin 1)) := by
  refine broadcastTo_apply v h (ix2 p q) (ix2 p (0 : Fin 1)) fun ax => ?_
  match ax with
  | ⟨0, _⟩ =>
    show p.val = if (480 : ℕ) = 1 then 0 else p.val
    rw [if_neg (by decide)]
  | ⟨1, _⟩ => rfl

/-- A row spread over 480 rows reads, in column q, the row's entry of column q. -/
theorem bcast_row (v : S1x640.Idx → α) (h : S1x640.Broadcasts S480x640) (p : Fin 480) (q : Fin 640) :
    broadcastTo S480x640 v h (ix2 p q) = v (ix2 (0 : Fin 1) q) :=
  broadcastTo_1b_ab_apply v h p q

/-- Column c of a 480 x 4 block, as a 480 x 1 column. -/
theorem slice_col (c : Nat) (X : S480x4.Idx → α) (h : S480x4.Slices ![0, c] S480x1) (p : Fin 480) (z : Fin 1) (k : Fin 4)
    (hk : k.val = c) : extractStridedSlice S480x1 ![0, c] X h (ix2 p z) = X (ix2 p k) :=
  slice2_axis1_apply c X h p z k (by have := z.isLt; omega)

theorem col0 (X : S480x4.Idx → α) (h : S480x4.Slices ![0, 0] S480x1) (p : Fin 480) (z : Fin 1) :
    extractStridedSlice S480x1 ![0, 0] X h (ix2 p z) = X (ix2 p (0 : Fin 4)) := slice_col 0 X h p z 0 rfl
theorem col1 (X : S480x4.Idx → α) (h : S480x4.Slices ![0, 1] S480x1) (p : Fin 480) (z : Fin 1) :
    extractStridedSlice S480x1 ![0, 1] X h (ix2 p z) = X (ix2 p (1 : Fin 4)) := slice_col 1 X h p z 1 rfl
theorem col2 (X : S480x4.Idx → α) (h : S480x4.Slices ![0, 2] S480x1) (p : Fin 480) (z : Fin 1) :
    extractStridedSlice S480x1 ![0, 2] X h (ix2 p z) = X (ix2 p (2 : Fin 4)) := slice_col 2 X h p z 2 rfl
theorem col3 (X : S480x4.Idx → α) (h : S480x4.Slices ![0, 3] S480x1) (p : Fin 480) (z : Fin 1) :
    extractStridedSlice S480x1 ![0, 3] X h (ix2 p z) = X (ix2 p (3 : Fin 4)) := slice_col 3 X h p z 3 rfl

/-- Row r of a 4 x 640 chunk, as a 1 x 640 row. -/
theorem slice_row (r : Nat) (X : S4x640.Idx → α) (h : S4x640.Slices ![r, 0] S1x640) (z : Fin 1) (q : Fin 640) (k : Fin 4)
    (hk : k.val = r) : extractStridedSlice S1x640 ![r, 0] X h (ix2 z q) = X (ix2 k q) :=
  slice2_axis0_apply r X h z q k (by have := z.isLt; omega)

theorem row0 (X : S4x640.Idx → α) (h : S4x640.Slices ![0, 0] S1x640) (z : Fin 1) (q : Fin 640) :
    extractStridedSlice S1x640 ![0, 0] X h (ix2 z q) = X (ix2 (0 : Fin 4) q) := slice_row 0 X h z q 0 rfl
theorem row1 (X : S4x640.Idx → α) (h : S4x640.Slices ![1, 0] S1x640) (z : Fin 1) (q : Fin 640) :
    extractStridedSlice S1x640 ![1, 0] X h (ix2 z q) = X (ix2 (1 : Fin 4) q) := slice_row 1 X h z q 1 rfl
theorem row2 (X : S4x640.Idx → α) (h : S4x640.Slices ![2, 0] S1x640) (z : Fin 1) (q : Fin 640) :
    extractStridedSlice S1x640 ![2, 0] X h (ix2 z q) = X (ix2 (2 : Fin 4) q) := slice_row 2 X h z q 2 rfl
theorem row3 (X : S4x640.Idx → α) (h : S4x640.Slices ![3, 0] S1x640) (z : Fin 1) (q : Fin 640) :
    extractStridedSlice S1x640 ![3, 0] X h (ix2 z q) = X (ix2 (3 : Fin 4) q) := slice_row 3 X h z q 3 rfl

/-! ## The step's loads -/

/-- The chunk of the transposed target boxes at column offset 2560, read at (k, q), is the table at (k, 2560 + q). -/
theorem ld_boxes (x2 : Vec Ideal S4x3200 .f32) (k : Fin 4) (q : Fin 640) (j : Fin 3200) (hj : j.val = 2560 + q.val) :
    View.ld x2 r0_14 (ix2 k q) = x2 (ix2 k j) := by
  show x2 (r0_14.idx (ix2 k q)) = x2 (ix2 k j)
  refine congrArg x2 (funext fun a => Fin.ext ?_)
  match a with
  | ⟨0, _⟩ => show 0 + 1 * k.val = k.val; omega
  | ⟨1, _⟩ => show 2560 + 1 * q.val = j.val; omega

/-- The chunk of the label-weight table at column offset 2560, read at (k, q), is the table at (k, 2560 + q). -/
theorem ld_labels (x3 : Vec Ideal S42x3200 .f32) (k : Fin 42) (q : Fin 640) (j : Fin 3200) (hj : j.val = 2560 + q.val) :
    View.ld x3 r0_15 (ix2 k q) = x3 (ix2 k j) := by
  show x3 (r0_15.idx (ix2 k q)) = x3 (ix2 k j)
  refine congrArg x3 (funext fun a => Fin.ext ?_)
  match a with
  | ⟨0, _⟩ => show 0 + 1 * k.val = k.val; omega
  | ⟨1, _⟩ => show 2560 + 1 * q.val = j.val; omega

/-- The whole block of predicted boxes is loaded as it is. -/
theorem ld_pred (x0 : Vec Ideal S480x4 .f32) : View.ld x0 r0_0 = x0 :=
  View.ld_unit_zero (S := S480x4) (funext fun a => by match a with | ⟨0, _⟩ => rfl | ⟨1, _⟩ => rfl) _ x0

/-- The whole block of logits is loaded as it is. -/
theorem ld_logits (x1 : Vec Ideal S480x42 .f32) : View.ld x1 r0_1 = x1 :=
  View.ld_unit_zero (S := S480x42) (funext fun a => by match a with | ⟨0, _⟩ => rfl | ⟨1, _⟩ => rfl) _ x1

/-! ## The pointwise operations the index lemmas of the library do not name -/

theorem sqrt_apply {s : Shape} {φ : FTy} (a : FVec Ideal s φ) (i : s.Idx) : sqrt a i = Ideal.sqrt (a i) := rfl
theorem log_apply {s : Shape} {φ : FTy} (a : FVec Ideal s φ) (i : s.Idx) : log a i = Ideal.log (a i) := rfl
theorem logistic_apply {s : Shape} {φ : FTy} (a : FVec Ideal s φ) (i : s.Idx) : logistic a i = Ideal.logistic (a i) := rfl

/-! ## The two products into a zero accumulator, read at an entry: plain sums over the contracted axis -/

theorem lhs_boxes_0 (i : S480x640.Idx) (q : dot_S480x4_S4x640_S480x640_1_0_0_1_n_n.contr.Idx) :
    (dot_S480x4_S4x640_S480x640_1_0_0_1_n_n.lhsIdx i q 0).val = (i 0).val := by
  unfold DotDims.lhsIdx
  rw [dif_neg (show ¬(0 : Fin S480x4.rank) ∈ dot_S480x4_S4x640_S480x640_1_0_0_1_n_n.lhsBatch by decide), dif_pos (show (0 : Fin S480x4.rank) ∈ dot_S480x4_S4x640_S480x640_1_0_0_1_n_n.lhsNonContracting by decide)]
  rfl
theorem lhs_boxes_1 (i : S480x640.Idx) (q : dot_S480x4_S4x640_S480x640_1_0_0_1_n_n.contr.Idx) :
    (dot_S480x4_S4x640_S480x640_1_0_0_1_n_n.lhsIdx i q 1).val = (q ⟨0, by decide⟩).val :=
  dot_S480x4_S4x640_S480x640_1_0_0_1_n_n.lhsIdx_val_of_single rfl i q
theorem rhs_boxes_0 (i : S480x640.Idx) (q : dot_S480x4_S4x640_S480x640_1_0_0_1_n_n.contr.Idx) :
    (dot_S480x4_S4x640_S480x640_1_0_0_1_n_n.rhsIdx i q 0).val = (q ⟨0, by decide⟩).val :=
  dot_S480x4_S4x640_S480x640_1_0_0_1_n_n.rhsIdx_val_of_single rfl i q
theorem rhs_boxes_1 (i : S480x640.Idx) (q : dot_S480x4_S4x640_S480x640_1_0_0_1_n_n.contr.Idx) :
    (dot_S480x4_S4x640_S480x640_1_0_0_1_n_n.rhsIdx i q 1).val = (i 1).val := by
  unfold DotDims.rhsIdx
  rw [dif_neg (show ¬(1 : Fin S4x640.rank) ∈ dot_S480x4_S4x640_S480x640_1_0_0_1_n_n.rhsBatch by decide), dif_pos (show (1 : Fin S4x640.rank) ∈ dot_S480x4_S4x640_S480x640_1_0_0_1_n_n.rhsNonContracting by decide)]
  rfl

/-- The product of the 480 x 4 box block with a 4 x 640 chunk, entry (p, q): the inner product of row p and column q. -/
theorem matmul_boxes (a : FVec Ideal S480x4 .f32) (b : FVec Ideal S4x640 .f32) (p : Fin 480) (q : Fin 640) :
    matmul dot_S480x4_S4x640_S480x640_1_0_0_1_n_n (some .fp32) a b (constant (F := Ideal) S480x640 .f32 0x00000000#32) (ix2 p q)
      = ∑ k : Fin 4, a (ix2 p k) * b (ix2 k q) := by
  show FloatOps.matmul dot_S480x4_S4x640_S480x640_1_0_0_1_n_n (some .fp32) a b (constant (F := Ideal) S480x640 .f32 0x00000000#32) (ix2 p q) = _
  rw [Ideal.matmul_constant_zero_apply, ← Equiv.sum_comp (contrEquiv1 dot_S480x4_S4x640_S480x640_1_0_0_1_n_n 4 rfl rfl).symm]
  refine Finset.sum_congr rfl fun k _ => ?_
  have hk := contrEquiv1_symm_val dot_S480x4_S4x640_S480x640_1_0_0_1_n_n 4 rfl rfl k
  have el : dot_S480x4_S4x640_S480x640_1_0_0_1_n_n.lhsIdx (ix2 p q) ((contrEquiv1 dot_S480x4_S4x640_S480x640_1_0_0_1_n_n 4 rfl rfl).symm k) = ix2 p k := funext fun a => Fin.ext (by
    match a with
    | ⟨0, _⟩ => exact lhs_boxes_0 _ _
    | ⟨1, _⟩ => exact (lhs_boxes_1 _ _).trans hk)
  have er : dot_S480x4_S4x640_S480x640_1_0_0_1_n_n.rhsIdx (ix2 p q) ((contrEquiv1 dot_S480x4_S4x640_S480x640_1_0_0_1_n_n 4 rfl rfl).symm k) = ix2 k q := funext fun a => Fin.ext (by
    match a with
    | ⟨0, _⟩ => exact (rhs_boxes_0 _ _).trans hk
    | ⟨1, _⟩ => exact rhs_boxes_1 _ _)
  rw [el, er]

theorem lhs_cls_0 (i : S480x640.Idx) (q : dot_S480x42_S42x640_S480x640_1_0_0_1_n_n.contr.Idx) :
    (dot_S480x42_S42x640_S480x640_1_0_0_1_n_n.lhsIdx i q 0).val = (i 0).val := by
  unfold DotDims.lhsIdx
  rw [dif_neg (show ¬(0 : Fin S480x42.rank) ∈ dot_S480x42_S42x640_S480x640_1_0_0_1_n_n.lhsBatch by decide), dif_pos (show (0 : Fin S480x42.rank) ∈ dot_S480x42_S42x640_S480x640_1_0_0_1_n_n.lhsNonContracting by decide)]
  rfl
theorem lhs_cls_1 (i : S480x640.Idx) (q : dot_S480x42_S42x640_S480x640_1_0_0_1_n_n.contr.Idx) :
    (dot_S480x42_S42x640_S480x640_1_0_0_1_n_n.lhsIdx i q 1).val = (q ⟨0, by decide⟩).val :=
  dot_S480x42_S42x640_S480x640_1_0_0_1_n_n.lhsIdx_val_of_single rfl i q
theorem rhs_cls_0 (i : S480x640.Idx) (q : dot_S480x42_S42x640_S480x640_1_0_0_1_n_n.contr.Idx) :
    (dot_S480x42_S42x640_S480x640_1_0_0_1_n_n.rhsIdx i q 0).val = (q ⟨0, by decide⟩).val :=
  dot_S480x42_S42x640_S480x640_1_0_0_1_n_n.rhsIdx_val_of_single rfl i q
theorem rhs_cls_1 (i : S480x640.Idx) (q : dot_S480x42_S42x640_S480x640_1_0_0_1_n_n.contr.Idx) :
    (dot_S480x42_S42x640_S480x640_1_0_0_1_n_n.rhsIdx i q 1).val = (i 1).val := by
  unfold DotDims.rhsIdx
  rw [dif_neg (show ¬(1 : Fin S42x640.rank) ∈ dot_S480x42_S42x640_S480x640_1_0_0_1_n_n.rhsBatch by decide), dif_pos (show (1 : Fin S42x640.rank) ∈ dot_S480x42_S42x640_S480x640_1_0_0_1_n_n.rhsNonContracting by decide)]
  rfl

/-- The product of the 480 x 42 class-cost block with a 42 x 640 chunk of label weights, entry (p, q). -/
theorem matmul_cls (a : FVec Ideal S480x42 .f32) (b : FVec Ideal S42x640 .f32) (p : Fin 480) (q : Fin 640) :
    matmul dot_S480x42_S42x640_S480x640_1_0_0_1_n_n (some .fp32) a b (constant (F := Ideal) S480x640 .f32 0x00000000#32) (ix2 p q)
      = ∑ k : Fin 42, a (ix2 p k) * b (ix2 k q) := by
  show FloatOps.matmul dot_S480x42_S42x640_S480x640_1_0_0_1_n_n (some .fp32) a b (constant (F := Ideal) S480x640 .f32 0x00000000#32) (ix2 p q) = _
  rw [Ideal.matmul_constant_zero_apply, ← Equiv.sum_comp (contrEquiv1 dot_S480x42_S42x640_S480x640_1_0_0_1_n_n 42 rfl rfl).symm]
  refine Finset.sum_congr rfl fun k _ => ?_
  have hk := contrEquiv1_symm_val dot_S480x42_S42x640_S480x640_1_0_0_1_n_n 42 rfl rfl k
  have el : dot_S480x42_S42x640_S480x640_1_0_0_1_n_n.lhsIdx (ix2 p q) ((contrEquiv1 dot_S480x42_S42x640_S480x640_1_0_0_1_n_n 42 rfl rfl).symm k) = ix2 p k := funext fun a => Fin.ext (by
    match a with
    | ⟨0, _⟩ => exact lhs_cls_0 _ _
    | ⟨1, _⟩ => exact (lhs_cls_1 _ _).trans hk)
  have er : dot_S480x42_S42x640_S480x640_1_0_0_1_n_n.rhsIdx (ix2 p q) ((contrEquiv1 dot_S480x42_S42x640_S480x640_1_0_0_1_n_n 42 rfl rfl).symm k) = ix2 k q := funext fun a => Fin.ext (by
    match a with
    | ⟨0, _⟩ => exact (rhs_cls_0 _ _).trans hk
    | ⟨1, _⟩ => exact rhs_cls_1 _ _)
  rw [el, er]

end Cert.KernelIdeal.Hand.Chunk4

namespace Cert.KernelIdeal.Hand

open Cert.KernelIdeal Cert.KernelIdeal.Gen Chunk4

/-- Entry (p, q) of chunk 4 is `costK` of prediction row p and target column j = 2560 + q. -/
theorem piece4_apply (x0 : Vec Ideal S480x4 .f32) (x1 : Vec Ideal S480x42 .f32) (x2 : Vec Ideal S4x3200 .f32) (x3 : Vec Ideal S42x3200 .f32)
    (p : Fin 480) (q : Fin 640) (j : Fin 3200) (hj : j.val = 2560 + q.val) :
    piece4 (F := Ideal) x0 x1 x2 x3 (ix2 p q)
      = MatchCost.costK (fun k => x1 (ix2 p k)) (fun k => x0 (ix2 p k)) (fun k => x2 (ix2 k j)) (fun k => x3 (ix2 k j)) := by
  unfold piece4
  -- every payload is opened, the entry's index is pushed through the pointwise operations, and each layout
  -- operation, load and product is read at the entry; both sides are then the same expression
  simp only [k0_pay1, k0_pay102, k0_pay101, k0_pay100, k0_pay99, k0_pay98, k0_pay97, k0_pay96, k0_pay95, k0_pay94,
    k0_pay93, k0_pay92, k0_pay91, k0_pay90, k0_pay89, k0_pay88,
    k0_pay23, k0_pay22, k0_pay21, k0_pay20, k0_pay19, k0_pay18, k0_pay17, k0_pay16, k0_pay15, k0_pay14, k0_pay13, k0_pay12, k0_pay11,
    k0_pay10, k0_pay9, k0_pay8, k0_pay7, k0_pay6, k0_pay5, k0_pay4, k0_pay3, k0_pay2,
    ld_pred, ld_logits, shapeCast_self,
    mulf_apply, addf_apply, subf_apply, divf_apply, maximumf_apply, minimumf_apply, sqrt_apply, log_apply, logistic_apply,
    broadcast_apply, Ideal.ofBits_def,
    bcast_col, bcast_row, col0, col1, col2, col3, row0, row1, row2, row3, matmul_boxes, matmul_cls,
    fun k => ld_boxes x2 k q j hj, fun k => ld_labels x3 k q j hj,
    MatchCost.costK, MatchCost.distK, MatchCost.sqK, MatchCost.giouK, MatchCost.interK, MatchCost.unionK, MatchCost.hullK,
    MatchCost.area, MatchCost.x0, MatchCost.y0, MatchCost.x1, MatchCost.y1, MatchCost.posK, MatchCost.negK]

end Cert.KernelIdeal.Hand

end
-- ==== Proof.BlockAt.lean ====
/-
  One grid step's whole 480 × 3200 output block, entry by entry: entry (p, j) is the matching cost (first spelling) of the step's
  p-th prediction against target j. The block is stored in five chunks of 640 columns; each chunk is that same function of
  the block's index, restricted to the chunk's columns, and the chunks tile the block.
-/
import proofs.«407717_j61641370632782_3_alg».proof.Proof.Gen.KernelIdeal.Frame
import proofs.«407717_j61641370632782_3_alg».proof.Proof.Cost
import proofs.«407717_j61641370632782_3_alg».proof.Proof.Pieces
import proofs.«407717_j61641370632782_3_alg».proof.Proof.Piece0
import proofs.«407717_j61641370632782_3_alg».proof.Proof.Piece1
import proofs.«407717_j61641370632782_3_alg».proof.Proof.Piece2
import proofs.«407717_j61641370632782_3_alg».proof.Proof.Piece3
import proofs.«407717_j61641370632782_3_alg».proof.Proof.Piece4
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen

/-- The cost of the block's row `y 0` against target `y 1`, as a function of the block index. -/
def blockCost (x0 : Vec Ideal S480x4 .f32) (x1 : Vec Ideal S480x42 .f32) (x2 : Vec Ideal S4x3200 .f32) (x3 : Vec Ideal S42x3200 .f32)
    (y : S480x3200.Idx) : EReal :=
  MatchCost.costK (fun k => x1 (ix2 (y 0) k)) (fun k => x0 (ix2 (y 0) k)) (fun k => x2 (ix2 k (y 1))) (fun k => x3 (ix2 k (y 1)))

/-- Where a chunk's local index (p, q) sits in the block: row p, column (the chunk's first column) + q. -/
theorem emb_chunk (off : Nat) (inb : ∀ a, (![0, off] : Fin 2 → Nat) a + S480x640.size a ≤ S480x3200.size a)
    (p : Fin 480) (q : Fin 640) (j : Fin 3200) (hj : j.val = off + q.val) :
    (Rect.unit (s := S480x3200) ![0, off] S480x640.size inb).emb (ix2 p q) = ix2 p j := by
  funext a
  apply Fin.ext
  match a with
  | ⟨0, _⟩ => simp only [Rect.emb_apply, Rect.off_unit, Rect.stride_unit, Nat.one_mul]; show 0 + p.val = p.val; omega
  | ⟨1, _⟩ => simp only [Rect.emb_apply, Rect.off_unit, Rect.stride_unit, Nat.one_mul]; show off + q.val = j.val; omega

/-- The output block at any index is the cost of its row's prediction against its column's target. -/
theorem block_at (x0 : Vec Ideal S480x4 .f32) (x1 : Vec Ideal S480x42 .f32) (x2 : Vec Ideal S4x3200 .f32) (x3 : Vec Ideal S42x3200 .f32)
    (y : S480x3200.Idx) : out0_4 (F := Ideal) x0 x1 x2 x3 y = blockCost x0 x1 x2 x3 y := by
  rw [out0_4_pieces]
  refine View.canon_apply_of_pieces (Val := Elt Ideal) (e := .f32) (blockCost x0 x1 x2 x3) _ ?_ y (cover0_4 _ _ _ _ _ y)
  intro pc hpc x
  simp only [List.mem_cons, List.mem_singleton, List.not_mem_nil, or_false] at hpc
  rcases hpc with rfl | rfl | rfl | rfl | rfl
  · obtain ⟨p, q, rfl⟩ : ∃ (p : Fin 480) (q : Fin 640), x = ix2 p q := ⟨x 0, x 1, eq_ix2 x⟩
    have hj : (⟨2560 + q.val, by omega⟩ : Fin 3200).val = 2560 + q.val := rfl
    show piece4 x0 x1 x2 x3 (ix2 p q) = blockCost x0 x1 x2 x3 (r0_16.emb (ix2 p q))
    rw [piece4_apply x0 x1 x2 x3 p q _ hj, emb_chunk 2560 _ p q _ hj]; rfl
  · obtain ⟨p, q, rfl⟩ : ∃ (p : Fin 480) (q : Fin 640), x = ix2 p q := ⟨x 0, x 1, eq_ix2 x⟩
    have hj : (⟨1920 + q.val, by omega⟩ : Fin 3200).val = 1920 + q.val := rfl
    show piece3 x0 x1 x2 x3 (ix2 p q) = blockCost x0 x1 x2 x3 (r0_13.emb (ix2 p q))
    rw [piece3_apply x0 x1 x2 x3 p q _ hj, emb_chunk 1920 _ p q _ hj]; rfl
  · obtain ⟨p, q, rfl⟩ : ∃ (p : Fin 480) (q : Fin 640), x = ix2 p q := ⟨x 0, x 1, eq_ix2 x⟩
    have hj : (⟨1280 + q.val, by omega⟩ : Fin 3200).val = 1280 + q.val := rfl
    show piece2 x0 x1 x2 x3 (ix2 p q) = blockCost x0 x1 x2 x3 (r0_10.emb (ix2 p q))
    rw [piece2_apply x0 x1 x2 x3 p q _ hj, emb_chunk 1280 _ p q _ hj]; rfl
  · obtain ⟨p, q, rfl⟩ : ∃ (p : Fin 480) (q : Fin 640), x = ix2 p q := ⟨x 0, x 1, eq_ix2 x⟩
    have hj : (⟨640 + q.val, by omega⟩ : Fin 3200).val = 640 + q.val := rfl
    show piece1 x0 x1 x2 x3 (ix2 p q) = blockCost x0 x1 x2 x3 (r0_7.emb (ix2 p q))
    rw [piece1_apply x0 x1 x2 x3 p q _ hj, emb_chunk 640 _ p q _ hj]; rfl
  · obtain ⟨p, q, rfl⟩ : ∃ (p : Fin 480) (q : Fin 640), x = ix2 p q := ⟨x 0, x 1, eq_ix2 x⟩
    have hj : (⟨0 + q.val, by omega⟩ : Fin 3200).val = 0 + q.val := rfl
    show piece0 x0 x1 x2 x3 (ix2 p q) = blockCost x0 x1 x2 x3 (r0_4.emb (ix2 p q))
    rw [piece0_apply x0 x1 x2 x3 p q _ hj, emb_chunk 0 _ p q _ hj]; rfl

end Cert.KernelIdeal.Hand

end
-- ==== Proof.KernelArr.lean ====
/-
  The kernel's result. Grid step t handles predictions 480 t … 480 t + 479: it is given rows 480 t … of the re-laid logits and
  boxes, and the whole transposed target boxes and the whole label table at every step, and writes back rows 480 t … of the
  [14400, 3200] result. Since every entry of a step's output block is the cost of the block row's prediction against the
  column's target, the finished array holds at (n, j) the cost (first spelling) of prediction n against target j, read from
  the arrays as the kernel's region finds them; the thirty steps cover all 14400 rows. The one host operation after the
  region re-lays that array as [16, 900, 3200].
-/
import proofs.«407717_j61641370632782_3_alg».proof.Proof.Gen.KernelIdeal.Frame
import proofs.«407717_j61641370632782_3_alg».proof.Proof.Cost
import proofs.«407717_j61641370632782_3_alg».proof.Proof.BlockAt
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The block each window hands to step t: the row blocks move with t, the target boxes and the label table stay put. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The finished [14400, 3200] array: at (n, j) the cost of prediction n against target j, from the arrays as the region finds them. -/
def karr (c : Dev nD) : S14400x3200.Idx → EReal := fun i =>
  MatchCost.costK (fun k => (V m c main_v0 : S14400x42.Idx → EReal) (ix2 (i 0) k))
    (fun k => (V m c main_v1 : S14400x4.Idx → EReal) (ix2 (i 0) k))
    (fun k => (V m c main_v2 : S4x3200.Idx → EReal) (ix2 k (i 1)))
    (fun k => (V m c main_v6 : S42x3200.Idx → EReal) (ix2 k (i 1)))

/-- Step t's block of predicted boxes is rows 480 t … of the re-laid boxes. -/
theorem iblk_boxes (c : Dev nD) (t : Fin cfg0.N) (p : Fin 480) (k : Fin 4) (n : Fin 14400) (hn : n.val = t.val * 480 + p.val) :
    (iblk m c 0 t : Vec Ideal S480x4 .f32) (ix2 p k) = (V m c main_v1 : S14400x4.Idx → EReal) (ix2 n k) := by
  obtain ⟨e0, e1, -⟩ := idx_facts t
  show V m c main_v1 (((cfg0.win 0).blk t).view.emb (ix2 p k)) = V m c main_v1 (ix2 n k)
  have h : ((cfg0.win 0).blk t).view.emb (ix2 p k) = ix2 n k := by
    funext a; apply Fin.ext
    match a with
    | ⟨0, _⟩ => show win0_0.index t (0 : Fin 2) * 480 + 1 * p.val = n.val; omega
    | ⟨1, _⟩ => show win0_0.index t (1 : Fin 2) * 4 + 1 * k.val = k.val; omega
  rw [h]

/-- Step t's block of logits is rows 480 t … of the re-laid logits. -/
theorem iblk_logits (c : Dev nD) (t : Fin cfg0.N) (p : Fin 480) (k : Fin 42) (n : Fin 14400) (hn : n.val = t.val * 480 + p.val) :
    (iblk m c 1 t : Vec Ideal S480x42 .f32) (ix2 p k) = (V m c main_v0 : S14400x42.Idx → EReal) (ix2 n k) := by
  obtain ⟨-, -, e0, e1, -⟩ := idx_facts t
  show V m c main_v0 (((cfg0.win 1).blk t).view.emb (ix2 p k)) = V m c main_v0 (ix2 n k)
  have h : ((cfg0.win 1).blk t).view.emb (ix2 p k) = ix2 n k := by
    funext a; apply Fin.ext
    match a with
    | ⟨0, _⟩ => show win0_1.index t (0 : Fin 2) * 480 + 1 * p.val = n.val; omega
    | ⟨1, _⟩ => show win0_1.index t (1 : Fin 2) * 42 + 1 * k.val = k.val; omega
  rw [h]

/-- Every step is handed the whole transposed target boxes. -/
theorem iblk_targets (c : Dev nD) (t : Fin cfg0.N) (k : Fin 4) (j : Fin 3200) :
    (iblk m c 2 t : Vec Ideal S4x3200 .f32) (ix2 k j) = (V m c main_v2 : S4x3200.Idx → EReal) (ix2 k j) := by
  obtain ⟨-, -, -, -, e0, e1, -⟩ := idx_facts t
  show V m c main_v2 (((cfg0.win 2).blk t).view.emb (ix2 k j)) = V m c main_v2 (ix2 k j)
  have h : ((cfg0.win 2).blk t).view.emb (ix2 k j) = ix2 k j := by
    funext a; apply Fin.ext
    match a with
    | ⟨0, _⟩ => show win0_2.index t (0 : Fin 2) * 4 + 1 * k.val = k.val; omega
    | ⟨1, _⟩ => show win0_2.index t (1 : Fin 2) * 3200 + 1 * j.val = j.val; omega
  rw [h]

/-- Every step is handed the whole label table. -/
theorem iblk_labels (c : Dev nD) (t : Fin cfg0.N) (k : Fin 42) (j : Fin 3200) :
    (iblk m c 3 t : Vec Ideal S42x3200 .f32) (ix2 k j) = (V m c main_v6 : S42x3200.Idx → EReal) (ix2 k j) := by
  obtain ⟨-, -, -, -, -, -, e0, e1, -⟩ := idx_facts t
  show V m c main_v6 (((cfg0.win 3).blk t).view.emb (ix2 k j)) = V m c main_v6 (ix2 k j)
  have h : ((cfg0.win 3).blk t).view.emb (ix2 k j) = ix2 k j := by
    funext a; apply Fin.ext
    match a with
    | ⟨0, _⟩ => show win0_3.index t (0 : Fin 2) * 42 + 1 * k.val = k.val; omega
    | ⟨1, _⟩ => show win0_3.index t (1 : Fin 2) * 3200 + 1 * j.val = j.val; omega
  rw [h]

/-- The cost depends on its four data only through their values. -/
theorem costK_congr {ℓ ℓ' : Fin 42 → EReal} {a a' b b' : Fin 4 → EReal} {oh oh' : Fin 42 → EReal}
    (h1 : ℓ = ℓ') (h2 : a = a') (h3 : b = b') (h4 : oh = oh') : MatchCost.costK ℓ a b oh = MatchCost.costK ℓ' a' b' oh' := by
  subst h1 h2 h3 h4; rfl

/-- What step t writes back is block t of `karr`: rows 480 t … 480 t + 479, all columns. -/
theorem flushed_eq (c : Dev nD) (t : Fin cfg0.N) :
    (dats m 0 c).flushed 4 t = ((cfg0.win 4).blk t).view.read (Elt Ideal) (karr m c) := by
  show (cfg0.win 4).cut (grid0.coords t) ((dats m 0 c).after 4 t) = _
  rw [after0_4]
  obtain ⟨-, -, -, -, -, -, -, -, e0, e1⟩ := idx_facts t
  funext y
  show out0_4 (iblk m c 0 t) (iblk m c 1 t) (iblk m c 2 t) (iblk m c 3 t) y = karr m c (((cfg0.win 4).blk t).view.emb y)
  refine (block_at (iblk m c 0 t) (iblk m c 1 t) (iblk m c 2 t) (iblk m c 3 t) y).trans ?_
  have hn : ((((cfg0.win 4).blk t).view.emb y) 0).val = t.val * 480 + (y 0).val := by
    show win0_4.index t (0 : Fin 2) * 480 + 1 * (y 0).val = _; omega
  have hj : ((((cfg0.win 4).blk t).view.emb y) 1) = y 1 := by
    apply Fin.ext
    show win0_4.index t (1 : Fin 2) * 3200 + 1 * (y 1).val = _; omega
  unfold blockCost karr
  rw [hj]
  refine costK_congr (funext fun k => ?_) (funext fun k => ?_) (funext fun k => ?_) (funext fun k => ?_)
  · exact iblk_logits m c t (y 0) k ((((cfg0.win 4).blk t).view.emb y) 0) hn
  · exact iblk_boxes m c t (y 0) k ((((cfg0.win 4).blk t).view.emb y) 0) hn
  · exact iblk_targets m c t k (y 1)
  · exact iblk_labels m c t k (y 1)

/-- An index of the result array lies in step t's block iff each coordinate lies in the block's range on its axis. -/
theorem mem_blk (t : Fin cfg0.N) (i : S14400x3200.Idx) :
    i ∈ ((cfg0.win 4).blk t).view.set ↔ ∀ a : Fin 2, win0_4.index t a * S480x3200.size a ≤ (i a).val ∧ (i a).val < win0_4.index t a * S480x3200.size a + S480x3200.size a := by
  show i ∈ ((View.whole main_v7).slice (win0_4.rect t)).set ↔ _
  rw [View.set_slice_whole, Rect.mem_set_unit]
  exact Iff.rfl

/-- The result array after the thirty steps is `karr`: row n is written by step n / 480. -/
theorem final (c : Dev nD) : (dats m 0 c).arrAt 4 cfg0.N = karr m c :=
  (dats m 0 c).arrAt_eq_of_cover 4 (karr m c) (fun t _ => flushed_eq m c t) fun i => by
    have hi0 : (i 0).val < 14400 := idx2_lt0 i
    have hi1 : (i 1).val < 3200 := idx2_lt1 i
    have hN : cfg0.N = 30 := N_0
    refine ⟨⟨(i 0).val / 480, by rw [hN]; omega⟩, flush0_4 _, ?_⟩
    rw [mem_blk]
    obtain ⟨-, -, -, -, -, -, -, -, e0, e1⟩ := idx_facts ⟨(i 0).val / 480, by rw [hN]; omega⟩
    intro a
    match a with
    | ⟨0, _⟩ => show win0_4.index _ (0 : Fin 2) * 480 ≤ (i 0).val ∧ (i 0).val < win0_4.index _ (0 : Fin 2) * 480 + 480; rw [e0]; show (i 0).val / 480 * 480 ≤ (i 0).val ∧ (i 0).val < (i 0).val / 480 * 480 + 480; omega
    | ⟨1, _⟩ => show win0_4.index _ (1 : Fin 2) * 3200 ≤ (i 1).val ∧ (i 1).val < win0_4.index _ (1 : Fin 2) * 3200 + 3200; rw [e1]; omega

/-- The host operation after the region re-lays the region's result array as [16, 900, 3200]. -/
theorem tail_eq (c : Dev nD) :
    Pipeline.afterTail₀ cfgs (dats m) 0 (V0 m) [hostOps1] c main_v8
      = shapeCast S16x900x3200 ((dats m 0 c).arrAt 4 cfg0.N) shapeCasts_S14400x3200_S16x900x3200 := by
  unfold Pipeline.afterTail₀
  show StableHlo.after hostOps1 _ (Proc.devRef .tc main_v8) = _
  after_results
  rw [Pipeline.withArrays_arr spec0 launch0.win.arr_inj c _ _ 4]
  rfl

/-- The kernel program's run, read: the result is `karr` re-laid as [16, 900, 3200], the arguments end as launched. -/
theorem kernel_run : θ_run defs (onTc (τ := τ) (main (F := Ideal))) ⟨m, fun _ => 0, ρ⟩ fun r => ∀ c : Dev nD,
      r.2.mem ((c : Thread nD τ).loc main_v8) = shapeCast S16x900x3200 (karr m c) shapeCasts_S14400x3200_S16x900x3200
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v8 (Pipeline.mem_restRefs_of main_v8 (by decide) (by decide))).trans ((tail_eq m c).trans (by rw [final m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.HostPre.lean ====
/-
  What the region finds in its four input arrays, in terms of the program's arguments. Three short stretches of host
  operations run before the kernel is launched: the logits and the predicted boxes are re-laid as 14400 rows; the target
  boxes are transposed; and the labels are turned into a table with one column per target and one row per class, holding
  2 where the row's class is the target's label and 0 elsewhere (an equality test against the class numbers 0 … 41, read as
  0 or 1, transposed, times the literal 2).
-/
import proofs.«407717_j61641370632782_3_alg».proof.Proof.Gen.KernelIdeal.Frame
import proofs.«407717_j61641370632782_3_alg».proof.Proof.Cost
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-! ## The four arrays as terms over the arguments

Each of the region's input arrays is written by the host operations once, and no later operation writes it again; so what
the region finds there is that one operation's function applied to what its operands held. -/

/-- The logits as the region finds them: the argument re-laid as 14400 rows of 42. -/
theorem V_logits (c : Dev nD) :
    (V m c main_v0 : S14400x42.Idx → EReal) = shapeCast S14400x42 (m ((c : Thread nD τ).loc main_arg0)) shapeCasts_S16x900x42_S14400x42 := by
  dsimp only [Gen.V, Gen.V0]
  simp only [Gen.hostOps0, Gen.hostOps0_1, Gen.hostOps0_2, List.flatten_cons, List.flatten_nil, List.append_nil, List.cons_append, List.nil_append]
  after_results
  rfl

/-- The predicted boxes as the region finds them: the argument re-laid as 14400 rows of 4. -/
theorem V_boxes (c : Dev nD) :
    (V m c main_v1 : S14400x4.Idx → EReal) = shapeCast S14400x4 (m ((c : Thread nD τ).loc main_arg1)) shapeCasts_S16x900x4_S14400x4 := by
  dsimp only [Gen.V, Gen.V0]
  simp only [Gen.hostOps0, Gen.hostOps0_1, Gen.hostOps0_2, List.flatten_cons, List.flatten_nil, List.append_nil, List.cons_append, List.nil_append]
  after_results
  rfl

/-- The target boxes as the region finds them: the argument transposed. -/
theorem V_targets_eq (c : Dev nD) :
    (V m c main_v2 : S4x3200.Idx → EReal)
      = transpose S4x3200 [1, 0] (m ((c : Thread nD τ).loc main_arg2) : S3200x4.Idx → EReal) transposes_S3200x4_S4x3200_1_0 := by
  dsimp only [Gen.V, Gen.V0]
  simp only [Gen.hostOps0, Gen.hostOps0_1, Gen.hostOps0_2, List.flatten_cons, List.flatten_nil, List.append_nil, List.cons_append, List.nil_append]
  after_results

/-- The target boxes as the region finds them: entry (k, j) is coordinate k of target j. -/
theorem V_targets_apply (c : Dev nD) (k : Fin 4) (j : Fin 3200) :
    (V m c main_v2 : S4x3200.Idx → EReal) (ix2 k j) = (m ((c : Thread nD τ).loc main_arg2) : S3200x4.Idx → EReal) (ix2 j k) := by
  rw [V_targets_eq]
  -- the transposed array at (k, j) is the array at (j, k): result axis b is source axis [1, 0][b]
  exact transpose_apply [1, 0] _ transposes_S3200x4_S4x3200_1_0 (ix2 k j) (ix2 j k)
    (fun b => match b with | ⟨0, _⟩ => rfl | ⟨1, _⟩ => rfl)

/-! ## The label table -/

/-- The label table as a term: the label column laid along the rows of a 3200 × 42 rectangle, tested for equality against
    the class numbers 0 … 41 laid along its columns, the bit read as 0 or 1, transposed, times the literal 2. -/
theorem V_labels_eq (c : Dev nD) :
    (V m c main_v6 : S42x3200.Idx → EReal) =
      mulf (F := Ideal)
        (transpose S42x3200 [1, 0]
          (uitofp (F := Ideal) .f32
            (cmpi .eq
              (broadcastInDim S3200x42 ![0, 1] bcast_S3200x1_S3200x42_0_1
                (broadcastInDim S3200x1 ![0] bcast_S3200_S3200x1_0 (m ((c : Thread nD τ).loc main_arg3) : IVec S3200 32)))
              (broadcastInDim S3200x42 ![0, 1] bcast_S1x42_S3200x42_0_1 (iotaInDim S1x42 32 1))))
          transposes_S3200x42_S42x3200_1_0)
        (broadcastInDim S42x3200 ![] bcast_S_S42x3200 (constant (F := Ideal) S_ .f32 0x40000000#32)) := by
  dsimp only [Gen.V, Gen.V0]
  simp only [Gen.hostOps0, Gen.hostOps0_1, Gen.hostOps0_2, List.flatten_cons, List.flatten_nil, List.append_nil, List.cons_append, List.nil_append]
  after_results
  rfl

/-- The label column laid along the rows of the rectangle reads, at (j, k), the label of target j. -/
theorem labels_rows_apply (v : IVec S3200 32) (j : Fin 3200) (k : Fin 42) :
    broadcastInDim S3200x42 ![0, 1] bcast_S3200x1_S3200x42_0_1 (broadcastInDim S3200x1 ![0] bcast_S3200_S3200x1_0 v) (ix2 j k)
      = v (ix1 j) := by
  refine (broadcastInDim_apply ![0, 1] bcast_S3200x1_S3200x42_0_1 _ (ix2 j k) (ix2 j (0 : Fin 1))
    (fun a => match a with | ⟨0, _⟩ => rfl | ⟨1, _⟩ => rfl)).trans ?_
  exact broadcastInDim_apply ![0] bcast_S3200_S3200x1_0 v (ix2 j (0 : Fin 1)) (ix1 j)
    (fun a => match a with | ⟨0, _⟩ => rfl)

/-- The class numbers laid along the columns of the rectangle read, at (j, k), the word of k. -/
theorem classes_cols_apply (j : Fin 3200) (k : Fin 42) :
    broadcastInDim S3200x42 ![0, 1] bcast_S1x42_S3200x42_0_1 (iotaInDim S1x42 32 1) (ix2 j k) = BitVec.ofNat 32 k.val := by
  refine (broadcastInDim_apply ![0, 1] bcast_S1x42_S3200x42_0_1 _ (ix2 j k) (ix2 (0 : Fin 1) k)
    (fun a => match a with | ⟨0, _⟩ => rfl | ⟨1, _⟩ => rfl)).trans ?_
  rfl

/-- Two class numbers have the same 32-bit word only if they are the same class: both are below 42. -/
theorem ofNat_class_inj (k id : Fin 42) (h : BitVec.ofNat 32 id.val = BitVec.ofNat 32 k.val) : k = id := by
  have h' := congrArg BitVec.toNat h
  simp only [BitVec.toNat_ofNat] at h'
  have hk := k.isLt
  have hid := id.isLt
  exact Fin.ext (by omega)

/-- The equality bit of two class numbers' words, read unsigned as an extended real: 1 for the same class, 0 otherwise. -/
theorem uitofp_cmpi_class (k id : Fin 42) :
    (FloatOps.uitofp (F := Ideal) .f32 (IntOp.cmpi .eq (BitVec.ofNat 32 id.val) (BitVec.ofNat 32 k.val)) : EReal)
      = (((if k = id then 1 else 0 : ℝ)) : EReal) := by
  by_cases hki : k = id
  · subst hki
    rw [if_pos rfl, StableHlo.Predicate.cmpi_eq_iff.mpr rfl]
    show (((1#1 : BitVec 1).toNat : ℝ) : EReal) = ((1 : ℝ) : EReal)
    norm_num
  · have hne : ¬ IntOp.cmpi .eq (BitVec.ofNat 32 id.val) (BitVec.ofNat 32 k.val) = 1#1 := fun h =>
      hki (ofNat_class_inj k id (StableHlo.Predicate.cmpi_eq_iff.mp h))
    rw [if_neg hki, eq_zero_of_ne_one hne]
    show (((0#1 : BitVec 1).toNat : ℝ) : EReal) = ((0 : ℝ) : EReal)
    norm_num

/-- The label table as the region finds it: when target j's label word is the class number `id`, column j is `id`'s column of weights. -/
theorem V_labels_apply (c : Dev nD) (k : Fin 42) (j : Fin 3200) (id : Fin 42)
    (hid : (m ((c : Thread nD τ).loc main_arg3) : IVec S3200 32) (ix1 j) = BitVec.ofNat 32 id.val) :
    (V m c main_v6 : S42x3200.Idx → EReal) (ix2 k j) = MatchCost.ohcol id k := by
  rw [V_labels_eq, mulf_apply]
  -- the transposed 0/1 table at (k, j) is the table at (j, k)
  rw [transpose_apply [1, 0] _ transposes_S3200x42_S42x3200_1_0 (ix2 k j) (ix2 j k)
    (fun b => match b with | ⟨0, _⟩ => rfl | ⟨1, _⟩ => rfl)]
  -- there: the equality bit of target j's label and the class number k
  show (FloatOps.uitofp (F := Ideal) .f32 (IntOp.cmpi .eq
        (broadcastInDim S3200x42 ![0, 1] bcast_S3200x1_S3200x42_0_1
          (broadcastInDim S3200x1 ![0] bcast_S3200_S3200x1_0 (m ((c : Thread nD τ).loc main_arg3) : IVec S3200 32)) (ix2 j k))
        (broadcastInDim S3200x42 ![0, 1] bcast_S1x42_S3200x42_0_1 (iotaInDim S1x42 32 1) (ix2 j k))) : EReal)
      * Ideal.ofBits .f32 0x40000000#32 = MatchCost.ohcol id k
  rw [labels_rows_apply, classes_cols_apply, hid, uitofp_cmpi_class]
  rfl

end Cert.KernelIdeal.Hand

end
-- ==== Proof.PreFacts.lean ====
/-
  What the precondition says of the inputs: every logit, every predicted box coordinate and every target box coordinate is a
  real number (its absolute value lies strictly below +∞), and every label word, read as a signed integer, is a class number
  0 … 41 (it is at least 0 and below 42).
-/
import proofs.«407717_j61641370632782_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

open Idealize.ShloMosaic Idealize.ShloMosaic.ValueIdx

namespace Cert.PreHand

open Cert.Pre_finite_inputs

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (−x) lies strictly below +∞ is a real number: for x = +∞ and for x = −∞ the
    maximum is +∞ itself, which is not below +∞. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- A 32-bit word that, read signed, is at least 0 and below 42 is the word of a class number id < 42: its signed value
    n = toInt a lies in [0, 42), so n is a natural number below 2³¹, whose word reads back n; two words with one signed value are equal. -/
theorem label_of_bounds (a : BitVec 32) (h0 : IntOp.cmpi .sge a 0#32 = 1#1) (h1 : IntOp.cmpi .slt a 42#32 = 1#1) :
    ∃ id : Fin 42, a = BitVec.ofNat 32 id.val := by
  have h0' : (0 : Int) ≤ a.toInt := by
    have := IntOp.cmpi_sge.1 h0
    simpa using this
  have h1' : a.toInt < 42 := by
    have := IntOp.cmpi_slt.1 h1
    simpa using this
  have hlt : a.toInt.toNat < 42 := by omega
  refine ⟨⟨a.toInt.toNat, hlt⟩, ?_⟩
  apply BitVec.eq_of_toInt_eq
  rw [StableHlo.Predicate.toInt_ofNat_small _ (by omega)]
  exact (Int.toNat_of_nonneg h0').symm

/-- The scalar shape has one index. -/
theorem subsingleton_scalar_idx : Subsingleton S_.Idx := ⟨fun a b => funext fun d => d.elim0⟩

/-- The precondition, decoded: the three float inputs are real entry by entry, and each label word is `BitVec.ofNat 32 id` for a class `id < 42`. -/
theorem pre_decode [Cert.Pre_finite_inputs.Facts] (x0 : FVec Ideal S16x900x42 .f32) (x1 : FVec Ideal S16x900x4 .f32) (x2 : FVec Ideal S3200x4 .f32) (x3 : IVec S3200 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal))
      ∧ (∀ j : Fin 3200, ∃ id : Fin 42, x3 (ix1 j) = BitVec.ofNat 32 id.val) := by
  haveI : Subsingleton S_.Idx := subsingleton_scalar_idx
  -- the one word of the precondition's result is 1
  have h' := congrFun h ix0
  dsimp only [fn, fn_part1] at h'
  -- the result is the conjunction of five words, each the "all" of one elementwise test
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  refine ⟨fun i => ?_, fun i => ?_, fun i => ?_, fun j => ?_⟩
  · exact real_of_abs_lt_inf (x0 i) (Host.reduce_andi_all _ _ _ _ _ h1 i)
  · exact real_of_abs_lt_inf (x1 i) (Host.reduce_andi_all _ _ _ _ _ h2 i)
  · exact real_of_abs_lt_inf (x2 i) (Host.reduce_andi_all _ _ _ _ _ h3 i)
  · exact label_of_bounds (x3 (ix1 j)) (Host.reduce_andi_all _ _ _ _ _ h4 (ix1 j)) (Host.reduce_andi_all _ _ _ _ _ h5 (ix1 j))

end Cert.PreHand

end
-- ==== Proof.RefBox.lean ====
/-
  The reference's box distance at one entry: the square root of the clipped `|a|² + |b|² − (2a)·b`, with a the n-th predicted box
  (a row of the re-laid argument) and b the j-th target box, in the second spelling (the reference's order of operations).
-/
import proofs.«407717_j61641370632782_3_alg».proof.Proof.RefRead
import proofs.«407717_j61641370632782_3_alg».proof.Proof.Cost
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read

/-- The squared-norm stage of the predicted boxes, read through its two broadcasts, sums row n of the re-laid boxes. -/
theorem idx_sqA (n : Fin 14400) (j : Fin 3200) (k : Fin 4) :
    idx_main_v9 (idx_main_v10 (idx_main_v14 (ix2 n j))) k = ix2 n k :=
  funext fun a => Fin.ext (by match a with | ⟨0, _⟩ => rfl | ⟨1, _⟩ => rfl)

/-- The squared-norm stage of the target boxes, read through its two broadcasts, sums row j of the targets. -/
theorem idx_sqB (n : Fin 14400) (j : Fin 3200) (k : Fin 4) :
    idx_main_v12 (idx_main_v13 (idx_main_v15 (ix2 n j))) k = ix2 j k :=
  funext fun a => Fin.ext (by match a with | ⟨0, _⟩ => rfl | ⟨1, _⟩ => rfl)

/-- The left operand of the inner product at entry (n, j), term k, is entry (n, k). -/
theorem idx_dotL (n : Fin 14400) (j : Fin 3200) (k : Fin 4) :
    lidx_main_v20 (ix2 n j) k = ix2 n k :=
  funext fun a => Fin.ext (by match a with | ⟨0, _⟩ => rfl | ⟨1, _⟩ => rfl)

/-- The right operand of the inner product at entry (n, j), term k, is the transposed targets at (k, j): entry (j, k) of the targets. -/
theorem idx_dotR (n : Fin 14400) (j : Fin 3200) (k : Fin 4) :
    idx_main_v19 (ridx_main_v20 (ix2 n j) k) = ix2 j k :=
  funext fun a => Fin.ext (by match a with | ⟨0, _⟩ => rfl | ⟨1, _⟩ => rfl)

/-- Entry (n, j) of the reference's distance stage is `distR` of predicted box n and target box j. -/
theorem box_at (x1 : (⟨S16x900x4, .f32⟩ : BufTy).Contents (Elt Ideal)) (x2 : (⟨S3200x4, .f32⟩ : BufTy).Contents (Elt Ideal)) (n : Fin 14400) (j : Fin 3200) :
    val_main_v23 (F := Ideal) x1 x2 (ix2 n j)
      = MatchCost.distR (fun k => val_main_v7 (F := Ideal) x1 (ix2 n k)) (fun k => x2 (ix2 j k)) := by
  rw [val_main_v23_apply, val_main_v22_apply, val_main_call0_v1_apply, val_main_call0_v0_apply, val_main_cst_4_apply,
    val_main_v21_apply, val_main_v16_apply,
    val_main_v14_apply, val_main_v10_apply, val_main_v9_apply, val_main_cst_1_apply,
    val_main_v15_apply, val_main_v13_apply, val_main_v12_apply, val_main_cst_2_apply,
    val_main_v20_apply]
  simp only [val_main_v8_apply, val_main_v11_apply, val_main_v18_apply, val_main_v17_apply, val_main_cst_3_apply,
    val_main_v19_apply, idx_sqA, idx_sqB, idx_dotL, idx_dotR,
    Ideal.hostUnary_sqrt_def, Ideal.maximumf_def, Ideal.subf_def, Ideal.addf_def, Ideal.mulf_def, Ideal.ofBits_def]
  unfold MatchCost.distR MatchCost.sqR
  rfl

end Cert.ReferenceIdeal.Hand

end
-- ==== Proof.RefGiou.lean ====
/-
  The reference's negated generalized intersection over union at one entry. Both box arrays are first rewritten as corner boxes
  (four columns joined side by side), their areas taken, and the intersection, union and enclosing box formed for every pair;
  entry (n, j) depends on predicted box n and target box j only.
-/
import proofs.«407717_j61641370632782_3_alg».proof.Proof.RefRead
import proofs.«407717_j61641370632782_3_alg».proof.Proof.Cost
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read

/-! ## Indices at a point

Every stage below is read at one point; the index a chain of layout operations finally reads is a literal index again.
The two tactics prove such an equation coordinate by coordinate: each coordinate agrees by computation, except that a
reshape [N, 1] → [N] writes the row as `n / 1`. -/

local macro "idx_pt1" : tactic =>
  `(tactic| (funext a; match a with
    | ⟨0, _⟩ => (first | rfl | exact Fin.ext (Nat.div_one _))))
local macro "idx_pt2" : tactic =>
  `(tactic| (funext a; match a with
    | ⟨0, _⟩ => (first | rfl | exact Fin.ext (Nat.div_one _))
    | ⟨1, _⟩ => rfl))

/-- Row `n` of the re-laid predicted boxes, as a function of the column. -/
abbrev prow (x1 : (⟨S16x900x4, .f32⟩ : BufTy).Contents (Elt Ideal)) (n : Fin 14400) : Fin 4 → EReal :=
  fun k => val_main_v7 (F := Ideal) x1 (ix2 n k)
/-- Row `j` of the target boxes, as a function of the column. -/
abbrev trow (x2 : (⟨S3200x4, .f32⟩ : BufTy).Contents (Elt Ideal)) (j : Fin 3200) : Fin 4 → EReal :=
  fun k => x2 (ix2 j k)

section
variable (x1 : (⟨S16x900x4, .f32⟩ : BufTy).Contents (Elt Ideal)) (x2 : (⟨S3200x4, .f32⟩ : BufTy).Contents (Elt Ideal))
  (n : Fin 14400) (j : Fin 3200)

/-! ## The four corner columns of the predicted boxes: cx − w/2, cy − h/2, cx + w/2, cy + h/2 -/

theorem pcol0 : val_main_v44 (F := Ideal) x1 (ix2 n (0 : Fin 1)) = MatchCost.x0 (prow x1 n) := by
  have e1 : idx_main_v24 (idx_main_v25 (idx_main_v44 (ix2 n (0 : Fin 1)))) = ix2 n (0 : Fin 4) := by idx_pt2
  have e2 : idx_main_v28 (idx_main_v29 (idx_main_v44 (ix2 n (0 : Fin 1)))) = ix2 n (2 : Fin 4) := by idx_pt2
  rw [val_main_v44_apply, val_main_v34_apply, val_main_v25_apply, val_main_v24_apply, val_main_v33_apply,
    val_main_v32_apply, val_main_cst_5_apply, val_main_v29_apply, val_main_v28_apply, e1, e2]
  rfl

theorem pcol1 : val_main_v45 (F := Ideal) x1 (ix2 n (0 : Fin 1)) = MatchCost.y0 (prow x1 n) := by
  have e1 : idx_main_v26 (idx_main_v27 (idx_main_v45 (ix2 n (0 : Fin 1)))) = ix2 n (1 : Fin 4) := by idx_pt2
  have e2 : idx_main_v30 (idx_main_v31 (idx_main_v45 (ix2 n (0 : Fin 1)))) = ix2 n (3 : Fin 4) := by idx_pt2
  rw [val_main_v45_apply, val_main_v37_apply, val_main_v27_apply, val_main_v26_apply, val_main_v36_apply,
    val_main_v35_apply, val_main_cst_6_apply, val_main_v31_apply, val_main_v30_apply, e1, e2]
  rfl

theorem pcol2 : val_main_v46 (F := Ideal) x1 (ix2 n (0 : Fin 1)) = MatchCost.x1 (prow x1 n) := by
  have e1 : idx_main_v24 (idx_main_v25 (idx_main_v46 (ix2 n (0 : Fin 1)))) = ix2 n (0 : Fin 4) := by idx_pt2
  have e2 : idx_main_v28 (idx_main_v29 (idx_main_v46 (ix2 n (0 : Fin 1)))) = ix2 n (2 : Fin 4) := by idx_pt2
  rw [val_main_v46_apply, val_main_v40_apply, val_main_v25_apply, val_main_v24_apply, val_main_v39_apply,
    val_main_v38_apply, val_main_cst_7_apply, val_main_v29_apply, val_main_v28_apply, e1, e2]
  rfl

theorem pcol3 : val_main_v47 (F := Ideal) x1 (ix2 n (0 : Fin 1)) = MatchCost.y1 (prow x1 n) := by
  have e1 : idx_main_v26 (idx_main_v27 (idx_main_v47 (ix2 n (0 : Fin 1)))) = ix2 n (1 : Fin 4) := by idx_pt2
  have e2 : idx_main_v30 (idx_main_v31 (idx_main_v47 (ix2 n (0 : Fin 1)))) = ix2 n (3 : Fin 4) := by idx_pt2
  rw [val_main_v47_apply, val_main_v43_apply, val_main_v27_apply, val_main_v26_apply, val_main_v42_apply,
    val_main_v41_apply, val_main_cst_8_apply, val_main_v31_apply, val_main_v30_apply, e1, e2]
  rfl

/-! ## The same four columns of the target boxes -/

theorem tcol0 : val_main_v69 (F := Ideal) x2 (ix2 j (0 : Fin 1)) = MatchCost.x0 (trow x2 j) := by
  have e1 : idx_main_v49 (idx_main_v50 (idx_main_v69 (ix2 j (0 : Fin 1)))) = ix2 j (0 : Fin 4) := by idx_pt2
  have e2 : idx_main_v53 (idx_main_v54 (idx_main_v69 (ix2 j (0 : Fin 1)))) = ix2 j (2 : Fin 4) := by idx_pt2
  rw [val_main_v69_apply, val_main_v59_apply, val_main_v50_apply, val_main_v49_apply, val_main_v58_apply,
    val_main_v57_apply, val_main_cst_9_apply, val_main_v54_apply, val_main_v53_apply, e1, e2]
  rfl

theorem tcol1 : val_main_v70 (F := Ideal) x2 (ix2 j (0 : Fin 1)) = MatchCost.y0 (trow x2 j) := by
  have e1 : idx_main_v51 (idx_main_v52 (idx_main_v70 (ix2 j (0 : Fin 1)))) = ix2 j (1 : Fin 4) := by idx_pt2
  have e2 : idx_main_v55 (idx_main_v56 (idx_main_v70 (ix2 j (0 : Fin 1)))) = ix2 j (3 : Fin 4) := by idx_pt2
  rw [val_main_v70_apply, val_main_v62_apply, val_main_v52_apply, val_main_v51_apply, val_main_v61_apply,
    val_main_v60_apply, val_main_cst_10_apply, val_main_v56_apply, val_main_v55_apply, e1, e2]
  rfl

theorem tcol2 : val_main_v71 (F := Ideal) x2 (ix2 j (0 : Fin 1)) = MatchCost.x1 (trow x2 j) := by
  have e1 : idx_main_v49 (idx_main_v50 (idx_main_v71 (ix2 j (0 : Fin 1)))) = ix2 j (0 : Fin 4) := by idx_pt2
  have e2 : idx_main_v53 (idx_main_v54 (idx_main_v71 (ix2 j (0 : Fin 1)))) = ix2 j (2 : Fin 4) := by idx_pt2
  rw [val_main_v71_apply, val_main_v65_apply, val_main_v50_apply, val_main_v49_apply, val_main_v64_apply,
    val_main_v63_apply, val_main_cst_11_apply, val_main_v54_apply, val_main_v53_apply, e1, e2]
  rfl

theorem tcol3 : val_main_v72 (F := Ideal) x2 (ix2 j (0 : Fin 1)) = MatchCost.y1 (trow x2 j) := by
  have e1 : idx_main_v51 (idx_main_v52 (idx_main_v72 (ix2 j (0 : Fin 1)))) = ix2 j (1 : Fin 4) := by idx_pt2
  have e2 : idx_main_v55 (idx_main_v56 (idx_main_v72 (ix2 j (0 : Fin 1)))) = ix2 j (3 : Fin 4) := by idx_pt2
  rw [val_main_v72_apply, val_main_v68_apply, val_main_v52_apply, val_main_v51_apply, val_main_v67_apply,
    val_main_v66_apply, val_main_cst_12_apply, val_main_v56_apply, val_main_v55_apply, e1, e2]
  rfl

/-! ## The corner boxes: the four columns joined side by side

Column `c` of the joined array is the `c`-th piece (each piece is one column wide, so `c` pieces come before it). -/

theorem pbox0 : val_main_v48 (F := Ideal) x1 (ix2 n (0 : Fin 4)) = MatchCost.x0 (prow x1 n) := by
  unfold val_main_v48
  exact (concatenate_apply_piece _ _ _ (ix2 n (0 : Fin 4)) 0 (by show (0 : ℕ) < 4; decide) S14400x1
    (val_main_v44 (F := Ideal) x1) rfl rfl 0 rfl (ix2 n (0 : Fin 1))
    (fun b hb => match b, hb with
      | ⟨0, _⟩, _ => rfl
      | ⟨1, _⟩, hb => absurd rfl hb)
    rfl).trans (pcol0 x1 n)

theorem pbox1 : val_main_v48 (F := Ideal) x1 (ix2 n (1 : Fin 4)) = MatchCost.y0 (prow x1 n) := by
  unfold val_main_v48
  exact (concatenate_apply_piece _ _ _ (ix2 n (1 : Fin 4)) 1 (by show (1 : ℕ) < 4; decide) S14400x1
    (val_main_v45 (F := Ideal) x1) rfl rfl 1 rfl (ix2 n (0 : Fin 1))
    (fun b hb => match b, hb with
      | ⟨0, _⟩, _ => rfl
      | ⟨1, _⟩, hb => absurd rfl hb)
    rfl).trans (pcol1 x1 n)

theorem pbox2 : val_main_v48 (F := Ideal) x1 (ix2 n (2 : Fin 4)) = MatchCost.x1 (prow x1 n) := by
  unfold val_main_v48
  exact (concatenate_apply_piece _ _ _ (ix2 n (2 : Fin 4)) 2 (by show (2 : ℕ) < 4; decide) S14400x1
    (val_main_v46 (F := Ideal) x1) rfl rfl 2 rfl (ix2 n (0 : Fin 1))
    (fun b hb => match b, hb with
      | ⟨0, _⟩, _ => rfl
      | ⟨1, _⟩, hb => absurd rfl hb)
    rfl).trans (pcol2 x1 n)

theorem pbox3 : val_main_v48 (F := Ideal) x1 (ix2 n (3 : Fin 4)) = MatchCost.y1 (prow x1 n) := by
  unfold val_main_v48
  exact (concatenate_apply_piece _ _ _ (ix2 n (3 : Fin 4)) 3 (by show (3 : ℕ) < 4; decide) S14400x1
    (val_main_v47 (F := Ideal) x1) rfl rfl 3 rfl (ix2 n (0 : Fin 1))
    (fun b hb => match b, hb with
      | ⟨0, _⟩, _ => rfl
      | ⟨1, _⟩, hb => absurd rfl hb)
    rfl).trans (pcol3 x1 n)

theorem tbox0 : val_main_v73 (F := Ideal) x2 (ix2 j (0 : Fin 4)) = MatchCost.x0 (trow x2 j) := by
  unfold val_main_v73
  exact (concatenate_apply_piece _ _ _ (ix2 j (0 : Fin 4)) 0 (by show (0 : ℕ) < 4; decide) S3200x1
    (val_main_v69 (F := Ideal) x2) rfl rfl 0 rfl (ix2 j (0 : Fin 1))
    (fun b hb => match b, hb with
      | ⟨0, _⟩, _ => rfl
      | ⟨1, _⟩, hb => absurd rfl hb)
    rfl).trans (tcol0 x2 j)

theorem tbox1 : val_main_v73 (F := Ideal) x2 (ix2 j (1 : Fin 4)) = MatchCost.y0 (trow x2 j) := by
  unfold val_main_v73
  exact (concatenate_apply_piece _ _ _ (ix2 j (1 : Fin 4)) 1 (by show (1 : ℕ) < 4; decide) S3200x1
    (val_main_v70 (F := Ideal) x2) rfl rfl 1 rfl (ix2 j (0 : Fin 1))
    (fun b hb => match b, hb with
      | ⟨0, _⟩, _ => rfl
      | ⟨1, _⟩, hb => absurd rfl hb)
    rfl).trans (tcol1 x2 j)

theorem tbox2 : val_main_v73 (F := Ideal) x2 (ix2 j (2 : Fin 4)) = MatchCost.x1 (trow x2 j) := by
  unfold val_main_v73
  exact (concatenate_apply_piece _ _ _ (ix2 j (2 : Fin 4)) 2 (by show (2 : ℕ) < 4; decide) S3200x1
    (val_main_v71 (F := Ideal) x2) rfl rfl 2 rfl (ix2 j (0 : Fin 1))
    (fun b hb => match b, hb with
      | ⟨0, _⟩, _ => rfl
      | ⟨1, _⟩, hb => absurd rfl hb)
    rfl).trans (tcol2 x2 j)

theorem tbox3 : val_main_v73 (F := Ideal) x2 (ix2 j (3 : Fin 4)) = MatchCost.y1 (trow x2 j) := by
  unfold val_main_v73
  exact (concatenate_apply_piece _ _ _ (ix2 j (3 : Fin 4)) 3 (by show (3 : ℕ) < 4; decide) S3200x1
    (val_main_v72 (F := Ideal) x2) rfl rfl 3 rfl (ix2 j (0 : Fin 1))
    (fun b hb => match b, hb with
      | ⟨0, _⟩, _ => rfl
      | ⟨1, _⟩, hb => absurd rfl hb)
    rfl).trans (tcol3 x2 j)

/-! ## The areas (x1 − x0) · (y1 − y0) -/

theorem parea : val_main_v84 (F := Ideal) x1 (ix1 n) = MatchCost.area (prow x1 n) := by
  have e1 : idx_main_v74 (idx_main_v75 (ix1 n)) = ix2 n (2 : Fin 4) := by idx_pt2
  have e2 : idx_main_v76 (idx_main_v77 (ix1 n)) = ix2 n (0 : Fin 4) := by idx_pt2
  have e3 : idx_main_v79 (idx_main_v80 (ix1 n)) = ix2 n (3 : Fin 4) := by idx_pt2
  have e4 : idx_main_v81 (idx_main_v82 (ix1 n)) = ix2 n (1 : Fin 4) := by idx_pt2
  rw [val_main_v84_apply, val_main_v78_apply, val_main_v75_apply, val_main_v74_apply, val_main_v77_apply,
    val_main_v76_apply, val_main_v83_apply, val_main_v80_apply, val_main_v79_apply, val_main_v82_apply,
    val_main_v81_apply, e1, e2, e3, e4, pbox2, pbox0, pbox3, pbox1]
  rfl

theorem tarea : val_main_v95 (F := Ideal) x2 (ix1 j) = MatchCost.area (trow x2 j) := by
  have e1 : idx_main_v85 (idx_main_v86 (ix1 j)) = ix2 j (2 : Fin 4) := by idx_pt2
  have e2 : idx_main_v87 (idx_main_v88 (ix1 j)) = ix2 j (0 : Fin 4) := by idx_pt2
  have e3 : idx_main_v90 (idx_main_v91 (ix1 j)) = ix2 j (3 : Fin 4) := by idx_pt2
  have e4 : idx_main_v92 (idx_main_v93 (ix1 j)) = ix2 j (1 : Fin 4) := by idx_pt2
  rw [val_main_v95_apply, val_main_v89_apply, val_main_v86_apply, val_main_v85_apply, val_main_v88_apply,
    val_main_v87_apply, val_main_v94_apply, val_main_v91_apply, val_main_v90_apply, val_main_v93_apply,
    val_main_v92_apply, e1, e2, e3, e4, tbox2, tbox0, tbox3, tbox1]
  rfl

/-! ## The intersection: its two clipped sides, then their product -/

theorem iside0 : val_main_v111 (F := Ideal) x1 x2 (ix3 n j (0 : Fin 2))
    = max MatchCost.zero (min (MatchCost.x1 (prow x1 n)) (MatchCost.x1 (trow x2 j))
        - max (MatchCost.x0 (prow x1 n)) (MatchCost.x0 (trow x2 j))) := by
  have e1 : idx_main_v103 (idx_main_v104 (idx_main_v107 (ix3 n j (0 : Fin 2)))) = ix2 n (2 : Fin 4) := by idx_pt2
  have e2 : idx_main_v105 (idx_main_v106 (idx_main_v108 (ix3 n j (0 : Fin 2)))) = ix2 j (2 : Fin 4) := by idx_pt2
  have e3 : idx_main_v96 (idx_main_v97 (idx_main_v100 (ix3 n j (0 : Fin 2)))) = ix2 n (0 : Fin 4) := by idx_pt2
  have e4 : idx_main_v98 (idx_main_v99 (idx_main_v101 (ix3 n j (0 : Fin 2)))) = ix2 j (0 : Fin 4) := by idx_pt2
  rw [val_main_v111_apply, val_main_call1_v1_apply, val_main_call1_v0_apply, val_main_cst_13_apply,
    val_main_v110_apply, val_main_v109_apply, val_main_v107_apply, val_main_v104_apply, val_main_v103_apply,
    val_main_v108_apply, val_main_v106_apply, val_main_v105_apply, val_main_v102_apply, val_main_v100_apply,
    val_main_v97_apply, val_main_v96_apply, val_main_v101_apply, val_main_v99_apply, val_main_v98_apply,
    e1, e2, e3, e4, pbox2, tbox2, pbox0, tbox0]
  rfl

theorem iside1 : val_main_v111 (F := Ideal) x1 x2 (ix3 n j (1 : Fin 2))
    = max MatchCost.zero (min (MatchCost.y1 (prow x1 n)) (MatchCost.y1 (trow x2 j))
        - max (MatchCost.y0 (prow x1 n)) (MatchCost.y0 (trow x2 j))) := by
  have e1 : idx_main_v103 (idx_main_v104 (idx_main_v107 (ix3 n j (1 : Fin 2)))) = ix2 n (3 : Fin 4) := by idx_pt2
  have e2 : idx_main_v105 (idx_main_v106 (idx_main_v108 (ix3 n j (1 : Fin 2)))) = ix2 j (3 : Fin 4) := by idx_pt2
  have e3 : idx_main_v96 (idx_main_v97 (idx_main_v100 (ix3 n j (1 : Fin 2)))) = ix2 n (1 : Fin 4) := by idx_pt2
  have e4 : idx_main_v98 (idx_main_v99 (idx_main_v101 (ix3 n j (1 : Fin 2)))) = ix2 j (1 : Fin 4) := by idx_pt2
  rw [val_main_v111_apply, val_main_call1_v1_apply, val_main_call1_v0_apply, val_main_cst_13_apply,
    val_main_v110_apply, val_main_v109_apply, val_main_v107_apply, val_main_v104_apply, val_main_v103_apply,
    val_main_v108_apply, val_main_v106_apply, val_main_v105_apply, val_main_v102_apply, val_main_v100_apply,
    val_main_v97_apply, val_main_v96_apply, val_main_v101_apply, val_main_v99_apply, val_main_v98_apply,
    e1, e2, e3, e4, pbox3, tbox3, pbox1, tbox1]
  rfl

/-- Entry (n, j) of a [14400, 3200] array is entry n · 3200 + j of its flattening: the quotient by 3200 is n. -/
theorem row_of_flat : (n.val * 3200 + j.val) / 3200 = n.val := by
  have := j.isLt; omega
/-- … and the remainder is j. -/
theorem col_of_flat : (n.val * 3200 + j.val) / 1 % 3200 = j.val := by
  have := j.isLt; omega

theorem inter_at : val_main_v116 (F := Ideal) x1 x2 (ix2 n j) = MatchCost.interR (prow x1 n) (trow x2 j) := by
  have e1 : idx_main_v112 (idx_main_v113 (ix2 n j)) = ix3 n j (0 : Fin 2) := by
    funext a; match a with
    | ⟨0, _⟩ => exact Fin.ext (row_of_flat n j)
    | ⟨1, _⟩ => exact Fin.ext (col_of_flat n j)
    | ⟨2, _⟩ => rfl
  have e2 : idx_main_v114 (idx_main_v115 (ix2 n j)) = ix3 n j (1 : Fin 2) := by
    funext a; match a with
    | ⟨0, _⟩ => exact Fin.ext (row_of_flat n j)
    | ⟨1, _⟩ => exact Fin.ext (col_of_flat n j)
    | ⟨2, _⟩ => rfl
  rw [val_main_v116_apply, val_main_v113_apply, val_main_v112_apply, val_main_v115_apply, val_main_v114_apply,
    e1, e2, iside0, iside1]
  rfl

/-! ## The union: the two areas less the intersection -/

theorem union_at : val_main_v122 (F := Ideal) x1 x2 (ix2 n j) = MatchCost.unionR (prow x1 n) (trow x2 j) := by
  have e1 : idx_main_v117 (idx_main_v119 (ix2 n j)) = ix1 n := by idx_pt1
  have e2 : idx_main_v118 (idx_main_v120 (ix2 n j)) = ix1 j := by idx_pt1
  rw [val_main_v122_apply, val_main_v121_apply, val_main_v119_apply, val_main_v117_apply, val_main_v120_apply,
    val_main_v118_apply, e1, e2, parea, tarea, inter_at]
  rfl

/-! ## The enclosing box: its two clipped sides, then their product -/

theorem hside0 : val_main_v139 (F := Ideal) x1 x2 (ix3 n j (0 : Fin 2))
    = max MatchCost.zero (max (MatchCost.x1 (prow x1 n)) (MatchCost.x1 (trow x2 j))
        - min (MatchCost.x0 (prow x1 n)) (MatchCost.x0 (trow x2 j))) := by
  have e1 : idx_main_v131 (idx_main_v132 (idx_main_v135 (ix3 n j (0 : Fin 2)))) = ix2 n (2 : Fin 4) := by idx_pt2
  have e2 : idx_main_v133 (idx_main_v134 (idx_main_v136 (ix3 n j (0 : Fin 2)))) = ix2 j (2 : Fin 4) := by idx_pt2
  have e3 : idx_main_v124 (idx_main_v125 (idx_main_v128 (ix3 n j (0 : Fin 2)))) = ix2 n (0 : Fin 4) := by idx_pt2
  have e4 : idx_main_v126 (idx_main_v127 (idx_main_v129 (ix3 n j (0 : Fin 2)))) = ix2 j (0 : Fin 4) := by idx_pt2
  rw [val_main_v139_apply, val_main_call2_v1_apply, val_main_call2_v0_apply, val_main_cst_14_apply,
    val_main_v138_apply, val_main_v137_apply, val_main_v135_apply, val_main_v132_apply, val_main_v131_apply,
    val_main_v136_apply, val_main_v134_apply, val_main_v133_apply, val_main_v130_apply, val_main_v128_apply,
    val_main_v125_apply, val_main_v124_apply, val_main_v129_apply, val_main_v127_apply, val_main_v126_apply,
    e1, e2, e3, e4, pbox2, tbox2, pbox0, tbox0]
  rfl

theorem hside1 : val_main_v139 (F := Ideal) x1 x2 (ix3 n j (1 : Fin 2))
    = max MatchCost.zero (max (MatchCost.y1 (prow x1 n)) (MatchCost.y1 (trow x2 j))
        - min (MatchCost.y0 (prow x1 n)) (MatchCost.y0 (trow x2 j))) := by
  have e1 : idx_main_v131 (idx_main_v132 (idx_main_v135 (ix3 n j (1 : Fin 2)))) = ix2 n (3 : Fin 4) := by idx_pt2
  have e2 : idx_main_v133 (idx_main_v134 (idx_main_v136 (ix3 n j (1 : Fin 2)))) = ix2 j (3 : Fin 4) := by idx_pt2
  have e3 : idx_main_v124 (idx_main_v125 (idx_main_v128 (ix3 n j (1 : Fin 2)))) = ix2 n (1 : Fin 4) := by idx_pt2
  have e4 : idx_main_v126 (idx_main_v127 (idx_main_v129 (ix3 n j (1 : Fin 2)))) = ix2 j (1 : Fin 4) := by idx_pt2
  rw [val_main_v139_apply, val_main_call2_v1_apply, val_main_call2_v0_apply, val_main_cst_14_apply,
    val_main_v138_apply, val_main_v137_apply, val_main_v135_apply, val_main_v132_apply, val_main_v131_apply,
    val_main_v136_apply, val_main_v134_apply, val_main_v133_apply, val_main_v130_apply, val_main_v128_apply,
    val_main_v125_apply, val_main_v124_apply, val_main_v129_apply, val_main_v127_apply, val_main_v126_apply,
    e1, e2, e3, e4, pbox3, tbox3, pbox1, tbox1]
  rfl

theorem hull_at : val_main_v144 (F := Ideal) x1 x2 (ix2 n j) = MatchCost.hullR (prow x1 n) (trow x2 j) := by
  have e1 : idx_main_v140 (idx_main_v141 (ix2 n j)) = ix3 n j (0 : Fin 2) := by
    funext a; match a with
    | ⟨0, _⟩ => exact Fin.ext (row_of_flat n j)
    | ⟨1, _⟩ => exact Fin.ext (col_of_flat n j)
    | ⟨2, _⟩ => rfl
  have e2 : idx_main_v142 (idx_main_v143 (ix2 n j)) = ix3 n j (1 : Fin 2) := by
    funext a; match a with
    | ⟨0, _⟩ => exact Fin.ext (row_of_flat n j)
    | ⟨1, _⟩ => exact Fin.ext (col_of_flat n j)
    | ⟨2, _⟩ => rfl
  rw [val_main_v144_apply, val_main_v141_apply, val_main_v140_apply, val_main_v143_apply, val_main_v142_apply,
    e1, e2, hside0, hside1]
  rfl

end

/-! ## The negated generalized intersection over union -/

/-- Entry (n, j) of the reference's negated-GIoU stage is `−giouR` of predicted box n and target box j. -/
theorem giou_at (x1 : (⟨S16x900x4, .f32⟩ : BufTy).Contents (Elt Ideal)) (x2 : (⟨S3200x4, .f32⟩ : BufTy).Contents (Elt Ideal)) (n : Fin 14400) (j : Fin 3200) :
    val_main_v148 (F := Ideal) x1 x2 (ix2 n j)
      = -(MatchCost.giouR (fun k => val_main_v7 (F := Ideal) x1 (ix2 n k)) (fun k => x2 (ix2 j k))) := by
  rw [val_main_v148_apply, val_main_v147_apply, val_main_v123_apply, val_main_v146_apply, val_main_v145_apply,
    inter_at, union_at, hull_at]
  rfl

end Cert.ReferenceIdeal.Hand

end
-- ==== Proof.RefCls.lean ====
/-
  The reference's class term at one entry. The two focal tables (positive and negative part, one column per class) are read at
  the target's label by a take along the class axis: a label word that is the class number `id` is not negative, so it is not
  shifted by 42, and it is below 42, so the take's clamp into 0 … 41 leaves it alone; entry (n, j) is the difference of the two
  tables at row n and column `id`.
-/
import proofs.«407717_j61641370632782_3_alg».proof.Proof.RefRead
import proofs.«407717_j61641370632782_3_alg».proof.Proof.Cost
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read

/-! ## The take along the class axis, read at an entry -/

/-- The take along the class axis, read at (n, j): the table at row n and at the column that target j's start index names,
    read as a signed integer and clamped into 0 … 41. -/
theorem gather_cls_apply {α : Type} (x : S14400x42.Idx → α) (idx : IVec S3200x1 32) (n : Fin 14400) (j : Fin 3200) :
    Host.gather gather_S14400x42_S3200x1_S14400x3200_0_1_n_n_1_1_144001 x idx (ix2 n j)
      = x (ix2 n ⟨min (idx (ix2 j (0 : Fin 1))).toInt.toNat 41, by omega⟩) := by
  unfold Host.gather
  congr 1
  funext a
  refine Fin.ext ?_
  match a with
  | ⟨0, _⟩ =>
    -- the row axis is the one offset axis: no start index, no batching, the result's own row coordinate
    show gather_S14400x42_S3200x1_S14400x3200_0_1_n_n_1_1_144001.start (ix2 n j) idx 0
        + gather_S14400x42_S3200x1_S14400x3200_0_1_n_n_1_1_144001.batchCoord (ix2 n j) 0
        + gather_S14400x42_S3200x1_S14400x3200_0_1_n_n_1_1_144001.offCoord (ix2 n j) 0 = n.val
    have hs : (0 : Fin S14400x42.rank) ∉ gather_S14400x42_S3200x1_S14400x3200_0_1_n_n_1_1_144001.startIndexMap := by decide
    have hk : (0 : Fin S14400x42.rank) ∈ gather_S14400x42_S3200x1_S14400x3200_0_1_n_n_1_1_144001.sKept := by decide
    rw [GatherDims.batchCoord_eq_zero _ _ _ List.not_mem_nil]
    unfold GatherDims.start GatherDims.offCoord
    rw [dif_neg hs, dif_pos hk]
    have hi : List.idxOf (0 : Fin S14400x42.rank) gather_S14400x42_S3200x1_S14400x3200_0_1_n_n_1_1_144001.sKept = 0 := by decide
    simp only [hi, Nat.zero_add]
    rfl
  | ⟨1, _⟩ =>
    -- the class axis is collapsed and start-indexed: the clamped start index alone
    show gather_S14400x42_S3200x1_S14400x3200_0_1_n_n_1_1_144001.start (ix2 n j) idx 1
        + gather_S14400x42_S3200x1_S14400x3200_0_1_n_n_1_1_144001.batchCoord (ix2 n j) 1
        + gather_S14400x42_S3200x1_S14400x3200_0_1_n_n_1_1_144001.offCoord (ix2 n j) 1 = min (idx (ix2 j (0 : Fin 1))).toInt.toNat 41
    have hm : (1 : Fin S14400x42.rank) ∈ gather_S14400x42_S3200x1_S14400x3200_0_1_n_n_1_1_144001.startIndexMap :=
      List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : gather_S14400x42_S3200x1_S14400x3200_0_1_n_n_1_1_144001.siIdx (ix2 n j)
        ⟨List.idxOf (1 : Fin S14400x42.rank) gather_S14400x42_S3200x1_S14400x3200_0_1_n_n_1_1_144001.startIndexMap,
          List.idxOf_lt_length_iff.2 hm⟩ = ix2 j (0 : Fin 1) := by
      funext b; refine Fin.ext ?_
      match b with
      | ⟨0, _⟩ => rfl
      | ⟨1, _⟩ => rfl
    rw [hsi]
    rfl

/-- A class number below 42, written as a 32-bit word, has that number as its unsigned value. -/
theorem label_toNat (id : Fin 42) : (BitVec.ofNat 32 id.val).toNat = id.val := by
  rw [BitVec.toNat_ofNat]
  exact Nat.mod_eq_of_lt (by have := id.isLt; omega)

/-- Such a word is not negative as a signed integer: the signed compare against zero answers the bit 0. -/
theorem label_not_neg (id : Fin 42) : IntOp.cmpi .slt (BitVec.ofNat 32 id.val) 0#32 = 0#1 := by
  refine eq_zero_of_ne_one fun h => ?_
  have h' := (StableHlo.Predicate.slt_iff_toNat (a := BitVec.ofNat 32 id.val) (b := 0#32)
    (by rw [label_toNat]; have := id.isLt; omega) (by decide)).mp h
  exact Nat.not_lt_zero _ h'

/-- When the start index at (j, 0) is the word of a class number `id`, the clamp leaves it alone and the take reads column `id`. -/
theorem gather_cls_at {α : Type} (x : S14400x42.Idx → α) (idx : IVec S3200x1 32) (n : Fin 14400) (j : Fin 3200) (id : Fin 42)
    (h : idx (ix2 j (0 : Fin 1)) = BitVec.ofNat 32 id.val) :
    Host.gather gather_S14400x42_S3200x1_S14400x3200_0_1_n_n_1_1_144001 x idx (ix2 n j) = x (ix2 n id) := by
  rw [gather_cls_apply]
  refine congrArg (fun k : Fin 42 => x (ix2 n k)) (Fin.ext ?_)
  show min (idx (ix2 j (0 : Fin 1))).toInt.toNat 41 = id.val
  rw [h, StableHlo.Predicate.toInt_ofNat_small id.val (by have := id.isLt; omega), Int.toNat_natCast]
  exact Nat.min_eq_left (by have := id.isLt; omega)

/-! ## The start indices: the label, normalised and laid as a column -/

/-- The first take's start index at (j, 0): the label word itself (the select on "label < 0" keeps it). -/
theorem start_pos_at (x3 : (⟨S3200, .i32⟩ : BufTy).Contents (Elt Ideal)) (j : Fin 3200) (id : Fin 42)
    (hid : (x3 : IVec S3200 32) (ix1 j) = BitVec.ofNat 32 id.val) :
    (val_main_v176 (F := Ideal) x3 : IVec S3200x1 32) (ix2 j (0 : Fin 1)) = BitVec.ofNat 32 id.val := by
  have hi : idx_main_v176 (ix2 j (0 : Fin 1)) = ix1 j := by
    funext a; match a with | ⟨0, _⟩ => rfl
  rw [val_main_v176_apply, hi, val_main_v175_apply, val_main_v172_apply, val_main_v171_apply, val_main_c_apply, hid,
    label_not_neg, select_zero]

/-- The second take's start index at (j, 0): the same word, computed a second time by the program. -/
theorem start_neg_at (x3 : (⟨S3200, .i32⟩ : BufTy).Contents (Elt Ideal)) (j : Fin 3200) (id : Fin 42)
    (hid : (x3 : IVec S3200 32) (ix1 j) = BitVec.ofNat 32 id.val) :
    (val_main_v183 (F := Ideal) x3 : IVec S3200x1 32) (ix2 j (0 : Fin 1)) = BitVec.ofNat 32 id.val := by
  have hi : idx_main_v183 (ix2 j (0 : Fin 1)) = ix1 j := by
    funext a; match a with | ⟨0, _⟩ => rfl
  rw [val_main_v183_apply, hi, val_main_v182_apply, val_main_v179_apply, val_main_v178_apply, val_main_c_24_apply, hid,
    label_not_neg, select_zero]

/-! ## The two focal tables at an entry -/

/-- The logistic function of the logit, spelt 1 / (1 + e^(−x)). -/
theorem sig_at (x0 : (⟨S16x900x42, .f32⟩ : BufTy).Contents (Elt Ideal)) (i : S14400x42.Idx) :
    val_main_v6 (F := Ideal) x0 i = MatchCost.sigR (val_main_v0 (F := Ideal) x0 i) := by
  rw [val_main_v6_apply, val_main_v5_apply, val_main_cst_0_apply, val_main_v4_apply, val_main_v3_apply, val_main_cst_apply,
    val_main_v2_apply, val_main_v1_apply]
  simp only [Ideal.hostDivf_def, Ideal.addf_def, Ideal.hostUnary_exp_def, Ideal.hostNegf_def, Ideal.negf_def, Ideal.ofBits_def]
  rfl

/-- The negative part: ¾ · p² · (−log (1 − p + ε)), p the logistic function of the logit. -/
theorem neg_at (x0 : (⟨S16x900x42, .f32⟩ : BufTy).Contents (Elt Ideal)) (i : S14400x42.Idx) :
    val_main_v159 (F := Ideal) x0 i = MatchCost.negR (val_main_v0 (F := Ideal) x0 i) := by
  rw [val_main_v159_apply, val_main_v152_apply, val_main_v151_apply, val_main_cst_16_apply, val_main_v150_apply,
    val_main_v149_apply, val_main_cst_15_apply, val_main_v158_apply, val_main_v157_apply, val_main_v156_apply,
    val_main_v154_apply, val_main_v153_apply, val_main_cst_17_apply, val_main_v155_apply, val_main_cst_18_apply, sig_at]
  simp only [Ideal.mulf_def, Ideal.hostPowf_def, Ideal.hostNegf_def, Ideal.negf_def, Ideal.hostUnary_log_def, Ideal.addf_def,
    Ideal.subf_def, Ideal.ofBits_def]
  rfl

/-- The positive part: ¼ · (1 − p)² · (−log (p + ε)). -/
theorem pos_at (x0 : (⟨S16x900x42, .f32⟩ : BufTy).Contents (Elt Ideal)) (i : S14400x42.Idx) :
    val_main_v170 (F := Ideal) x0 i = MatchCost.posR (val_main_v0 (F := Ideal) x0 i) := by
  rw [val_main_v170_apply, val_main_v165_apply, val_main_v164_apply, val_main_cst_21_apply, val_main_v163_apply,
    val_main_v161_apply, val_main_v160_apply, val_main_cst_19_apply, val_main_v162_apply, val_main_cst_20_apply,
    val_main_v169_apply, val_main_v168_apply, val_main_v167_apply, val_main_v166_apply, val_main_cst_22_apply, sig_at]
  simp only [Ideal.mulf_def, Ideal.hostPowf_def, Ideal.hostNegf_def, Ideal.negf_def, Ideal.hostUnary_log_def, Ideal.addf_def,
    Ideal.subf_def, Ideal.ofBits_def]
  rfl

/-! ## The class term -/

/-- Entry (n, j) of the reference's class-difference stage, when target j's label word is the class number `id`. -/
theorem cls_at (x0 : (⟨S16x900x42, .f32⟩ : BufTy).Contents (Elt Ideal)) (x3 : (⟨S3200, .i32⟩ : BufTy).Contents (Elt Ideal)) (n : Fin 14400) (j : Fin 3200) (id : Fin 42)
    (hid : (x3 : IVec S3200 32) (ix1 j) = BitVec.ofNat 32 id.val) :
    val_main_v185 (F := Ideal) x0 x3 (ix2 n j)
      = MatchCost.posR (val_main_v0 (F := Ideal) x0 (ix2 n id)) - MatchCost.negR (val_main_v0 (F := Ideal) x0 (ix2 n id)) := by
  rw [val_main_v185_apply]
  unfold val_main_v177 val_main_v184
  rw [gather_cls_at _ _ n j id (start_pos_at x3 j id hid), gather_cls_at _ _ n j id (start_neg_at x3 j id hid),
    pos_at, neg_at]
  rfl

end Cert.ReferenceIdeal.Hand

end
-- ==== Proof.RefAt.lean ====
/-
  The reference's [14400, 3200] result before its final re-laying, entry by entry: 5 · (box distance) + 2 · (class difference)
  + 2 · (negated GIoU) of prediction n and target j, which is the second spelling of the matching cost.
-/
import proofs.«407717_j61641370632782_3_alg».proof.Proof.RefRead
import proofs.«407717_j61641370632782_3_alg».proof.Proof.Cost
import proofs.«407717_j61641370632782_3_alg».proof.Proof.RefBox
import proofs.«407717_j61641370632782_3_alg».proof.Proof.RefGiou
import proofs.«407717_j61641370632782_3_alg».proof.Proof.RefCls
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Hand

open Cert.ReferenceIdeal Cert.ReferenceIdeal.Gen Cert.ReferenceIdeal.Read

/-- Entry (n, j) of the reference's total, when target j's label word is the class number `id`. -/
theorem ref_at (x0 : (⟨S16x900x42, .f32⟩ : BufTy).Contents (Elt Ideal)) (x1 : (⟨S16x900x4, .f32⟩ : BufTy).Contents (Elt Ideal)) (x2 : (⟨S3200x4, .f32⟩ : BufTy).Contents (Elt Ideal)) (x3 : (⟨S3200, .i32⟩ : BufTy).Contents (Elt Ideal)) (n : Fin 14400) (j : Fin 3200) (id : Fin 42)
    (hid : (x3 : IVec S3200 32) (ix1 j) = BitVec.ofNat 32 id.val) :
    val_main_v193 (F := Ideal) x0 x1 x2 x3 (ix2 n j)
      = MatchCost.costR (fun k => val_main_v0 (F := Ideal) x0 (ix2 n k)) (fun k => val_main_v7 (F := Ideal) x1 (ix2 n k)) (fun k => x2 (ix2 j k)) id := by
  rw [val_main_v193_apply, val_main_v190_apply, val_main_v187_apply, val_main_v189_apply, val_main_v192_apply,
    val_main_v186_apply, val_main_v188_apply, val_main_v191_apply, val_main_cst_26_apply, val_main_cst_27_apply, val_main_cst_28_apply,
    box_at, giou_at, cls_at x0 x3 n j id hid]
  simp only [Ideal.mulf_def, Ideal.addf_def, Ideal.ofBits_def]
  rfl

end Cert.ReferenceIdeal.Hand

end
-- ==== Proof.CostBridge.lean ====
/-
  The two spellings of the matching cost of one (prediction, target) pair are one number when the logits and the box
  coordinates are real. What has to be seen: a sum of four squares with or without a leading zero; the factor 2 moved
  inside an inner product of reals; `max x 0 = max 0 x`; `0 − y = −y`; the logistic function against `1 / (1 + e^(−x))`;
  `s · s` against the real power `s ^ 2`; a sum over the classes against a column that is 2 at the label and 0 elsewhere;
  and three summands added in another order. Only the literals 0, 1 and 2 are evaluated.
-/
import proofs.«407717_j61641370632782_3_alg».proof.Proof.Cost

noncomputable section

namespace MatchCost

open Idealize.ShloMosaic

/-! ## The three literals that are evaluated -/

/-- The pattern of `+0.0` denotes `0`. -/
theorem zero_eq : zero = 0 := Ideal.ofBits_zero_f32

/-- The pattern of `1.0` denotes `1`. -/
theorem one_eq : one = 1 := by
  simp [Ideal.ofBits, Ideal.ieee, -EReal.coe_mul]; norm_num

/-- The pattern of `2.0` denotes the real `2`. -/
theorem two_eq : two = ((2 : ℝ) : EReal) := by
  simp [Ideal.ofBits, Ideal.ieee, -EReal.coe_mul]; norm_num

/-! ## The distance part -/

/-- A four-term sum of squares, with or without a leading zero. -/
theorem sq_eq (a : Fin 4 → EReal) : sqK a = sqR a := by
  unfold sqK sqR
  rw [zero_eq, zero_add, Fin.sum_univ_four]

/-- The factor 2 moves inside an inner product of reals: both sides are the coercion of one real number. -/
theorem inner_two (a b : Fin 4 → ℝ) :
    two * (∑ k : Fin 4, (a k : EReal) * (b k : EReal)) = ∑ k : Fin 4, (two * (a k : EReal)) * (b k : EReal) := by
  rw [two_eq, Fin.sum_univ_four, Fin.sum_univ_four]
  simp only [← EReal.coe_mul, ← EReal.coe_add]
  congr 1; ring

theorem dist_eq (a b : Fin 4 → ℝ) :
    distK (fun k => (a k : EReal)) (fun k => (b k : EReal))
      = distR (fun k => (a k : EReal)) (fun k => (b k : EReal)) := by
  unfold distK distR
  rw [sq_eq, sq_eq, inner_two, max_comm]

/-! ## The box-overlap part: only the order of the operands of `max · 0` differs -/

theorem inter_eq (a b : Fin 4 → EReal) : interK a b = interR a b := by
  unfold interK interR
  rw [max_comm (min (x1 a) (x1 b) - max (x0 a) (x0 b)) zero, max_comm (min (y1 a) (y1 b) - max (y0 a) (y0 b)) zero]

theorem hull_eq (a b : Fin 4 → EReal) : hullK a b = hullR a b := by
  unfold hullK hullR
  rw [max_comm (max (x1 a) (x1 b) - min (x0 a) (x0 b)) zero, max_comm (max (y1 a) (y1 b) - min (y0 a) (y0 b)) zero]

theorem union_eq (a b : Fin 4 → EReal) : unionK a b = unionR a b := by
  unfold unionK unionR
  rw [inter_eq]

theorem giou_eq (a b : Fin 4 → EReal) : giouK a b = giouR a b := by
  unfold giouK giouR
  rw [inter_eq, hull_eq, union_eq]

/-! ## The class part -/

/-- The logistic function is `1 / (1 + e^(−x))` by definition; only the literal `1` has to be read. -/
theorem logistic_eq_sig (x : EReal) : Ideal.logistic x = sigR x := by
  unfold sigR Ideal.logistic
  rw [one_eq]

/-- A real number times itself is its real power with exponent 2. -/
theorem mul_self_eq_pow (s : ℝ) : (s : EReal) * (s : EReal) = Ideal.pow (s : EReal) two := by
  rw [two_eq, Ideal.pow_coe_coe, Real.rpow_eq_pow, Real.rpow_two, sq, EReal.coe_mul]

/-- At a real logit, `1 − σ` is a real number. -/
theorem one_sub_logistic (x : ℝ) :
    one - Ideal.logistic (x : EReal) = ((1 - (1 + Real.exp (-x))⁻¹ : ℝ) : EReal) := by
  rw [one_eq, Ideal.logistic_coe, EReal.coe_sub, EReal.coe_one]

theorem pos_eq (x : ℝ) : posK (x : EReal) = posR (x : EReal) := by
  unfold posK posR
  rw [← logistic_eq_sig, one_sub_logistic, mul_self_eq_pow, zero_eq, zero_sub]

theorem neg_eq (x : ℝ) : negK (x : EReal) = negR (x : EReal) := by
  unfold negK negR
  rw [← logistic_eq_sig, Ideal.logistic_coe, mul_self_eq_pow, zero_eq, zero_sub]

/-- Against the column that is 2 at the label and 0 elsewhere, a sum over the classes keeps the label's term, doubled. -/
theorem class_sum (d : Fin 42 → EReal) (id : Fin 42) : ∑ k : Fin 42, d k * ohcol id k = two * d id := by
  rw [Finset.sum_eq_single id]
  · unfold ohcol
    rw [if_pos rfl, EReal.coe_one, one_mul, mul_comm]
  · intro k _ hk
    unfold ohcol
    rw [if_neg hk, EReal.coe_zero, zero_mul, mul_zero]
  · intro h
    exact absurd (Finset.mem_univ id) h

/-! ## The whole cost -/

/-- On real logits and real box coordinates, with the label given as its column of weights, the two spellings are one number. -/
theorem cost_bridge (ℓ : Fin 42 → ℝ) (a b : Fin 4 → ℝ) (id : Fin 42) :
    costK (fun k => (ℓ k : EReal)) (fun k => (a k : EReal)) (fun k => (b k : EReal)) (ohcol id)
      = costR (fun k => (ℓ k : EReal)) (fun k => (a k : EReal)) (fun k => (b k : EReal)) id := by
  unfold costK costR
  rw [class_sum (fun k => posK (ℓ k : EReal) - negK (ℓ k : EReal)) id, pos_eq, neg_eq, dist_eq, giou_eq, zero_eq,
    zero_sub, add_right_comm]

end MatchCost

end
-- ==== Proof.Meet.lean ====
/-
  Where the two programs meet. Started from memories that agree on the four arguments, the kernel's finished [14400, 3200]
  array and the reference's total before its last re-laying are the same function: at (n, j) both are the matching cost of
  prediction n and target j. The kernel's side reads the arrays as its region finds them: the re-laid logits and boxes are
  the reference's own first two stages, the transposed target boxes give back target j's coordinates, and column j of the label
  table is the label's column of weights. The precondition makes every coordinate and logit real and every label a class
  number, which is what lets the two spellings of the cost be identified.
-/
import proofs.«407717_j61641370632782_3_alg».proof.Proof.KernelArr
import proofs.«407717_j61641370632782_3_alg».proof.Proof.HostPre
import proofs.«407717_j61641370632782_3_alg».proof.Proof.PreFacts
import proofs.«407717_j61641370632782_3_alg».proof.Proof.RefAt
import proofs.«407717_j61641370632782_3_alg».proof.Proof.CostBridge
import proofs.«407717_j61641370632782_3_alg».proof.Proof.Gen.Pre_finite_inputs

noncomputable section

open Idealize.ShloMosaic Idealize.ShloMosaic.TcCoe Idealize.SL.Sem Idealize.ShloMosaic.ValueIdx

namespace Cert.Meet

open Cert.KernelIdeal Cert.KernelIdeal.Gen Cert.KernelIdeal.Hand

variable (m : (ℓ : Loc nD τ sig) → Buf (Elt Ideal) ℓ)

/-- Under the precondition's consequences, the reference's total of the kernel's arguments is the kernel's finished array. -/
theorem arrays_agree (c : Dev nD)
    (h0 : ∀ i, ∃ r : ℝ, (m ((c : Thread nD τ).loc main_arg0) : S16x900x42.Idx → EReal) i = (r : EReal))
    (h1 : ∀ i, ∃ r : ℝ, (m ((c : Thread nD τ).loc main_arg1) : S16x900x4.Idx → EReal) i = (r : EReal))
    (h2 : ∀ i, ∃ r : ℝ, (m ((c : Thread nD τ).loc main_arg2) : S3200x4.Idx → EReal) i = (r : EReal))
    (h3 : ∀ j : Fin 3200, ∃ id : Fin 42, (m ((c : Thread nD τ).loc main_arg3) : IVec S3200 32) (ix1 j) = BitVec.ofNat 32 id.val) :
    Cert.ReferenceIdeal.Read.val_main_v193 (F := Ideal) (m ((c : Thread nD τ).loc main_arg0)) (m ((c : Thread nD τ).loc main_arg1))
        (m ((c : Thread nD τ).loc main_arg2)) (m ((c : Thread nD τ).loc main_arg3))
      = karr m c := by
  funext i
  obtain ⟨n, j, rfl⟩ : ∃ (n : Fin 14400) (j : Fin 3200), i = ix2 n j := ⟨i 0, i 1, eq_ix2 i⟩
  obtain ⟨id, hid⟩ := h3 j
  rw [Cert.ReferenceIdeal.Hand.ref_at _ _ _ _ n j id hid]
  unfold karr
  -- the re-laid logits and boxes are the reference's first stages of the same arguments
  have eL : (V m c main_v0 : S14400x42.Idx → EReal) = Cert.ReferenceIdeal.Read.val_main_v0 (F := Ideal) (m ((c : Thread nD τ).loc main_arg0)) := V_logits m c
  have eB : (V m c main_v1 : S14400x4.Idx → EReal) = Cert.ReferenceIdeal.Read.val_main_v7 (F := Ideal) (m ((c : Thread nD τ).loc main_arg1)) := V_boxes m c
  simp only [eL, eB, V_targets_apply m c, V_labels_apply m c _ j id hid]
  -- every datum of the pair is real
  have hL : ∀ k : Fin 42, ∃ r : ℝ, Cert.ReferenceIdeal.Read.val_main_v0 (F := Ideal) (m ((c : Thread nD τ).loc main_arg0)) (ix2 n k) = (r : EReal) := fun k => by
    rw [Cert.ReferenceIdeal.Read.val_main_v0_apply]; exact h0 _
  have hA : ∀ k : Fin 4, ∃ r : ℝ, Cert.ReferenceIdeal.Read.val_main_v7 (F := Ideal) (m ((c : Thread nD τ).loc main_arg1)) (ix2 n k) = (r : EReal) := fun k => by
    rw [Cert.ReferenceIdeal.Read.val_main_v7_apply]; exact h1 _
  have hB : ∀ k : Fin 4, ∃ r : ℝ, (m ((c : Thread nD τ).loc main_arg2) : S3200x4.Idx → EReal) (ix2 j k) = (r : EReal) := fun k => h2 _
  choose ℓ hℓ using hL
  choose a ha using hA
  choose b hb using hB
  simp only [hℓ, ha, hb]
  exact (MatchCost.cost_bridge ℓ a b id).symm

end Cert.Meet

end
-- ==== Proof.lean ====
/-
  The certificate. The kernel computes, for 14400 predictions and 3200 targets, the matrix of matching costs
  5 · ‖a − b‖₂ + 2 · (−GIoU(a, b)) + 2 · (pos − neg)(logit of the target's label), tiled as thirty row blocks of 480, each stored in
  five column chunks; the reference computes the same matrix with whole-array operations, reading the class terms by a take
  at the labels where the kernel multiplies by a 0/2 label table. Under the precondition (finite floats, labels in 0 … 41)
  the two results agree entry by entry at exact arithmetic:
  • both word-level and idealized kernel programs terminate without fault and leave their arguments unchanged (the generated frames);
  • so does the reference (its generated run);
  • the idealization rewrote nothing, so there is nothing to preserve;
  • the kernel's finished array, re-laid as [16, 900, 3200], is the reference's result: the 2-D arrays agree entry by entry, and both
    programs end with the same re-laying.
-/
import proofs.«407717_j61641370632782_3_alg».proof.Defs
import proofs.«407717_j61641370632782_3_alg».proof.Proof.Gen.Kernel
import proofs.«407717_j61641370632782_3_alg».proof.Proof.Gen.Kernel.Skeleton
import proofs.«407717_j61641370632782_3_alg».proof.Proof.Gen.Kernel.Launch
import proofs.«407717_j61641370632782_3_alg».proof.Proof.Gen.Kernel.Points
import proofs.«407717_j61641370632782_3_alg».proof.Proof.Gen.Kernel.Frame
import proofs.«407717_j61641370632782_3_alg».proof.Proof.Gen.KernelIdeal
import proofs.«407717_j61641370632782_3_alg».proof.Proof.Gen.KernelIdeal.Skeleton
import proofs.«407717_j61641370632782_3_alg».proof.Proof.Gen.KernelIdeal.Launch
import proofs.«407717_j61641370632782_3_alg».proof.Proof.Gen.KernelIdeal.Points
import proofs.«407717_j61641370632782_3_alg».proof.Proof.Gen.KernelIdeal.Frame
import proofs.«407717_j61641370632782_3_alg».proof.Proof.Gen.ReferenceIdeal
import proofs.«407717_j61641370632782_3_alg».proof.Proof.Gen.Pre_finite_inputs
import proofs.«407717_j61641370632782_3_alg».proof.Proof.RefRun
import proofs.«407717_j61641370632782_3_alg».proof.Proof.RefRead
import proofs.«407717_j61641370632782_3_alg».proof.Proof.Meet
import Idealize.ShloMosaic.Adequacy
import Idealize.ShloMosaic.Init

noncomputable section

namespace Cert.Proof

open Idealize.ShloMosaic Idealize.ShloMosaic.TcCoe Idealize.SL.Sem

/-- The word-level kernel program terminates without fault, its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs' results are equal: the kernel's finished cost matrix, re-laid, is what the reference's run ends on. -/
theorem algebraic : Cert.algebraic_KernelIdeal_ReferenceIdeal := by
  intro m ρ m' ρ' hpre hagree
  refine ⟨fun c => shapeCast Cert.KernelIdeal.S16x900x3200 (Cert.KernelIdeal.Hand.karr m c) Cert.KernelIdeal.Facts₀.shapeCasts_S14400x3200_S16x900x3200,
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v194_eq]
  unfold Cert.ReferenceIdeal.Read.val_main_v194
  obtain ⟨e0, e1, e2, e3⟩ := hagree c
  rw [e0, e1, e2, e3]
  obtain ⟨h0, h1, h2, h3⟩ := Cert.PreHand.pre_decode _ _ _ _ (hpre c)
  rw [Cert.Meet.arrays_agree m c h0 h1 h2 h3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
